-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S512x256 : Shape := ⟨2, ![512, 256]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S512x256 : S_.BroadcastsInDim S512x256 (![] : Fin 0 → Fin S512x256.rank)
  reducesTo_S512x256_S_d0_1 : S512x256.ReducesTo [0, 1] S_

variable [Facts]

def fn_part3 {F : FTy → Type} [FloatOps F] (main_arg3 : IVec S512x256 32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_c_20 : IVec S_ 32 := constantI S_ 32 0#32
  let main_v54 : IVec S512x256 32 := broadcastInDim S512x256 ![] bcast_S_S512x256 main_c_20
  let main_v55 : IVec S512x256 1 := cmpi .sge main_arg3 main_v54
  let main_c_21 : IVec S_ 32 := constantI S_ 32 100000#32
  let main_v56 : IVec S512x256 32 := broadcastInDim S512x256 ![] bcast_S_S512x256 main_c_21
  let main_v57 : IVec S512x256 1 := cmpi .slt main_arg3 main_v56
  let main_v58 : IVec S512x256 1 := andi main_v55 main_v57
  let main_c_22 : IVec S_ 1 := constantI S_ 1 1#1
  let main_v59 : IVec S_ 1 := (fun x v => Host.reduce IntOp.andi x v reducesTo_S512x256_S_d0_1 h_S_) main_v58 main_c_22
  let main_v60 : IVec S_ 1 := andi main_v53 main_v59
  main_v60

def fn_part2 {F : FTy → Type} [FloatOps F] (main_arg3 : IVec S512x256 32) (main_arg10 : FVec F S128x64 .f32) (main_arg11 : FVec F S64 .f32) (main_arg12 : FVec F S64x1 .f32) (main_arg13 : FVec F S1 .f32) (main_v33 : IVec S_ 1) : IVec S_ 1 :=
  let main_v34 : FVec F S128x64 .f32 := Host.absf main_arg10
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg12
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg13
  let main_cst_18 : FVec F S_ .f32 := constant S_ .f32 0x7F800000#32
  let main_v50 : FVec F S1 .f32 := broadcastInDim S1 ![] bcast_S_S1 main_cst_18
  fn_part3 (F := F) main_arg3 main_v48 main_v49 main_v50

def fn_part1 {F : FTy → Type} [FloatOps F] (main_arg3 : IVec S512x256 32) (main_arg7 : FVec F S64 .f32) (main_arg8 : FVec F S64x64 .f32) (main_arg9 : FVec F S64 .f32) (main_arg10 : FVec F S128x64 .f32) (main_arg11 : FVec F S64 .f32) (main_arg12 : FVec F S64x1 .f32) (main_arg13 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg8
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg3 main_arg10 main_arg11 main_arg12 main_arg13 main_v33

def fn {F : FTy → Type} [FloatOps F] (main_arg0 : FVec F S100000x128 .f32) (main_arg1 : IVec S2x3200000 32) (main_arg2 : IVec S100000 32) (main_arg3 : IVec S512x256 32) (main_arg4 : FVec F S128x64 .f32) (main_arg5 : FVec F S64 .f32) (main_arg6 : FVec F S64x64 .f32) (main_arg7 : FVec F S64 .f32) (main_arg8 : FVec F S64x64 .f32) (main_arg9 : FVec F S64 .f32) (main_arg10 : FVec F S128x64 .f32) (main_arg11 : FVec F S64 .f32) (main_arg12 : FVec F S64x1 .f32) (main_arg13 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg4
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg3 main_arg7 main_arg8 main_arg9 main_arg10 main_arg11 main_arg12 main_arg13 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S512x256 : Shape := ⟨2, ![512, 256]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩
abbrev S512x256x1 : Shape := ⟨3, ![512, 256, 1]⟩
abbrev S1x1x1 : Shape := ⟨3, ![1, 1, 1]⟩
abbrev S512x256x64 : Shape := ⟨3, ![512, 256, 64]⟩
abbrev S512x64 : Shape := ⟨2, ![512, 64]⟩
abbrev S512x1 : Shape := ⟨2, ![512, 1]⟩
abbrev S512 : Shape := ⟨1, ![512]⟩

abbrev nBuf : Space → Nat
  | .hbm => 161
  | .vmem => 38
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S512x256, .i32⟩
  | 4 => ⟨S128x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S128x64, .f32⟩
  | 11 => ⟨S64, .f32⟩
  | 12 => ⟨S64x1, .f32⟩
  | 13 => ⟨S1, .f32⟩
  | 14 => ⟨S100000, .i32⟩
  | 15 => ⟨S1x3200000, .i32⟩
  | 16 => ⟨S3200000, .i32⟩
  | 17 => ⟨S3300000, .i32⟩
  | 18 => ⟨S1x3200000, .i32⟩
  | 19 => ⟨S3200000, .i32⟩
  | 20 => ⟨S3300000, .i32⟩
  | 21 => ⟨S_, .f32⟩
  | 22 => ⟨S3300000, .f32⟩
  | 23 => ⟨S_, .f32⟩
  | 24 => ⟨S100000, .f32⟩
  | 25 => ⟨S3300000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000, .f32⟩
  | 56 => ⟨S3300000, .f32⟩
  | 57 => ⟨S3300000x1, .f32⟩
  | 58 => ⟨S100000x64, .f32⟩
  | 59 => ⟨S_, .i32⟩
  | 60 => ⟨S3300000, .i32⟩
  | 61 => ⟨S3300000, .i1⟩
  | 62 => ⟨S_, .i32⟩
  | 63 => ⟨S3300000, .i32⟩
  | 64 => ⟨S3300000, .i32⟩
  | 65 => ⟨S3300000, .i32⟩
  | 66 => ⟨S3300000x1, .i32⟩
  | 67 => ⟨S3300000x64, .f32⟩
  | 68 => ⟨S3300000x64, .f32⟩
  | 69 => ⟨S3300000x64, .f32⟩
  | 70 => ⟨S_, .f32⟩
  | 71 => ⟨S100000x64, .f32⟩
  | 72 => ⟨S3300000x1, .i32⟩
  | 73 => ⟨S100000x64, .f32⟩
  | 74 => ⟨S1x64, .f32⟩
  | 75 => ⟨S100000x64, .f32⟩
  | 76 => ⟨S100000x64, .f32⟩
  | 77 => ⟨S_, .i32⟩
  | 78 => ⟨S3300000, .i32⟩
  | 79 => ⟨S3300000, .i1⟩
  | 80 => ⟨S_, .i32⟩
  | 81 => ⟨S3300000, .i32⟩
  | 82 => ⟨S3300000, .i32⟩
  | 83 => ⟨S3300000, .i32⟩
  | 84 => ⟨S3300000x1, .i32⟩
  | 85 => ⟨S3300000x64, .f32⟩
  | 86 => ⟨S3300000x64, .f32⟩
  | 87 => ⟨S3300000x64, .f32⟩
  | 88 => ⟨S_, .f32⟩
  | 89 => ⟨S100000x64, .f32⟩
  | 90 => ⟨S3300000x1, .i32⟩
  | 91 => ⟨S100000x64, .f32⟩
  | 92 => ⟨S1x64, .f32⟩
  | 93 => ⟨S100000x64, .f32⟩
  | 94 => ⟨S100000x64, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000x64, .f32⟩
  | 104 => ⟨S3300000x64, .f32⟩
  | 105 => ⟨S3300000x64, .f32⟩
  | 106 => ⟨S_, .f32⟩
  | 107 => ⟨S100000x64, .f32⟩
  | 108 => ⟨S3300000x1, .i32⟩
  | 109 => ⟨S100000x64, .f32⟩
  | 110 => ⟨S1x64, .f32⟩
  | 111 => ⟨S100000x64, .f32⟩
  | 112 => ⟨S_, .f32⟩
  | 113 => ⟨S1x64, .f32⟩
  | 114 => ⟨S100000x1, .i32⟩
  | 115 => ⟨S1x64, .f32⟩
  | 116 => ⟨S_, .f32⟩
  | 117 => ⟨S100000x1, .f32⟩
  | 118 => ⟨S_, .f32⟩
  | 119 => ⟨S1x1, .f32⟩
  | 120 => ⟨S100000x1, .i32⟩
  | 121 => ⟨S1x1, .f32⟩
  | 122 => ⟨S_, .f32⟩
  | 123 => ⟨S1x1, .f32⟩
  | 124 => ⟨S1x1, .f32⟩
  | 125 => ⟨S1x64, .f32⟩
  | 126 => ⟨S1x64, .f32⟩
  | 127 => ⟨S_, .i32⟩
  | _ => ⟨S100000x128, .f32⟩

abbrev hbmTy0_1 (i : Nat) : BufTy := match i % 128 with
  | 0 => ⟨S512x256, .i32⟩
  | 1 => ⟨S512x256, .i1⟩
  | 2 => ⟨S_, .i32⟩
  | 3 => ⟨S512x256, .i32⟩
  | 4 => ⟨S512x256, .i32⟩
  | 5 => ⟨S512x256, .i32⟩
  | 6 => ⟨S512x256x1, .i32⟩
  | 7 => ⟨S1, .i32⟩
  | 8 => ⟨S_, .i32⟩
  | 9 => ⟨S512x256x1, .i32⟩
  | 10 => ⟨S512x256x1, .i1⟩
  | 11 => ⟨S1x1x1, .i32⟩
  | 12 => ⟨S512x256x1, .i32⟩
  | 13 => ⟨S512x256x1, .i1⟩
  | 14 => ⟨S512x256x1, .i1⟩
  | 15 => ⟨S_, .i1⟩
  | 16 => ⟨S512x256, .i1⟩
  | 17 => ⟨S512x256x64, .f32⟩
  | 18 => ⟨S512x256x64, .i1⟩
  | 19 => ⟨S_, .f32⟩
  | 20 => ⟨S512x256x64, .f32⟩
  | 21 => ⟨S512x256x64, .f32⟩
  | 22 => ⟨S_, .f32⟩
  | 23 => ⟨S512x64, .f32⟩
  | 24 => ⟨S_, .f32⟩
  | 25 => ⟨S512x64, .f32⟩
  | 26 => ⟨S512x64, .f32⟩
  | 27 => ⟨S64x64, .f32⟩
  | 28 => ⟨S64x64, .f32⟩
  | 29 => ⟨S1x64, .f32⟩
  | 30 => ⟨S1x1, .f32⟩
  | 31 => ⟨S512x1, .f32⟩
  | 32 => ⟨S512, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S512x64, .f32⟩
  | .local _ .vmem, ⟨31, _⟩ => ⟨S1x64, .f32⟩
  | .local _ .vmem, ⟨32, _⟩ => ⟨S64x64, .f32⟩
  | .local _ .vmem, ⟨33, _⟩ => ⟨S64x64, .f32⟩
  | .local _ .vmem, ⟨34, _⟩ => ⟨S1x64, .f32⟩
  | .local _ .vmem, ⟨35, _⟩ => ⟨S64x1, .f32⟩
  | .local _ .vmem, ⟨36, _⟩ => ⟨S1x1, .f32⟩
  | .local _ .vmem, ⟨37, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_10 : Ref sig .tc := ⟨.hbm, 77, rfl⟩
abbrev main_v49 : Ref sig .tc := ⟨.hbm, 78, rfl⟩
abbrev main_v50 : Ref sig .tc := ⟨.hbm, 79, rfl⟩
abbrev main_c_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_12 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_13 : Ref sig .tc := ⟨.hbm, 95, rfl⟩
abbrev main_v64 : Ref sig .tc := ⟨.hbm, 96, rfl⟩
abbrev main_v65 : Ref sig .tc := ⟨.hbm, 97, rfl⟩
abbrev main_c_14 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_15 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_16 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_17 : Ref sig .tc := ⟨.hbm, 116, rfl⟩
abbrev main_v81 : Ref sig .tc := ⟨.hbm, 117, rfl⟩
abbrev main_cst_18 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_19 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_call1_c : Ref sig .tc := ⟨.hbm, 127, rfl⟩
abbrev main_call1_v0 : Ref sig .tc := ⟨.hbm, 128, rfl⟩
abbrev main_call1_v1 : Ref sig .tc := ⟨.hbm, 129, rfl⟩
abbrev main_call1_c_0 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_call1_v5 : Ref sig .tc := ⟨.hbm, 134, rfl⟩
abbrev main_call1_c_1 : Ref sig .tc := ⟨.hbm, 135, rfl⟩
abbrev main_call1_c_2 : Ref sig .tc := ⟨.hbm, 136, rfl⟩
abbrev main_call1_v6 : Ref sig .tc := ⟨.hbm, 137, rfl⟩
abbrev main_call1_v7 : Ref sig .tc := ⟨.hbm, 138, rfl⟩
abbrev main_call1_v8 : Ref sig .tc := ⟨.hbm, 139, rfl⟩
abbrev main_call1_v9 : Ref sig .tc := ⟨.hbm, 140, rfl⟩
abbrev main_call1_v10 : Ref sig .tc := ⟨.hbm, 141, rfl⟩
abbrev main_call1_v11 : Ref sig .tc := ⟨.hbm, 142, rfl⟩
abbrev main_call1_c_3 : Ref sig .tc := ⟨.hbm, 143, rfl⟩
abbrev main_call1_v12 : Ref sig .tc := ⟨.hbm, 144, rfl⟩
abbrev main_call1_v13 : Ref sig .tc := ⟨.hbm, 145, rfl⟩
abbrev main_call1_v14 : Ref sig .tc := ⟨.hbm, 146, rfl⟩
abbrev main_call1_cst : Ref sig .tc := ⟨.hbm, 147, rfl⟩
abbrev main_call1_v15 : Ref sig .tc := ⟨.hbm, 148, rfl⟩
abbrev main_v89 : Ref sig .tc := ⟨.hbm, 149, rfl⟩
abbrev main_cst_20 : Ref sig .tc := ⟨.hbm, 150, rfl⟩
abbrev main_v90 : Ref sig .tc := ⟨.hbm, 151, rfl⟩
abbrev main_cst_21 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc6_stg4_0 : Ref sig .tc := ⟨.vmem, 34, rfl⟩
abbrev cc6_stg5_0 : Ref sig .tc := ⟨.vmem, 35, rfl⟩
abbrev cc6_stg6_0 : Ref sig .tc := ⟨.vmem, 36, rfl⟩
abbrev cc6_stg7_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33
abbrev cc6_sem4_0 : DmaSem sig := 34
abbrev cc6_sem5_0 : DmaSem sig := 35
abbrev cc6_sem6_0 : DmaSem sig := 36
abbrev cc6_sem7_0 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S512x1 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S1x64 : S_.BroadcastsInDim S1x64 (![] : Fin 0 → Fin S1x64.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S1x1 : S_.BroadcastsInDim S1x1 (![] : Fin 0 → Fin S1x1.rank)
  bcast_S1x1_S1x64_0_1 : S1x1.BroadcastsInDim S1x64 (![0, 1] : Fin 2 → Fin S1x64.rank)
  bcast_S_S512x256 : S_.BroadcastsInDim S512x256 (![] : Fin 0 → Fin S512x256.rank)
  bcast_S512x256_S512x256x1_0_1 : S512x256.BroadcastsInDim S512x256x1 (![0, 1] : Fin 2 → Fin S512x256x1.rank)
  bcast_S_S512x256x1 : S_.BroadcastsInDim S512x256x1 (![] : Fin 0 → Fin S512x256x1.rank)
  bcast_S1_S1x1x1_2 : S1.BroadcastsInDim S1x1x1 (![2] : Fin 1 → Fin S1x1x1.rank)
  bcast_S1x1x1_S512x256x1_0_1_2 : S1x1x1.BroadcastsInDim S512x256x1 (![0, 1, 2] : Fin 3 → Fin S512x256x1.rank)
  reducesTo_S512x256x1_S512x256_d2 : S512x256x1.ReducesTo [2] S512x256
  h_S_ : 0 < S_.numel
  bcast_S512x256_S512x256x64_0_1 : S512x256.BroadcastsInDim S512x256x64 (![0, 1] : Fin 2 → Fin S512x256x64.rank)
  bcast_S_S512x256x64 : S_.BroadcastsInDim S512x256x64 (![] : Fin 0 → Fin S512x256x64.rank)
  reducesTo_S512x256x64_S512x64_d1 : S512x256x64.ReducesTo [1] S512x64
  bcast_S_S512x64 : S_.BroadcastsInDim S512x64 (![] : Fin 0 → Fin S512x64.rank)
  slices_S128x64_S64x64_0_0 : S128x64.Slices ![0, 0] S64x64
  slices_S128x64_S64x64_64_0 : S128x64.Slices ![64, 0] S64x64
  shapeCasts_S1_S1x1 : S1.ShapeCasts S1x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S1x64_S512x64 : S1x64.Broadcasts S512x64
  shapeCasts_S64x64_S64x64 : S64x64.ShapeCasts S64x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  shapeCasts_S512x1_S512 : S512x1.ShapeCasts S512
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  scatter_S1x64_S100000x1_S100000x64_1_0_0_1_wf : ScatterDims.WF S1x64 S100000x1 S100000x64 [1] [0] [0] 1
  scatter_S1x1_S100000x1_S100000x1_1_0_0_1_wf : ScatterDims.WF S1x1 S100000x1 S100000x1 [1] [0] [0] 1
  gather_S100000x64_S512x256x1_S512x256x64_2_0_n_n_0_2_164_wf : GatherDims.WF S100000x64 S512x256x1 S512x256x64 [2] [0] [] [0] [] 2 ![1, 64]
  dot_S512x64_S64x64_S512x64_1_0_0_1_n_n_wf : DotDims.WF S512x64 S64x64 S512x64 [1] [0] [0] [1] [] []
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x64.size a ≤ S512x64.size a
  hwx6_0 : ∀ i : grid6.Coords, EltTy.bits .f32 = 32 ∨ (Rect.block (s := S512x64) S512x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x1.size a ≤ S64x1.size a
  hwx6_5 : ∀ i : grid6.Coords, EltTy.bits .f32 = 32 ∨ (Rect.block (s := S64x1) S64x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S512x1.size a ≤ S512x1.size a
  hwx6_7 : ∀ i : grid6.Coords, EltTy.bits .f32 = 32 ∨ (Rect.block (s := S512x1) S512x1.size (cc6_transform_7 i) (hinb6_7 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S1x64_S100000x1_S100000x64_1_0_0_1 : ScatterDims S1x64 S100000x1 S100000x64 where
  updateWindowDims := [1]
  insertedWindowDims := [0]
  scatterDimsToOperandDims := [0]
  indexVectorDim := 1
  wf := scatter_S1x64_S100000x1_S100000x64_1_0_0_1_wf
def scatter_S1x1_S100000x1_S100000x1_1_0_0_1 : ScatterDims S1x1 S100000x1 S100000x1 where
  updateWindowDims := [1]
  insertedWindowDims := [0]
  scatterDimsToOperandDims := [0]
  indexVectorDim := 1
  wf := scatter_S1x1_S100000x1_S100000x1_1_0_0_1_wf
def gather_S100000x64_S512x256x1_S512x256x64_2_0_n_n_0_2_164 : GatherDims S100000x64 S512x256x1 S512x256x64 where
  offsetDims := [2]
  collapsedSliceDims := [0]
  operandBatchingDims := []
  startIndicesBatchingDims := []
  startIndexMap := [0]
  indexVectorDim := 2
  sliceSizes := ![1, 64]
  wf := gather_S100000x64_S512x256x1_S512x256x64_2_0_n_n_0_2_164_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v92) S512x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v88) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v93) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v94) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v95) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg12) S64x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v96) S1x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v97) S512x1.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S512x256 : Shape := ⟨2, ![512, 256]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩
abbrev S512x256x1 : Shape := ⟨3, ![512, 256, 1]⟩
abbrev S512x256x64 : Shape := ⟨3, ![512, 256, 64]⟩
abbrev S512x64 : Shape := ⟨2, ![512, 64]⟩
abbrev S512x128 : Shape := ⟨2, ![512, 128]⟩
abbrev S512x1 : Shape := ⟨2, ![512, 1]⟩
abbrev S512 : Shape := ⟨1, ![512]⟩

abbrev nBuf : Space → Nat
  | .hbm => 169
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S512x256, .i32⟩
  | 4 => ⟨S128x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S128x64, .f32⟩
  | 11 => ⟨S64, .f32⟩
  | 12 => ⟨S64x1, .f32⟩
  | 13 => ⟨S1, .f32⟩
  | 14 => ⟨S100000, .i32⟩
  | 15 => ⟨S1x3200000, .i32⟩
  | 16 => ⟨S3200000, .i32⟩
  | 17 => ⟨S3300000, .i32⟩
  | 18 => ⟨S1x3200000, .i32⟩
  | 19 => ⟨S3200000, .i32⟩
  | 20 => ⟨S3300000, .i32⟩
  | 21 => ⟨S_, .f32⟩
  | 22 => ⟨S3300000, .f32⟩
  | 23 => ⟨S_, .f32⟩
  | 24 => ⟨S100000, .f32⟩
  | 25 => ⟨S3300000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000, .f32⟩
  | 56 => ⟨S3300000, .f32⟩
  | 57 => ⟨S100000x64, .f32⟩
  | 58 => ⟨S_, .i32⟩
  | 59 => ⟨S3300000, .i32⟩
  | 60 => ⟨S3300000, .i1⟩
  | 61 => ⟨S_, .i32⟩
  | 62 => ⟨S3300000, .i32⟩
  | 63 => ⟨S3300000, .i32⟩
  | 64 => ⟨S3300000, .i32⟩
  | 65 => ⟨S3300000x1, .i32⟩
  | 66 => ⟨S3300000x64, .f32⟩
  | 67 => ⟨S3300000x1, .f32⟩
  | 68 => ⟨S3300000x64, .f32⟩
  | 69 => ⟨S3300000x64, .f32⟩
  | 70 => ⟨S_, .f32⟩
  | 71 => ⟨S100000x64, .f32⟩
  | 72 => ⟨S3300000x1, .i32⟩
  | 73 => ⟨S100000x64, .f32⟩
  | 74 => ⟨S1x64, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S100000x64, .f32⟩
  | 81 => ⟨S_, .i32⟩
  | 82 => ⟨S3300000, .i32⟩
  | 83 => ⟨S3300000, .i1⟩
  | 84 => ⟨S_, .i32⟩
  | 85 => ⟨S3300000, .i32⟩
  | 86 => ⟨S3300000, .i32⟩
  | 87 => ⟨S3300000, .i32⟩
  | 88 => ⟨S3300000x1, .i32⟩
  | 89 => ⟨S3300000x64, .f32⟩
  | 90 => ⟨S3300000x1, .f32⟩
  | 91 => ⟨S3300000x64, .f32⟩
  | 92 => ⟨S3300000x64, .f32⟩
  | 93 => ⟨S_, .f32⟩
  | 94 => ⟨S100000x64, .f32⟩
  | 95 => ⟨S3300000x1, .i32⟩
  | 96 => ⟨S100000x64, .f32⟩
  | 97 => ⟨S1x64, .f32⟩
  | 98 => ⟨S100000x64, .f32⟩
  | 99 => ⟨S100000x64, .f32⟩
  | 100 => ⟨S_, .f32⟩
  | 101 => ⟨S100000x64, .f32⟩
  | 102 => ⟨S100000x64, .f32⟩
  | 103 => ⟨S100000x64, .f32⟩
  | 104 => ⟨S_, .i32⟩
  | 105 => ⟨S3300000, .i32⟩
  | 106 => ⟨S3300000, .i1⟩
  | 107 => ⟨S_, .i32⟩
  | 108 => ⟨S3300000, .i32⟩
  | 109 => ⟨S3300000, .i32⟩
  | 110 => ⟨S3300000, .i32⟩
  | 111 => ⟨S3300000x1, .i32⟩
  | 112 => ⟨S3300000x64, .f32⟩
  | 113 => ⟨S3300000x1, .f32⟩
  | 114 => ⟨S3300000x64, .f32⟩
  | 115 => ⟨S3300000x64, .f32⟩
  | 116 => ⟨S_, .f32⟩
  | 117 => ⟨S100000x64, .f32⟩
  | 118 => ⟨S3300000x1, .i32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S_, .f32⟩
  | 127 => ⟨S1x64, .f32⟩
  | _ => ⟨S100000x128, .f32⟩

abbrev hbmTy0_1 (i : Nat) : BufTy := match i % 128 with
  | 0 => ⟨S100000x1, .i32⟩
  | 1 => ⟨S1x64, .f32⟩
  | 2 => ⟨S_, .f32⟩
  | 3 => ⟨S100000x1, .f32⟩
  | 4 => ⟨S_, .f32⟩
  | 5 => ⟨S1x1, .f32⟩
  | 6 => ⟨S100000x1, .i32⟩
  | 7 => ⟨S1x1, .f32⟩
  | 8 => ⟨S_, .f32⟩
  | 9 => ⟨S1x1, .f32⟩
  | 10 => ⟨S1x1, .f32⟩
  | 11 => ⟨S1x64, .f32⟩
  | 12 => ⟨S1x64, .f32⟩
  | 13 => ⟨S_, .i32⟩
  | 14 => ⟨S512x256, .i32⟩
  | 15 => ⟨S512x256, .i1⟩
  | 16 => ⟨S_, .i32⟩
  | 17 => ⟨S512x256, .i32⟩
  | 18 => ⟨S512x256, .i32⟩
  | 19 => ⟨S512x256, .i32⟩
  | 20 => ⟨S512x256x1, .i32⟩
  | 21 => ⟨S512x256x64, .f32⟩
  | 22 => ⟨S_, .f32⟩
  | 23 => ⟨S512x64, .f32⟩
  | 24 => ⟨S_, .f32⟩
  | 25 => ⟨S512x64, .f32⟩
  | 26 => ⟨S512x64, .f32⟩
  | 27 => ⟨S512x64, .f32⟩
  | 28 => ⟨S512x128, .f32⟩
  | 29 => ⟨S512x64, .f32⟩
  | 30 => ⟨S1x64, .f32⟩
  | 31 => ⟨S512x64, .f32⟩
  | 32 => ⟨S512x64, .f32⟩
  | 33 => ⟨S_, .f32⟩
  | 34 => ⟨S512x64, .f32⟩
  | 35 => ⟨S512x64, .f32⟩
  | 36 => ⟨S512x1, .f32⟩
  | 37 => ⟨S1x1, .f32⟩
  | 38 => ⟨S512x1, .f32⟩
  | 39 => ⟨S512x1, .f32⟩
  | 40 => ⟨S512, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_c_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call1_cst : Ref sig .tc := ⟨.hbm, 77, rfl⟩
abbrev main_call1_v0 : Ref sig .tc := ⟨.hbm, 78, rfl⟩
abbrev main_v49 : Ref sig .tc := ⟨.hbm, 79, rfl⟩
abbrev main_v50 : Ref sig .tc := ⟨.hbm, 80, rfl⟩
abbrev main_c_10 : Ref sig .tc := ⟨.hbm, 81, rfl⟩
abbrev main_v51 : Ref sig .tc := ⟨.hbm, 82, rfl⟩
abbrev main_v52 : Ref sig .tc := ⟨.hbm, 83, rfl⟩
abbrev main_c_11 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_call2_cst : Ref sig .tc := ⟨.hbm, 100, rfl⟩
abbrev main_call2_v0 : Ref sig .tc := ⟨.hbm, 101, rfl⟩
abbrev main_v67 : Ref sig .tc := ⟨.hbm, 102, rfl⟩
abbrev main_v68 : Ref sig .tc := ⟨.hbm, 103, rfl⟩
abbrev main_c_13 : Ref sig .tc := ⟨.hbm, 104, rfl⟩
abbrev main_v69 : Ref sig .tc := ⟨.hbm, 105, rfl⟩
abbrev main_v70 : Ref sig .tc := ⟨.hbm, 106, rfl⟩
abbrev main_c_14 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_15 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_call3_cst : Ref sig .tc := ⟨.hbm, 123, rfl⟩
abbrev main_call3_v0 : Ref sig .tc := ⟨.hbm, 124, rfl⟩
abbrev main_v85 : Ref sig .tc := ⟨.hbm, 125, rfl⟩
abbrev main_cst_16 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_17 : Ref sig .tc := ⟨.hbm, 130, rfl⟩
abbrev main_v89 : Ref sig .tc := ⟨.hbm, 131, rfl⟩
abbrev main_cst_18 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_19 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_c_20 : Ref sig .tc := ⟨.hbm, 141, rfl⟩
abbrev main_v97 : Ref sig .tc := ⟨.hbm, 142, rfl⟩
abbrev main_v98 : Ref sig .tc := ⟨.hbm, 143, rfl⟩
abbrev main_c_21 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_22 : Ref sig .tc := ⟨.hbm, 150, rfl⟩
abbrev main_v104 : Ref sig .tc := ⟨.hbm, 151, rfl⟩
abbrev main_cst_23 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_call4_cst : Ref sig .tc := ⟨.hbm, 161, rfl⟩
abbrev main_call4_v0 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1x64 : S_.BroadcastsInDim S1x64 (![] : Fin 0 → Fin S1x64.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S1x1 : S_.BroadcastsInDim S1x1 (![] : Fin 0 → Fin S1x1.rank)
  bcast_S1x1_S1x64_0_1 : S1x1.BroadcastsInDim S1x64 (![0, 1] : Fin 2 → Fin S1x64.rank)
  bcast_S_S512x256 : S_.BroadcastsInDim S512x256 (![] : Fin 0 → Fin S512x256.rank)
  bcast_S512x256_S512x256x1_0_1 : S512x256.BroadcastsInDim S512x256x1 (![0, 1] : Fin 2 → Fin S512x256x1.rank)
  reducesTo_S512x256x64_S512x64_d1 : S512x256x64.ReducesTo [1] S512x64
  h_S_ : 0 < S_.numel
  bcast_S_S512x64 : S_.BroadcastsInDim S512x64 (![] : Fin 0 → Fin S512x64.rank)
  bcast_S1x64_S512x64_0_1 : S1x64.BroadcastsInDim S512x64 (![0, 1] : Fin 2 → Fin S512x64.rank)
  concatenates_S512x64_S512x64_S512x128_d1 : Shape.Concatenates [S512x64, S512x64] S512x128 1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  scatter_S1x64_S100000x1_S100000x64_1_0_0_1_wf : ScatterDims.WF S1x64 S100000x1 S100000x64 [1] [0] [0] 1
  scatter_S1x1_S100000x1_S100000x1_1_0_0_1_wf : ScatterDims.WF S1x1 S100000x1 S100000x1 [1] [0] [0] 1
  gather_S100000x64_S512x256x1_S512x256x64_2_0_n_n_0_2_164_wf : GatherDims.WF S100000x64 S512x256x1 S512x256x64 [2] [0] [] [0] [] 2 ![1, 64]
  dot_S512x128_S128x64_S512x64_1_0_0_1_n_n_wf : DotDims.WF S512x128 S128x64 S512x64 [1] [0] [0] [1] [] []
  dot_S512x64_S64x1_S512x1_1_0_0_1_n_n_wf : DotDims.WF S512x64 S64x1 S512x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1x64_S100000x1_S100000x64_1_0_0_1 : ScatterDims S1x64 S100000x1 S100000x64 where
  updateWindowDims := [1]
  insertedWindowDims := [0]
  scatterDimsToOperandDims := [0]
  indexVectorDim := 1
  wf := scatter_S1x64_S100000x1_S100000x64_1_0_0_1_wf
def scatter_S1x1_S100000x1_S100000x1_1_0_0_1 : ScatterDims S1x1 S100000x1 S100000x1 where
  updateWindowDims := [1]
  insertedWindowDims := [0]
  scatterDimsToOperandDims := [0]
  indexVectorDim := 1
  wf := scatter_S1x1_S100000x1_S100000x1_1_0_0_1_wf
def gather_S100000x64_S512x256x1_S512x256x64_2_0_n_n_0_2_164 : GatherDims S100000x64 S512x256x1 S512x256x64 where
  offsetDims := [2]
  collapsedSliceDims := [0]
  operandBatchingDims := []
  startIndicesBatchingDims := []
  startIndexMap := [0]
  indexVectorDim := 2
  sliceSizes := ![1, 64]
  wf := gather_S100000x64_S512x256x1_S512x256x64_2_0_n_n_0_2_164_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.TRefStrip.lean ====
/-
  Contents seen through a typed reference.

  An operation of a module-local function reads and writes its buffers through references that carry the type of the
  tensor they hold; the contents pass through a transport along "the buffer's type is the tensor's type". That
  transport is the identity: a value written through a typed reference and read back is the value, a buffer's contents
  read through one are the contents, and a value written through one is stored as it is.
-/
import Idealize.ShloMosaic.Lib.StableHlo

namespace Cert.TRefStrip

open Idealize.ShloMosaic

variable {σ : RefSig} {Val : EltTy → Type} {T : BufTy}

/-- Writing through a typed reference and reading back gives the value. -/
theorem ofBuf_toBuf (x : StableHlo.TRef σ T) (v : T.Contents Val) : x.ofBuf (x.toBuf v) = v := by
  obtain ⟨r, hty, h2, h3⟩ := x
  subst hty
  rfl

/-- Reading a buffer's contents through a typed reference gives the same contents (the same up to the buffer's type
    being the tensor's type: heterogeneous equality). -/
theorem ofBuf_eq_of_heq (x : StableHlo.TRef σ T) (v : x.ref.ty.Contents Val) (w : T.Contents Val) (h : HEq v w) :
    x.ofBuf v = w := by
  obtain ⟨r, hty, h2, h3⟩ := x
  subst hty
  exact eq_of_heq h

/-- Writing a value through a typed reference stores the same value. -/
theorem toBuf_heq (x : StableHlo.TRef σ T) (v : T.Contents Val) : HEq (x.toBuf v) v := by
  obtain ⟨r, hty, h2, h3⟩ := x
  subst hty
  rfl

/-- Reading a buffer's contents through a typed reference changes nothing (heterogeneous form). -/
theorem ofBuf_heq (x : StableHlo.TRef σ T) (v : x.ref.ty.Contents Val) : HEq (x.ofBuf v) v := by
  obtain ⟨r, hty, h2, h3⟩ := x
  subst hty
  rfl

end Cert.TRefStrip
-- ==== Proof.KKeep.lean ====
/- Which buffers survive which stretch of the program. The launch arguments are never written; the two edge-endpoint
  index vectors and the edge normalisation column are computed once, before the first matrix product, and only read
  afterwards. Each lemma walks one such buffer back from the boundary where it is consumed: a host stretch that does
  not write it leaves it (no operation of the stretch has it as its result), and a region leaves every buffer that is
  not one of its windows' arrays.
-/
import proofs.«411938_j42167988912133_2_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

/-- No operation of a literal host stretch has the given buffer as its result: read off each operation's result
    reference, the references compared by their indices. -/
macro "not_written" : tactic => `(tactic| (
  refine List.forall_iff_forall_mem.mp ?_
  simp only [hostOps0, hostOps0_1, hostOps0_2, hostOps1, hostOps3, hostOps5, hostOps6, hostOps6_1, hostOps6_2, hostOps7,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable {F : FTy → Type} [FloatOps F]
variable (m : (ℓ : Loc nD τ sig) → Buf (Elt F) ℓ) (ρ : Dev nD → PrngReg) (c : Dev nD)

/-- Argument 0 is written by nothing before boundary 3: it still holds its launch contents there. -/
theorem arg0_at3 : W3 m ρ c (Proc.devRef .tc main_arg0) = m ((c : Thread nD τ).loc main_arg0) :=
  ((StableHlo.after_of_forall_not_mem (b := Proc.devRef .tc main_arg0) _ _ (by not_written)).trans ((StableHlo.after_of_forall_not_mem (b := Proc.devRef .tc main_arg0) _ _ (by not_written)).trans (StableHlo.after_of_forall_not_mem (b := Proc.devRef .tc main_arg0) _ _ (by not_written)))).trans rfl

/-- Argument 2 is written by nothing before boundary 12: it still holds its launch contents there. -/
theorem arg2_at12 : W12 m ρ c (Proc.devRef .tc main_arg2) = m ((c : Thread nD τ).loc main_arg2) :=
  ((W12_of_ne m ρ c main_arg2 (by decide)).trans ((StableHlo.after_of_forall_not_mem (b := Proc.devRef .tc main_arg2) _ _ (by not_written)).trans ((W10_of_ne m ρ c main_arg2 (by decide)).trans ((W9_of_ne m ρ c main_arg2 (by decide)).trans ((StableHlo.after_of_forall_not_mem (b := Proc.devRef .tc main_arg2) _ _ (by not_written)).trans ((W7_of_ne m ρ c main_arg2 (by decide)).trans ((W6_of_ne m ρ c main_arg2 (by decide)).trans ((StableHlo.after_of_forall_not_mem (b := Proc.devRef .tc main_arg2) _ _ (by not_written)).trans ((W4_of_ne m ρ c main_arg2 (by decide)).trans ((StableHlo.after_of_forall_not_mem (b := Proc.devRef .tc main_arg2) _ _ (by not_written)).trans ((StableHlo.after_of_forall_not_mem (b := Proc.devRef .tc main_arg2) _ _ (by not_written)).trans (StableHlo.after_of_forall_not_mem (b := Proc.devRef .tc main_arg2) _ _ (by not_written))))))))))))).trans rfl

/-- Argument 3 is written by nothing before boundary 13: it still holds its launch contents there. -/
theorem arg3_at13 : W13 m ρ c (Proc.devRef .tc main_arg3) = m ((c : Thread nD τ).loc main_arg3) :=
  ((StableHlo.after_of_forall_not_mem (b := Proc.devRef .tc main_arg3) _ _ (by not_written)).trans ((W12_of_ne m ρ c main_arg3 (by decide)).trans ((StableHlo.after_of_forall_not_mem (b := Proc.devRef .tc main_arg3) _ _ (by not_written)).trans ((W10_of_ne m ρ c main_arg3 (by decide)).trans ((W9_of_ne m ρ c main_arg3 (by decide)).trans ((StableHlo.after_of_forall_not_mem (b := Proc.devRef .tc main_arg3) _ _ (by not_written)).trans ((W7_of_ne m ρ c main_arg3 (by decide)).trans ((W6_of_ne m ρ c main_arg3 (by decide)).trans ((StableHlo.after_of_forall_not_mem (b := Proc.devRef .tc main_arg3) _ _ (by not_written)).trans ((W4_of_ne m ρ c main_arg3 (by decide)).trans ((StableHlo.after_of_forall_not_mem (b := Proc.devRef .tc main_arg3) _ _ (by not_written)).trans ((StableHlo.after_of_forall_not_mem (b := Proc.devRef .tc main_arg3) _ _ (by not_written)).trans (StableHlo.after_of_forall_not_mem (b := Proc.devRef .tc main_arg3) _ _ (by not_written)))))))))))))).trans rfl

/-- Argument 4 is written by nothing before boundary 3: it still holds its launch contents there. -/
theorem arg4_at3 : W3 m ρ c (Proc.devRef .tc main_arg4) = m ((c : Thread nD τ).loc main_arg4) :=
  ((StableHlo.after_of_forall_not_mem (b := Proc.devRef .tc main_arg4) _ _ (by not_written)).trans ((StableHlo.after_of_forall_not_mem (b := Proc.devRef .tc main_arg4) _ _ (by not_written)).trans (StableHlo.after_of_forall_not_mem (b := Proc.devRef .tc main_arg4) _ _ (by not_written)))).trans rfl

/-- Argument 5 is written by nothing before boundary 4: it still holds its launch contents there. -/
theorem arg5_at4 : W4 m ρ c (Proc.devRef .tc main_arg5) = m ((c : Thread nD τ).loc main_arg5) :=
  ((W4_of_ne m ρ c main_arg5 (by decide)).trans ((StableHlo.after_of_forall_not_mem (b := Proc.devRef .tc main_arg5) _ _ (by not_written)).trans ((StableHlo.after_of_forall_not_mem (b := Proc.devRef .tc main_arg5) _ _ (by not_written)).trans (StableHlo.after_of_forall_not_mem (b := Proc.devRef .tc main_arg5) _ _ (by not_written))))).trans rfl

/-- Argument 6 is written by nothing before boundary 6: it still holds its launch contents there. -/
theorem arg6_at6 : W6 m ρ c (Proc.devRef .tc main_arg6) = m ((c : Thread nD τ).loc main_arg6) :=
  ((W6_of_ne m ρ c main_arg6 (by decide)).trans ((StableHlo.after_of_forall_not_mem (b := Proc.devRef .tc main_arg6) _ _ (by not_written)).trans ((W4_of_ne m ρ c main_arg6 (by decide)).trans ((StableHlo.after_of_forall_not_mem (b := Proc.devRef .tc main_arg6) _ _ (by not_written)).trans ((StableHlo.after_of_forall_not_mem (b := Proc.devRef .tc main_arg6) _ _ (by not_written)).trans (StableHlo.after_of_forall_not_mem (b := Proc.devRef .tc main_arg6) _ _ (by not_written))))))).trans rfl

/-- Argument 7 is written by nothing before boundary 7: it still holds its launch contents there. -/
theorem arg7_at7 : W7 m ρ c (Proc.devRef .tc main_arg7) = m ((c : Thread nD τ).loc main_arg7) :=
  ((W7_of_ne m ρ c main_arg7 (by decide)).trans ((W6_of_ne m ρ c main_arg7 (by decide)).trans ((StableHlo.after_of_forall_not_mem (b := Proc.devRef .tc main_arg7) _ _ (by not_written)).trans ((W4_of_ne m ρ c main_arg7 (by decide)).trans ((StableHlo.after_of_forall_not_mem (b := Proc.devRef .tc main_arg7) _ _ (by not_written)).trans ((StableHlo.after_of_forall_not_mem (b := Proc.devRef .tc main_arg7) _ _ (by not_written)).trans (StableHlo.after_of_forall_not_mem (b := Proc.devRef .tc main_arg7) _ _ (by not_written)))))))).trans rfl

/-- Argument 8 is written by nothing before boundary 9: it still holds its launch contents there. -/
theorem arg8_at9 : W9 m ρ c (Proc.devRef .tc main_arg8) = m ((c : Thread nD τ).loc main_arg8) :=
  ((W9_of_ne m ρ c main_arg8 (by decide)).trans ((StableHlo.after_of_forall_not_mem (b := Proc.devRef .tc main_arg8) _ _ (by not_written)).trans ((W7_of_ne m ρ c main_arg8 (by decide)).trans ((W6_of_ne m ρ c main_arg8 (by decide)).trans ((StableHlo.after_of_forall_not_mem (b := Proc.devRef .tc main_arg8) _ _ (by not_written)).trans ((W4_of_ne m ρ c main_arg8 (by decide)).trans ((StableHlo.after_of_forall_not_mem (b := Proc.devRef .tc main_arg8) _ _ (by not_written)).trans ((StableHlo.after_of_forall_not_mem (b := Proc.devRef .tc main_arg8) _ _ (by not_written)).trans (StableHlo.after_of_forall_not_mem (b := Proc.devRef .tc main_arg8) _ _ (by not_written)))))))))).trans rfl

/-- Argument 9 is written by nothing before boundary 10: it still holds its launch contents there. -/
theorem arg9_at10 : W10 m ρ c (Proc.devRef .tc main_arg9) = m ((c : Thread nD τ).loc main_arg9) :=
  ((W10_of_ne m ρ c main_arg9 (by decide)).trans ((W9_of_ne m ρ c main_arg9 (by decide)).trans ((StableHlo.after_of_forall_not_mem (b := Proc.devRef .tc main_arg9) _ _ (by not_written)).trans ((W7_of_ne m ρ c main_arg9 (by decide)).trans ((W6_of_ne m ρ c main_arg9 (by decide)).trans ((StableHlo.after_of_forall_not_mem (b := Proc.devRef .tc main_arg9) _ _ (by not_written)).trans ((W4_of_ne m ρ c main_arg9 (by decide)).trans ((StableHlo.after_of_forall_not_mem (b := Proc.devRef .tc main_arg9) _ _ (by not_written)).trans ((StableHlo.after_of_forall_not_mem (b := Proc.devRef .tc main_arg9) _ _ (by not_written)).trans (StableHlo.after_of_forall_not_mem (b := Proc.devRef .tc main_arg9) _ _ (by not_written))))))))))).trans rfl

/-- Argument 10 is written by nothing before boundary 14: it still holds its launch contents there. -/
theorem arg10_at14 : W14 m ρ c (Proc.devRef .tc main_arg10) = m ((c : Thread nD τ).loc main_arg10) :=
  ((StableHlo.after_of_forall_not_mem (b := Proc.devRef .tc main_arg10) _ _ (by not_written)).trans ((StableHlo.after_of_forall_not_mem (b := Proc.devRef .tc main_arg10) _ _ (by not_written)).trans ((W12_of_ne m ρ c main_arg10 (by decide)).trans ((StableHlo.after_of_forall_not_mem (b := Proc.devRef .tc main_arg10) _ _ (by not_written)).trans ((W10_of_ne m ρ c main_arg10 (by decide)).trans ((W9_of_ne m ρ c main_arg10 (by decide)).trans ((StableHlo.after_of_forall_not_mem (b := Proc.devRef .tc main_arg10) _ _ (by not_written)).trans ((W7_of_ne m ρ c main_arg10 (by decide)).trans ((W6_of_ne m ρ c main_arg10 (by decide)).trans ((StableHlo.after_of_forall_not_mem (b := Proc.devRef .tc main_arg10) _ _ (by not_written)).trans ((W4_of_ne m ρ c main_arg10 (by decide)).trans ((StableHlo.after_of_forall_not_mem (b := Proc.devRef .tc main_arg10) _ _ (by not_written)).trans ((StableHlo.after_of_forall_not_mem (b := Proc.devRef .tc main_arg10) _ _ (by not_written)).trans (StableHlo.after_of_forall_not_mem (b := Proc.devRef .tc main_arg10) _ _ (by not_written))))))))))))))).trans rfl

/-- Argument 11 is written by nothing before boundary 14: it still holds its launch contents there. -/
theorem arg11_at14 : W14 m ρ c (Proc.devRef .tc main_arg11) = m ((c : Thread nD τ).loc main_arg11) :=
  ((StableHlo.after_of_forall_not_mem (b := Proc.devRef .tc main_arg11) _ _ (by not_written)).trans ((StableHlo.after_of_forall_not_mem (b := Proc.devRef .tc main_arg11) _ _ (by not_written)).trans ((W12_of_ne m ρ c main_arg11 (by decide)).trans ((StableHlo.after_of_forall_not_mem (b := Proc.devRef .tc main_arg11) _ _ (by not_written)).trans ((W10_of_ne m ρ c main_arg11 (by decide)).trans ((W9_of_ne m ρ c main_arg11 (by decide)).trans ((StableHlo.after_of_forall_not_mem (b := Proc.devRef .tc main_arg11) _ _ (by not_written)).trans ((W7_of_ne m ρ c main_arg11 (by decide)).trans ((W6_of_ne m ρ c main_arg11 (by decide)).trans ((StableHlo.after_of_forall_not_mem (b := Proc.devRef .tc main_arg11) _ _ (by not_written)).trans ((W4_of_ne m ρ c main_arg11 (by decide)).trans ((StableHlo.after_of_forall_not_mem (b := Proc.devRef .tc main_arg11) _ _ (by not_written)).trans ((StableHlo.after_of_forall_not_mem (b := Proc.devRef .tc main_arg11) _ _ (by not_written)).trans (StableHlo.after_of_forall_not_mem (b := Proc.devRef .tc main_arg11) _ _ (by not_written))))))))))))))).trans rfl

/-- Argument 12 is written by nothing before boundary 15: it still holds its launch contents there. -/
theorem arg12_at15 : W15 m ρ c (Proc.devRef .tc main_arg12) = m ((c : Thread nD τ).loc main_arg12) :=
  ((StableHlo.after_of_forall_not_mem (b := Proc.devRef .tc main_arg12) _ _ (by not_written)).trans ((StableHlo.after_of_forall_not_mem (b := Proc.devRef .tc main_arg12) _ _ (by not_written)).trans ((StableHlo.after_of_forall_not_mem (b := Proc.devRef .tc main_arg12) _ _ (by not_written)).trans ((W12_of_ne m ρ c main_arg12 (by decide)).trans ((StableHlo.after_of_forall_not_mem (b := Proc.devRef .tc main_arg12) _ _ (by not_written)).trans ((W10_of_ne m ρ c main_arg12 (by decide)).trans ((W9_of_ne m ρ c main_arg12 (by decide)).trans ((StableHlo.after_of_forall_not_mem (b := Proc.devRef .tc main_arg12) _ _ (by not_written)).trans ((W7_of_ne m ρ c main_arg12 (by decide)).trans ((W6_of_ne m ρ c main_arg12 (by decide)).trans ((StableHlo.after_of_forall_not_mem (b := Proc.devRef .tc main_arg12) _ _ (by not_written)).trans ((W4_of_ne m ρ c main_arg12 (by decide)).trans ((StableHlo.after_of_forall_not_mem (b := Proc.devRef .tc main_arg12) _ _ (by not_written)).trans ((StableHlo.after_of_forall_not_mem (b := Proc.devRef .tc main_arg12) _ _ (by not_written)).trans (StableHlo.after_of_forall_not_mem (b := Proc.devRef .tc main_arg12) _ _ (by not_written)))))))))))))))).trans rfl

/-- Argument 13 is written by nothing before boundary 14: it still holds its launch contents there. -/
theorem arg13_at14 : W14 m ρ c (Proc.devRef .tc main_arg13) = m ((c : Thread nD τ).loc main_arg13) :=
  ((StableHlo.after_of_forall_not_mem (b := Proc.devRef .tc main_arg13) _ _ (by not_written)).trans ((StableHlo.after_of_forall_not_mem (b := Proc.devRef .tc main_arg13) _ _ (by not_written)).trans ((W12_of_ne m ρ c main_arg13 (by decide)).trans ((StableHlo.after_of_forall_not_mem (b := Proc.devRef .tc main_arg13) _ _ (by not_written)).trans ((W10_of_ne m ρ c main_arg13 (by decide)).trans ((W9_of_ne m ρ c main_arg13 (by decide)).trans ((StableHlo.after_of_forall_not_mem (b := Proc.devRef .tc main_arg13) _ _ (by not_written)).trans ((W7_of_ne m ρ c main_arg13 (by decide)).trans ((W6_of_ne m ρ c main_arg13 (by decide)).trans ((StableHlo.after_of_forall_not_mem (b := Proc.devRef .tc main_arg13) _ _ (by not_written)).trans ((W4_of_ne m ρ c main_arg13 (by decide)).trans ((StableHlo.after_of_forall_not_mem (b := Proc.devRef .tc main_arg13) _ _ (by not_written)).trans ((StableHlo.after_of_forall_not_mem (b := Proc.devRef .tc main_arg13) _ _ (by not_written)).trans (StableHlo.after_of_forall_not_mem (b := Proc.devRef .tc main_arg13) _ _ (by not_written))))))))))))))).trans rfl

/-- `main_v3` is written once, before the first region: boundary 4 still holds what boundary 3 held. -/
theorem v3_at4 : W4 m ρ c (Proc.devRef .tc main_v3) = W3 m ρ c (Proc.devRef .tc main_v3) :=
  (W4_of_ne m ρ c main_v3 (by decide))

/-- `main_v3` is written once, before the first region: boundary 7 still holds what boundary 4 held. -/
theorem v3_at7 : W7 m ρ c (Proc.devRef .tc main_v3) = W4 m ρ c (Proc.devRef .tc main_v3) :=
  (W7_of_ne m ρ c main_v3 (by decide)).trans ((W6_of_ne m ρ c main_v3 (by decide)).trans (StableHlo.after_of_forall_not_mem (b := Proc.devRef .tc main_v3) _ _ (by not_written)))

/-- `main_v3` is written once, before the first region: boundary 10 still holds what boundary 7 held. -/
theorem v3_at10 : W10 m ρ c (Proc.devRef .tc main_v3) = W7 m ρ c (Proc.devRef .tc main_v3) :=
  (W10_of_ne m ρ c main_v3 (by decide)).trans ((W9_of_ne m ρ c main_v3 (by decide)).trans (StableHlo.after_of_forall_not_mem (b := Proc.devRef .tc main_v3) _ _ (by not_written)))

/-- `main_v6` is written once, before the first region: boundary 4 still holds what boundary 3 held. -/
theorem v6_at4 : W4 m ρ c (Proc.devRef .tc main_v6) = W3 m ρ c (Proc.devRef .tc main_v6) :=
  (W4_of_ne m ρ c main_v6 (by decide))

/-- `main_v6` is written once, before the first region: boundary 7 still holds what boundary 4 held. -/
theorem v6_at7 : W7 m ρ c (Proc.devRef .tc main_v6) = W4 m ρ c (Proc.devRef .tc main_v6) :=
  (W7_of_ne m ρ c main_v6 (by decide)).trans ((W6_of_ne m ρ c main_v6 (by decide)).trans (StableHlo.after_of_forall_not_mem (b := Proc.devRef .tc main_v6) _ _ (by not_written)))

/-- `main_v6` is written once, before the first region: boundary 10 still holds what boundary 7 held. -/
theorem v6_at10 : W10 m ρ c (Proc.devRef .tc main_v6) = W7 m ρ c (Proc.devRef .tc main_v6) :=
  (W10_of_ne m ρ c main_v6 (by decide)).trans ((W9_of_ne m ρ c main_v6 (by decide)).trans (StableHlo.after_of_forall_not_mem (b := Proc.devRef .tc main_v6) _ _ (by not_written)))

/-- `main_v32` is written once, before the first region: boundary 4 still holds what boundary 3 held. -/
theorem v32_at4 : W4 m ρ c (Proc.devRef .tc main_v32) = W3 m ρ c (Proc.devRef .tc main_v32) :=
  (W4_of_ne m ρ c main_v32 (by decide))

/-- `main_v32` is written once, before the first region: boundary 7 still holds what boundary 4 held. -/
theorem v32_at7 : W7 m ρ c (Proc.devRef .tc main_v32) = W4 m ρ c (Proc.devRef .tc main_v32) :=
  (W7_of_ne m ρ c main_v32 (by decide)).trans ((W6_of_ne m ρ c main_v32 (by decide)).trans (StableHlo.after_of_forall_not_mem (b := Proc.devRef .tc main_v32) _ _ (by not_written)))

/-- `main_v32` is written once, before the first region: boundary 10 still holds what boundary 7 held. -/
theorem v32_at10 : W10 m ρ c (Proc.devRef .tc main_v32) = W7 m ρ c (Proc.devRef .tc main_v32) :=
  (W10_of_ne m ρ c main_v32 (by decide)).trans ((W9_of_ne m ρ c main_v32 (by decide)).trans (StableHlo.after_of_forall_not_mem (b := Proc.devRef .tc main_v32) _ _ (by not_written)))

end Cert.KernelIdeal.Keep

end
-- ==== Proof.KEntry.lean ====
/-
  The two edge-endpoint index vectors and the edge normalisation column, as the first region finds them.

  Both programs build them from the edge list alone and by the same operations: each endpoint row of the edge list
  followed by the self-loop indices 0 … 99999; the in-degree by a scatter-add of ones; its inverse square root where
  the degree is positive; the product of the two endpoints' factors. So what the kernel's program holds in these
  three buffers when its first matrix product starts is, term for term, what the reference computes.
-/
import proofs.«411938_j42167988912133_2_alg».proof.Proof.Gen.KernelIdeal.Frame
import proofs.«411938_j42167988912133_2_alg».proof.Proof.RefStages
import proofs.«411938_j42167988912133_2_alg».proof.Proof.KKeep
import proofs.«411938_j42167988912133_2_alg».proof.Proof.TRefStrip
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The source endpoints (first row of the edge list, then the self loops). -/
theorem v3_at3 : W3 m ρ c (Proc.devRef .tc main_v3)
    = Cert.ReferenceIdeal.Read.val_main_v3 (F := Ideal) (m ((c : Thread nD τ).loc main_arg1)) := by
  show StableHlo.after hostOps0_2 (StableHlo.after hostOps0_1 (StableHlo.after hostOps0 (W0 m ρ c))) (Proc.devRef .tc main_v3) = _
  after_results
  rfl

/-- The destination endpoints (second row of the edge list, then the self loops). -/
theorem v6_at3 : W3 m ρ c (Proc.devRef .tc main_v6)
    = Cert.ReferenceIdeal.Read.val_main_v6 (F := Ideal) (m ((c : Thread nD τ).loc main_arg1)) := by
  show StableHlo.after hostOps0_2 (StableHlo.after hostOps0_1 (StableHlo.after hostOps0 (W0 m ρ c))) (Proc.devRef .tc main_v6) = _
  after_results
  rfl

/-! ## Cutting a host stretch in two -/

/-- A stretch run from contents V is its tail run from what its head leaves. -/
theorem after_take_drop {τ' : Topo} {σ : RefSig} {Val : EltTy → Type} (n : Nat) (ops : List (HloOp τ' σ Val))
    (V : Valuation τ' σ Val) :
    StableHlo.after ops V = StableHlo.after (ops.drop n) (StableHlo.after (ops.take n) V) := by
  rw [← StableHlo.after_append, List.take_append_drop]

/-! ## The first stretch: the endpoint vectors, then the degree's mask and inverse square root -/

/-- After the first stretch the source endpoints are the reference's. -/
theorem v3_at1 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  rfl

/-- After the first stretch the destination endpoints are the reference's. -/
theorem v6_at1 : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results
  rfl

/-- The destination endpoints already after the stretch's first seven operations (the two endpoint vectors' own). -/
theorem v6_at_head : StableHlo.after ((hostOps0 (F := Ideal)).take 7) (W0 m ρ c) (Proc.devRef .tc main_v6)
    = Cert.ReferenceIdeal.Read.val_main_v6 (F := Ideal) (m ((c : Thread nD τ).loc main_arg1)) := by
  simp only [hostOps0, List.take_succ_cons, List.take_zero]
  after_results
  rfl

set_option maxHeartbeats 2000000 in
/-- The mask "the in-degree is positive": the in-degree is a scatter-add of ones at the destination endpoints, which the
    stretch's remaining operations read as one buffer. -/
theorem v12_at1 : W1 m ρ c (Proc.devRef .tc main_v12) = Cert.ReferenceIdeal.Read.val_main_v12 (F := Ideal) (m ((c : Thread nD τ).loc main_arg1)) := by
  have h6 := v6_at_head m ρ c
  show StableHlo.after hostOps0 (W0 m ρ c) (Proc.devRef .tc main_v12) = _
  rw [after_take_drop 7 hostOps0]
  generalize StableHlo.after ((hostOps0 (F := Ideal)).take 7) (W0 m ρ c) = V at h6 ⊢
  simp only [hostOps0, List.drop_succ_cons, List.drop_zero]
  after_results_simp
  rw [h6]
  rfl

set_option maxHeartbeats 2000000 in
/-- The inverse square root of the in-degree clamped below by 1. -/
theorem v15_at1 : W1 m ρ c (Proc.devRef .tc main_v15) = Cert.ReferenceIdeal.Read.val_main_v15 (F := Ideal) (m ((c : Thread nD τ).loc main_arg1)) := by
  have h6 := v6_at_head m ρ c
  show StableHlo.after hostOps0 (W0 m ρ c) (Proc.devRef .tc main_v15) = _
  rw [after_take_drop 7 hostOps0]
  generalize StableHlo.after ((hostOps0 (F := Ideal)).take 7) (W0 m ρ c) = V at h6 ⊢
  simp only [hostOps0, List.drop_succ_cons, List.drop_zero]
  after_results_simp
  rw [h6]
  rfl

/-- The zero the next stretch fills with. -/
theorem cst3_at1 : W1 m ρ c (Proc.devRef .tc main_cst_3) = constant (F := Ideal) S_ .f32 0x00000000#32 := by
  show StableHlo.after hostOps0 (W0 m ρ c) (Proc.devRef .tc main_cst_3) = _
  rw [after_take_drop 20 hostOps0]
  generalize StableHlo.after ((hostOps0 (F := Ideal)).take 20) (W0 m ρ c) = V
  simp only [hostOps0, List.drop_succ_cons, List.drop_zero]
  after_results

/-! ## The second stretch: the inverse square root where the degree is positive, else zero -/

set_option maxHeartbeats 2000000 in
/-- After the second stretch: the inverse square root of the in-degree where it is positive, zero elsewhere. -/
theorem v16_at2 : W2 m ρ c (Proc.devRef .tc main_v16) = Cert.ReferenceIdeal.Read.val_main_v16 (F := Ideal) (m ((c : Thread nD τ).loc main_arg1)) := by
  have hc' : (StableHlo.TRef.of main_cst_3 : StableHlo.TRef sig ⟨S_, .f32⟩).ofBuf (W1 m ρ c (Proc.devRef .tc main_cst_3))
      = constant (F := Ideal) S_ .f32 0x00000000#32 := Cert.TRefStrip.ofBuf_eq_of_heq _ _ _ (heq_of_eq (cst3_at1 m ρ c))
  have h12' : (StableHlo.TRef.of main_v12 : StableHlo.TRef sig ⟨S100000, .i1⟩).ofBuf (W1 m ρ c (Proc.devRef .tc main_v12))
      = Cert.ReferenceIdeal.Read.val_main_v12 (F := Ideal) (m ((c : Thread nD τ).loc main_arg1)) := Cert.TRefStrip.ofBuf_eq_of_heq _ _ _ (heq_of_eq (v12_at1 m ρ c))
  have h15' : (StableHlo.TRef.of main_v15 : StableHlo.TRef sig ⟨S100000, .f32⟩).ofBuf (W1 m ρ c (Proc.devRef .tc main_v15))
      = Cert.ReferenceIdeal.Read.val_main_v15 (F := Ideal) (m ((c : Thread nD τ).loc main_arg1)) := Cert.TRefStrip.ofBuf_eq_of_heq _ _ _ (heq_of_eq (v15_at1 m ρ c))
  have e16 : ∀ v : (⟨S100000, .f32⟩ : BufTy).Contents (Elt Ideal),
      (StableHlo.TRef.of main_v16 : StableHlo.TRef sig ⟨S100000, .f32⟩).toBuf v = v := fun v => eq_of_heq (Cert.TRefStrip.toBuf_heq _ v)
  show StableHlo.after hostOps0_1 (W1 m ρ c) (Proc.devRef .tc main_v16) = _
  generalize W1 m ρ c = V at hc' h12' h15' ⊢
  after_results_simp
  simp only [Cert.TRefStrip.ofBuf_toBuf]
  rw [hc', h12', h15', e16]
  rfl

/-! ## The third stretch: the two endpoints' factors, multiplied -/

set_option maxHeartbeats 4000000 in
/-- The normalisation of every edge, as a column. -/
theorem v32_at3 : W3 m ρ c (Proc.devRef .tc main_v32)
    = Cert.ReferenceIdeal.Read.val_main_v40 (F := Ideal) (m ((c : Thread nD τ).loc main_arg1)) := by
  have h3 : W2 m ρ c (Proc.devRef .tc main_v3) = Cert.ReferenceIdeal.Read.val_main_v3 (F := Ideal) (m ((c : Thread nD τ).loc main_arg1)) :=
    (StableHlo.after_of_forall_not_mem (b := Proc.devRef .tc main_v3) _ _ (by not_written)).trans (v3_at1 m ρ c)
  have h6 : W2 m ρ c (Proc.devRef .tc main_v6) = Cert.ReferenceIdeal.Read.val_main_v6 (F := Ideal) (m ((c : Thread nD τ).loc main_arg1)) :=
    (StableHlo.after_of_forall_not_mem (b := Proc.devRef .tc main_v6) _ _ (by not_written)).trans (v6_at1 m ρ c)
  have h16 := v16_at2 m ρ c
  show StableHlo.after hostOps0_2 (W2 m ρ c) (Proc.devRef .tc main_v32) = _
  generalize W2 m ρ c = V at h3 h6 h16 ⊢
  after_results_simp
  rw [h3, h6, h16]
  rfl

end Cert.KernelIdeal.Chain

end
-- ==== Proof.Spec.lean ====
/-
  The mathematics both programs compute, stated once over literal shapes, index by index on the extended reals.

  A graph-convolution layer is a matrix product of the node features with a weight matrix, a gather of the product's
  rows along the edges, a scaling of each gathered row by its edge's normalisation, a scatter-add back to the nodes, and
  then a bias and a clamp at zero. Only the matrix product and the bias-and-clamp are computed differently by the two
  programs (blocked row panels against one whole product; a row bias broadcast inside a panel against one broadcast over
  the whole array); the gather, the scaling and the scatter-add are the same operations in both and are never opened.
  The head is two matrix products of the pooled rows and of the one global row against the two halves of a weight
  matrix, added, biased, clamped at zero, and a last product with a one-column matrix plus a scalar bias.
-/
import Idealize.ShloMosaic.PureOps.Ideal
import Idealize.ShloMosaic.Lib.ValueIdx

noncomputable section

open scoped BigOperators

namespace Cert.Spec

open Idealize.ShloMosaic Idealize.ShloMosaic.ValueIdx

/-- Entry (r, c) of the product of a 100000 × 128 array with a 128 × 64 array: the sum over k of X(r, k) · W(k, c). -/
def mm128 (X : (⟨2, ![100000, 128]⟩ : Shape).Idx → EReal) (W : (⟨2, ![128, 64]⟩ : Shape).Idx → EReal) :
    (⟨2, ![100000, 64]⟩ : Shape).Idx → EReal :=
  fun i => ∑ k : Fin 128, X (ix2 (i 0) k) * W (ix2 k (i 1))

/-- Entry (r, c) of the product of a 100000 × 64 array with a 64 × 64 array. -/
def mm64 (X : (⟨2, ![100000, 64]⟩ : Shape).Idx → EReal) (W : (⟨2, ![64, 64]⟩ : Shape).Idx → EReal) :
    (⟨2, ![100000, 64]⟩ : Shape).Idx → EReal :=
  fun i => ∑ k : Fin 64, X (ix2 (i 0) k) * W (ix2 k (i 1))

/-- A row bias added to every row, then the clamp at zero: entry (r, c) is max (A(r, c) + b(0, c)) 0. -/
def biasRelu (A : (⟨2, ![100000, 64]⟩ : Shape).Idx → EReal) (b : (⟨2, ![1, 64]⟩ : Shape).Idx → EReal) :
    (⟨2, ![100000, 64]⟩ : Shape).Idx → EReal :=
  fun i => max (A i + b (ix2 0 (i 1))) 0

/-- The hidden layer of the head at (r, j): the pooled row r against the first weight half, plus the global row
    against the second, plus the bias, clamped at zero. -/
def hidden (S : (⟨2, ![512, 64]⟩ : Shape).Idx → EReal) (g : (⟨2, ![1, 64]⟩ : Shape).Idx → EReal)
    (Wa Wb : (⟨2, ![64, 64]⟩ : Shape).Idx → EReal) (b1 : (⟨2, ![1, 64]⟩ : Shape).Idx → EReal) (r : Fin 512) (j : Fin 64) : EReal :=
  max ((∑ k : Fin 64, S (ix2 r k) * Wa (ix2 k j)) + (∑ k : Fin 64, g (ix2 0 k) * Wb (ix2 k j)) + b1 (ix2 0 j)) 0

/-- The head's output at (r, 0): the hidden row r against the one-column weight, plus the scalar bias. -/
def head (S : (⟨2, ![512, 64]⟩ : Shape).Idx → EReal) (g : (⟨2, ![1, 64]⟩ : Shape).Idx → EReal)
    (Wa Wb : (⟨2, ![64, 64]⟩ : Shape).Idx → EReal) (b1 : (⟨2, ![1, 64]⟩ : Shape).Idx → EReal)
    (W2 : (⟨2, ![64, 1]⟩ : Shape).Idx → EReal) (b2 : (⟨2, ![1, 1]⟩ : Shape).Idx → EReal) :
    (⟨2, ![512, 1]⟩ : Shape).Idx → EReal :=
  fun i => (∑ j : Fin 64, hidden S g Wa Wb b1 (i 0) j * W2 (ix2 j (i 1))) + b2 (ix2 0 0)

end Cert.Spec

end
-- ==== Proof.RegMM0.lean ====
/-
  The first matrix product of the network, as the blocked kernel computes it.

  The node features are an array of 100000 rows and 128 columns, the weights an array of 128 rows and 64 columns.
  The kernel walks ten points. At point t it holds the panel of rows 10000·t … 10000·t + 9999 of the features and
  the whole weight array, and it writes the panel's product with the weights to rows 10000·t … 10000·t + 9999 of
  the result. Entry (p, q) of a panel's product is the sum over k of panel(p, k) · weight(k, q); panel(p, k) is
  feature(10000·t + p, k), so that entry is entry (10000·t + p, q) of the product of the whole arrays. The ten
  panels tile the rows of the result, so after the last point the result array holds the whole product.
-/
import proofs.«411938_j42167988912133_2_alg».proof.Proof.Gen.KernelIdeal.Frame
import proofs.«411938_j42167988912133_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-! ## The product of one panel with the weights, entry by entry -/

/-- The left operand's index of a term of the contraction keeps the result's row … -/
theorem panel0_lhs_row (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- … and has the contracted coordinate as its column. -/
theorem panel0_lhs_col (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- The right operand's index has the contracted coordinate as its row … -/
theorem panel0_rhs_row (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- … and keeps the result's column. -/
theorem panel0_rhs_col (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- What the body computes from a panel `x0` and the weights `x1`, at (p, q): the sum over k of x0(p, k) · x1(k, q).
    The change of float format is the identity on the extended reals and the accumulator starts at zero, so the
    product is the plain contraction, whose one contracted axis is re-indexed by k. -/
theorem panel0_product_apply (x0 : Vec Ideal S10000x128 .f32) (x1 : Vec Ideal S128x64 .f32) (p : Fin 10000) (q : Fin 64) :
    k0_pay1 (F := Ideal) x0 x1 (ix2 p q) = ∑ k : Fin 128, x0 (ix2 p k) * x1 (ix2 k q) := by
  unfold k0_pay1
  refine (Ideal.matmul_constant_zero_apply dot_S10000x128_S128x64_S10000x64_1_0_0_1_n_n none _ _ (ix2 p q)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact panel0_lhs_row _ _
    | ⟨1, _⟩ => exact (panel0_lhs_col _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (panel0_rhs_row _ _).trans hk
    | ⟨1, _⟩ => exact panel0_rhs_col _ _)
  rw [el, er]
  rfl

/-- If the panel `x0` is rows b·10000 … of the array `X` and `x1` is the array `W`, entry (p, q) of the panel's
    product is entry (b·10000 + p, q) of the product of the whole arrays. -/
theorem panel0_entry (X : (⟨2, ![100000, 128]⟩ : Shape).Idx → EReal) (W : (⟨2, ![128, 64]⟩ : Shape).Idx → EReal)
    (x0 : Vec Ideal S10000x128 .f32) (x1 : Vec Ideal S128x64 .f32) (p : Fin 10000) (q : Fin 64) (r : Fin 100000)
    (h0 : ∀ k : Fin 128, x0 (ix2 p k) = X (ix2 r k)) (h1 : ∀ k : Fin 128, x1 (ix2 k q) = W (ix2 k q)) :
    k0_pay1 (F := Ideal) x0 x1 (ix2 p q) = Cert.Spec.mm128 X W (ix2 r q) := by
  rw [panel0_product_apply]
  show _ = ∑ k : Fin 128, X (ix2 r k) * W (ix2 k q)
  exact Finset.sum_congr rfl fun k _ => by rw [h0 k, h1 k]

/-! ## Where the blocks sit -/

theorem zero_offsets : (![0, 0] : Fin 2 → Nat) = fun _ => 0 := funext fun a => by fin_cases a <;> rfl

/-- The index maps, decided over the ten points: the feature panel moves with the result panel along the rows and
    stays at column block 0; the weights are always block (0, 0); the result panel's row block is at most 9. -/
theorem panel0_index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks of the result is some point's. -/
theorem panel0_index_onto : ∀ q0 : Fin 10, ∃ t : Fin cfg0.N, win0_2.index t = ![q0.val, 0] :=
  (by decide +kernel : ∀ q0 : Fin 10, ∃ t : Fin grid0.N, win0_2.index t = ![q0.val, 0])

variable (V : (c : Dev nD) → (b : Ref sig .tc) → Buf (Elt Ideal) ((c : Thread nD τ).loc b))

/-- The feature panel at point `t`, at (p, k), is the feature array at row (row block of `t`)·10000 + p, column k. -/
theorem feature_panel0_apply (c : Dev nD) (t : Fin cfg0.N) (p : Fin 10000) (k : Fin 128) (r : Fin 100000)
    (hr : r.val = win0_2.index t (0 : Fin 2) * 10000 + p.val) :
    (iblk0 (F := Ideal) V c 0 t : Vec Ideal S10000x128 .f32) (ix2 p k)
      = (V c (Pipeline.arrRef spec0 0) : (⟨2, ![100000, 128]⟩ : Shape).Idx → EReal) (ix2 r k) := by
  obtain ⟨e0, e1, -⟩ := panel0_index_facts t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 10000 + 1 * p.val = r.val; omega
  | ⟨1, _⟩ => show win0_0.index t (1 : Fin 2) * 128 + 1 * k.val = k.val; omega

/-- The weight block at every point is the whole weight array. -/
theorem weight_block0_apply (c : Dev nD) (t : Fin cfg0.N) (k : Fin 128) (q : Fin 64) :
    (iblk0 (F := Ideal) V c 1 t : Vec Ideal S128x64 .f32) (ix2 k q)
      = (V c (Pipeline.arrRef spec0 1) : (⟨2, ![128, 64]⟩ : Shape).Idx → EReal) (ix2 k q) := by
  obtain ⟨-, -, e2, e3, -⟩ := panel0_index_facts t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 128 + 1 * k.val = k.val; omega
  | ⟨1, _⟩ => show win0_1.index t (1 : Fin 2) * 64 + 1 * q.val = q.val; omega

/-! ## What a point writes back, and the array after the last point -/

/-- What point `t` writes back is its panel of the product of the whole arrays. -/
theorem panel0_flushed (c : Dev nD) (t : Fin cfg0.N) :
    (dat0 (F := Ideal) V c).flushed 2 t = ((cfg0.win 2).blk t).view.read (Elt Ideal)
      (Cert.Spec.mm128 (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x64) zero_offsets]
  funext j
  obtain ⟨p, q, rfl⟩ : ∃ (p : Fin 10000) (q : Fin 64), j = ix2 p q := ⟨j 0, j 1, eq_ix2 j⟩
  have hb : win0_2.index t (0 : Fin 2) ≤ 9 := (panel0_index_facts t).2.2.2.2.2
  have h1 : win0_2.index t (1 : Fin 2) = 0 := (panel0_index_facts t).2.2.2.2.1
  have hr : win0_2.index t (0 : Fin 2) * 10000 + p.val < 100000 := by have := p.isLt; omega
  show k0_pay1 (F := Ideal) (iblk0 V c 0 t) (iblk0 V c 1 t) (ix2 p q)
    = Cert.Spec.mm128 (V c (Pipeline.arrRef spec0 0)) (V c (Pipeline.arrRef spec0 1)) (((cfg0.win 2).blk t).view.emb (ix2 p q))
  have hemb : ((cfg0.win 2).blk t).view.emb (ix2 p q) = ix2 (⟨win0_2.index t (0 : Fin 2) * 10000 + p.val, hr⟩ : Fin 100000) q := by
    funext a
    apply Fin.ext
    match a with
    | ⟨0, _⟩ => show win0_2.index t (0 : Fin 2) * 10000 + 1 * p.val = win0_2.index t (0 : Fin 2) * 10000 + p.val; omega
    | ⟨1, _⟩ => show win0_2.index t (1 : Fin 2) * 64 + 1 * q.val = q.val; omega
  rw [hemb]
  exact panel0_entry _ _ (iblk0 V c 0 t) (iblk0 V c 1 t) p q ⟨win0_2.index t (0 : Fin 2) * 10000 + p.val, hr⟩
    (fun k => feature_panel0_apply V c t p k _ rfl) (fun k => weight_block0_apply V c t k q)

/-- An index of the result array is in point `t`'s panel iff each coordinate is in the panel's range on its axis. -/
theorem mem_panel0 (t : Fin cfg0.N) (i : (⟨2, ![100000, 64]⟩ : Shape).Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v33).slice (win0_2.rect t)).set ↔ _
  rw [View.set_slice_whole, Rect.mem_set_unit]
  exact Iff.rfl

/-- Every index of the result array is in the panel of the point whose row block is (row / 10000). -/
theorem panels0_cover (i : (⟨2, ![100000, 64]⟩ : Shape).Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := panel0_index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_panel0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE RESULT ARRAY after the region: the product of the feature array with the weight array, as the region found them. -/
theorem region0_value (c : Dev nD) :
    (dat0 (F := Ideal) V c).arrAt 2 cfg0.N
      = Cert.Spec.mm128 (V c (Pipeline.arrRef spec0 0)) (V c (Pipeline.arrRef spec0 1)) :=
  (dat0 (F := Ideal) V c).arrAt_eq_of_cover 2 _ (fun t _ => panel0_flushed V c t) panels0_cover

end Cert.KernelIdeal.RegVal

end
-- ==== Proof.RegBR1.lean ====
/-
  The value of the first bias-and-clamp region.

  The region walks the 100000 x 64 aggregate in ten panels of 10000 rows. At panel t it reads rows 10000 t .. 10000 t + 9999
  of the aggregate and the whole 1 x 64 bias row, adds the bias row to every row of the panel, clamps at zero, and writes
  the result to the same rows of the output. A panel's entry (p, q) therefore depends on the aggregate at
  (10000 t + p, q) and on the bias at (0, q) only, which is exactly entry (10000 t + p, q) of the row bias followed by
  the clamp on the whole array. The ten panels are disjoint and fill all 100000 rows (row r lies in panel r / 10000), so
  after the last panel the output array is that function everywhere.
-/
import proofs.«411938_j42167988912133_2_alg».proof.Proof.Gen.KernelIdeal.Frame
import proofs.«411938_j42167988912133_2_alg».proof.Proof.Spec
import Idealize.ShloMosaic.Lib.Pipeline.Value
import Idealize.ShloMosaic.Lib.ValueLayout
import Idealize.ShloMosaic.PureOps.Ideal.Laws

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body reads and writes its buffers from their first entry: the offsets are all zero. -/
theorem offsets_zero_br1 : (![0, 0] : Fin 2 → Nat) = fun _ => 0 := funext fun a => by fin_cases a <;> rfl

/-- The body's arithmetic at entry (p, q) of a panel: the panel's entry plus the bias row's entry in column q, clamped
    at zero. The two shape casts are to the same shape, the row broadcast reads row 0, and the clamp's constant is the
    zero word. -/
theorem biasClamp_at_br1 (x0 : Vec Ideal S10000x64 .f32) (x1 : Vec Ideal S1x64 .f32) (p : Fin 10000) (q : Fin 64) :
    k1_pay1 x0 x1 (ix2 p q) = max (x0 (ix2 p q) + x1 (ix2 0 q)) 0 := by
  unfold k1_pay1
  show max (shapeCast S10000x64 x0 shapeCasts_S10000x64_S10000x64 (ix2 p q)
      + broadcastTo S10000x64 (shapeCast S1x64 x1 shapeCasts_S1x64_S1x64) broadcasts_S1x64_S10000x64 (ix2 p q))
    (Ideal.ofBits .f32 0x00000000#32) = _
  rw [shapeCast_self, shapeCast_self, broadcastTo_1b_ab_apply, Ideal.ofBits_zero_f32]

/-- The printed index maps over the ten panels: the aggregate's panel and the output's panel are the same block of
    rows and start at column 0, the bias row is always block (0, 0), and the panel number is at most 9. -/
theorem panel_maps_br1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every one of the ten row panels is some point's output block. -/
theorem panel_onto_br1 : ∀ q0 : Fin 10, ∃ t : Fin cfg1.N, win1_2.index t = ![q0.val, 0] :=
  (by decide +kernel : ∀ q0 : Fin 10, ∃ t : Fin grid1.N, win1_2.index t = ![q0.val, 0])

/-- The aggregate and the bias row as the region finds them, at their literal shapes. -/
abbrev agg_br1 (c : Dev nD) : S100000x64.Idx → EReal := V c (Pipeline.arrRef spec1 0)
abbrev bias_br1 (c : Dev nD) : S1x64.Idx → EReal := V c (Pipeline.arrRef spec1 1)

/-- What panel t writes back is panel t of the row bias and clamp of the two arrays as the region finds them. -/
theorem panel_written_br1 (c : Dev nD) (t : Fin cfg1.N) :
    (dat1 V c).flushed 2 t = ((cfg1.win 2).blk t).view.read (Elt Ideal)
      (Cert.Spec.biasRelu (V c (Pipeline.arrRef spec1 0)) (V c (Pipeline.arrRef spec1 1))) := by
  show (cfg1.win 2).cut (grid1.coords t) ((dat1 V c).after 2 t) = _
  rw [after1_2]
  unfold out1_2
  rw [View.canon_unit_zero offsets_zero_br1]
  simp only [View.ld_unit_zero (S := S10000x64) offsets_zero_br1, View.ld_unit_zero (S := S1x64) offsets_zero_br1]
  obtain ⟨e0, e1, e2, e3, e4, e5⟩ := panel_maps_br1 t
  funext j
  obtain ⟨p, q, rfl⟩ : ∃ (p : Fin 10000) (q : Fin 64), j = ix2 p q := ⟨j 0, j 1, eq_ix2 j⟩
  refine (biasClamp_at_br1 (iblk1 V c 0 t) (iblk1 V c 1 t) p q).trans ?_
  show max (agg_br1 V c (((cfg1.win 0).blk t).view.emb (ix2 p q)) + bias_br1 V c (((cfg1.win 1).blk t).view.emb (ix2 0 q))) 0
    = max (agg_br1 V c (((cfg1.win 2).blk t).view.emb (ix2 p q))
        + bias_br1 V c (ix2 0 ((((cfg1.win 2).blk t).view.emb (ix2 p q)) 1))) 0
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have h1 : ((cfg1.win 1).blk t).view.emb (ix2 0 q) = ix2 0 ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  rw [h0, h1]
  rfl

/-- An index of the output array lies in panel t's block exactly when each coordinate lies in the block's range. -/
theorem mem_panel_br1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v47).slice (win1_2.rect t)).set ↔ _
  rw [View.set_slice_whole, Rect.mem_set_unit]
  exact Iff.rfl

/-- The ten panels fill the array: row r lies in panel r / 10000, and every column lies in each panel. -/
theorem panels_cover_br1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := panel_onto_br1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_panel_br1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the region the output array is the row bias and clamp of the aggregate and the bias row as the region found
    them: every panel wrote its block of that function, and the panels fill the array. -/
theorem region1_value (c : Dev nD) :
    (dat1 (F := Ideal) V c).arrAt 2 cfg1.N
      = Cert.Spec.biasRelu (V c (Pipeline.arrRef spec1 0)) (V c (Pipeline.arrRef spec1 1)) :=
  (dat1 V c).arrAt_eq_of_cover 2 _ (fun t _ => panel_written_br1 V c t) panels_cover_br1

end Cert.KernelIdeal.RegVal

end
-- ==== Proof.KLayer1.lean ====
/- Layer 1 of the graph convolution, as the kernel's program runs it, is the reference's layer 1.

  The panel product of the layer's input with its weight matrix is the reference's one whole product (both are the
  same sums, entry by entry: hypothesis hmm). The gather along the edges, the scaling by the edge normalisation and
  the scatter-add back to the nodes are the same operations in both programs, applied to equal operands (the edge
  endpoints and the normalisation column as the first region found them: h3, h6, h32). The bias row added inside each
  panel and the clamp at zero are the reference's broadcast bias and its maximum with zero (hypothesis hbr).
-/
import proofs.«411938_j42167988912133_2_alg».proof.Proof.Gen.KernelIdeal.Frame
import proofs.«411938_j42167988912133_2_alg».proof.Proof.RefStages
import proofs.«411938_j42167988912133_2_alg».proof.Proof.KKeep
import proofs.«411938_j42167988912133_2_alg».proof.Proof.RegMM0
import proofs.«411938_j42167988912133_2_alg».proof.Proof.RegBR1
import proofs.«411938_j42167988912133_2_alg».proof.Proof.Spec
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The layer's matrix product, after its region. -/
theorem v33_at4
    (hmm : Cert.ReferenceIdeal.Read.val_main_v32 (F := Ideal) (m ((c : Thread nD τ).loc main_arg0)) (m ((c : Thread nD τ).loc main_arg4)) = Cert.Spec.mm128 (m ((c : Thread nD τ).loc main_arg0)) (m ((c : Thread nD τ).loc main_arg4))) :
    W4 m ρ c (Proc.devRef .tc main_v33) = Cert.ReferenceIdeal.Read.val_main_v32 (F := Ideal) (m ((c : Thread nD τ).loc main_arg0)) (m ((c : Thread nD τ).loc main_arg4)) := by
  have h := Cert.KernelIdeal.RegVal.region0_value (V3 m ρ) c
  rw [show V3 m ρ c (Pipeline.arrRef spec0 0) = _ from Keep.arg0_at3 m ρ c,
      show V3 m ρ c (Pipeline.arrRef spec0 1) = _ from Keep.arg4_at3 m ρ c] at h
  exact (W4_arr m ρ c 2).trans (h.trans hmm.symm)

set_option maxHeartbeats 4000000 in
/-- The aggregate: the product's rows gathered along the edges, scaled, and scatter-added to the nodes. -/
theorem v45_at5
    (hpre : W4 m ρ c (Proc.devRef .tc main_v33) = Cert.ReferenceIdeal.Read.val_main_v32 (F := Ideal) (m ((c : Thread nD τ).loc main_arg0)) (m ((c : Thread nD τ).loc main_arg4)))
    (h3 : W3 m ρ c (Proc.devRef .tc main_v3) = Cert.ReferenceIdeal.Read.val_main_v3 (F := Ideal) (m ((c : Thread nD τ).loc main_arg1)))
    (h6 : W3 m ρ c (Proc.devRef .tc main_v6) = Cert.ReferenceIdeal.Read.val_main_v6 (F := Ideal) (m ((c : Thread nD τ).loc main_arg1)))
    (h32 : W3 m ρ c (Proc.devRef .tc main_v32) = Cert.ReferenceIdeal.Read.val_main_v40 (F := Ideal) (m ((c : Thread nD τ).loc main_arg1))) :
    W5 m ρ c (Proc.devRef .tc main_v45) = Cert.ReferenceIdeal.Read.val_main_v45 (F := Ideal) (m ((c : Thread nD τ).loc main_arg0)) (m ((c : Thread nD τ).loc main_arg1)) (m ((c : Thread nD τ).loc main_arg4)) := by
  have e3 := (Keep.v3_at4 m ρ c).trans h3
  have e6 := (Keep.v6_at4 m ρ c).trans h6
  have e32 := (Keep.v32_at4 m ρ c).trans h32
  show StableHlo.after hostOps1 (W4 m ρ c) (Proc.devRef .tc main_v45) = _
  generalize W4 m ρ c = V at hpre e3 e6 e32 ⊢
  after_results_simp
  rw [hpre, e3, e6, e32]
  rfl

/-- The bias, laid out as one row. -/
theorem v46_at5 : W5 m ρ c (Proc.devRef .tc main_v46)
    = shapeCast S1x64 (m ((c : Thread nD τ).loc main_arg5)) shapeCasts_S64_S1x64 := by
  show StableHlo.after hostOps1 (W4 m ρ c) (Proc.devRef .tc main_v46) = _
  after_results
  rw [Keep.arg5_at4 m ρ c]
  rfl

/-- The layer's output, after the bias-and-clamp region. -/
theorem v47_at6
    (hagg : W5 m ρ c (Proc.devRef .tc main_v45) = Cert.ReferenceIdeal.Read.val_main_v45 (F := Ideal) (m ((c : Thread nD τ).loc main_arg0)) (m ((c : Thread nD τ).loc main_arg1)) (m ((c : Thread nD τ).loc main_arg4)))
    (hbr : Cert.ReferenceIdeal.Read.val_main_v49 (F := Ideal) (m ((c : Thread nD τ).loc main_arg0)) (m ((c : Thread nD τ).loc main_arg1)) (m ((c : Thread nD τ).loc main_arg4)) (m ((c : Thread nD τ).loc main_arg5)) = Cert.Spec.biasRelu (Cert.ReferenceIdeal.Read.val_main_v45 (F := Ideal) (m ((c : Thread nD τ).loc main_arg0)) (m ((c : Thread nD τ).loc main_arg1)) (m ((c : Thread nD τ).loc main_arg4))) (shapeCast S1x64 (m ((c : Thread nD τ).loc main_arg5)) shapeCasts_S64_S1x64)) :
    W6 m ρ c (Proc.devRef .tc main_v47) = Cert.ReferenceIdeal.Read.val_main_v49 (F := Ideal) (m ((c : Thread nD τ).loc main_arg0)) (m ((c : Thread nD τ).loc main_arg1)) (m ((c : Thread nD τ).loc main_arg4)) (m ((c : Thread nD τ).loc main_arg5)) := by
  have h := Cert.KernelIdeal.RegVal.region1_value (V5 m ρ) c
  rw [show V5 m ρ c (Pipeline.arrRef spec1 0) = _ from hagg,
      show V5 m ρ c (Pipeline.arrRef spec1 1) = _ from v46_at5 m ρ c] at h
  exact (W6_arr m ρ c 2).trans (h.trans hbr.symm)

end Cert.KernelIdeal.Chain

end
-- ==== Proof.RegMM2.lean ====
/-
  A matrix product of a hidden layer, as the blocked kernel computes it.

  The hidden features are an array of 100000 rows and 64 columns, the weights an array of 64 rows and 64 columns.
  The kernel walks ten points. At point t it holds the panel of rows 10000·t … 10000·t + 9999 of the features and
  the whole weight array, and it writes the panel's product with the weights to rows 10000·t … 10000·t + 9999 of
  the result. Entry (p, q) of a panel's product is the sum over k of panel(p, k) · weight(k, q); panel(p, k) is
  feature(10000·t + p, k), so that entry is entry (10000·t + p, q) of the product of the whole arrays. The ten
  panels tile the rows of the result, so after the last point the result array holds the whole product.
-/
import proofs.«411938_j42167988912133_2_alg».proof.Proof.Gen.KernelIdeal.Frame
import proofs.«411938_j42167988912133_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-! ## The product of one panel with the weights, entry by entry -/

/-- The left operand's index of a term of the contraction keeps the result's row … -/
theorem panel2_lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and has the contracted coordinate as its column. -/
theorem panel2_lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand's index has the contracted coordinate as its row … -/
theorem panel2_rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and keeps the result's column. -/
theorem panel2_rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- What the body computes from a panel `x0` and the weights `x1`, at (p, q): the sum over k of x0(p, k) · x1(k, q).
    The recast of the panel to its own shape and the change of float format are the identity on the extended reals
    and the accumulator starts at zero, so the product is the plain contraction, whose one contracted axis is
    re-indexed by k. -/
theorem panel2_product_apply (x0 : Vec Ideal S10000x64 .f32) (x1 : Vec Ideal S64x64 .f32) (p : Fin 10000) (q : Fin 64) :
    k2_pay1 (F := Ideal) x0 x1 (ix2 p q) = ∑ k : Fin 64, x0 (ix2 p k) * x1 (ix2 k q) := by
  unfold k2_pay1
  refine (Ideal.matmul_constant_zero_apply dot_S10000x64_S64x64_S10000x64_1_0_0_1_n_n none _ _ (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact panel2_lhs_row _ _
    | ⟨1, _⟩ => exact (panel2_lhs_col _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (panel2_rhs_row _ _).trans hk
    | ⟨1, _⟩ => exact panel2_rhs_col _ _)
  rw [el, er]
  show shapeCast S10000x64 x0 shapeCasts_S10000x64_S10000x64 (ix2 p k) * x1 (ix2 k q) = _
  rw [shapeCast_self]

/-- If the panel `x0` is rows b·10000 … of the array `X` and `x1` is the array `W`, entry (p, q) of the panel's
    product is entry (b·10000 + p, q) of the product of the whole arrays. -/
theorem panel2_entry (X : (⟨2, ![100000, 64]⟩ : Shape).Idx → EReal) (W : (⟨2, ![64, 64]⟩ : Shape).Idx → EReal)
    (x0 : Vec Ideal S10000x64 .f32) (x1 : Vec Ideal S64x64 .f32) (p : Fin 10000) (q : Fin 64) (r : Fin 100000)
    (h0 : ∀ k : Fin 64, x0 (ix2 p k) = X (ix2 r k)) (h1 : ∀ k : Fin 64, x1 (ix2 k q) = W (ix2 k q)) :
    k2_pay1 (F := Ideal) x0 x1 (ix2 p q) = Cert.Spec.mm64 X W (ix2 r q) := by
  rw [panel2_product_apply]
  show _ = ∑ k : Fin 64, X (ix2 r k) * W (ix2 k q)
  exact Finset.sum_congr rfl fun k _ => by rw [h0 k, h1 k]

/-! ## Where the blocks sit -/

theorem panel2_zero_offsets : (![0, 0] : Fin 2 → Nat) = fun _ => 0 := funext fun a => by fin_cases a <;> rfl

/-- The index maps, decided over the ten points: the feature panel moves with the result panel along the rows and
    stays at column block 0; the weights are always block (0, 0); the result panel's row block is at most 9. -/
theorem panel2_index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every one of the ten row blocks of the result is some point's. -/
theorem panel2_index_onto : ∀ q0 : Fin 10, ∃ t : Fin cfg2.N, win2_2.index t = ![q0.val, 0] :=
  (by decide +kernel : ∀ q0 : Fin 10, ∃ t : Fin grid2.N, win2_2.index t = ![q0.val, 0])

variable (V : (c : Dev nD) → (b : Ref sig .tc) → Buf (Elt Ideal) ((c : Thread nD τ).loc b))

/-- The feature panel at point `t`, at (p, k), is the feature array at row (row block of `t`)·10000 + p, column k. -/
theorem feature_panel2_apply (c : Dev nD) (t : Fin cfg2.N) (p : Fin 10000) (k : Fin 64) (r : Fin 100000)
    (hr : r.val = win2_2.index t (0 : Fin 2) * 10000 + p.val) :
    (iblk2 (F := Ideal) V c 0 t : Vec Ideal S10000x64 .f32) (ix2 p k)
      = (V c (Pipeline.arrRef spec2 0) : (⟨2, ![100000, 64]⟩ : Shape).Idx → EReal) (ix2 r k) := by
  obtain ⟨e0, e1, -⟩ := panel2_index_facts t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 10000 + 1 * p.val = r.val; omega
  | ⟨1, _⟩ => show win2_0.index t (1 : Fin 2) * 64 + 1 * k.val = k.val; omega

/-- The weight block at every point is the whole weight array. -/
theorem weight_block2_apply (c : Dev nD) (t : Fin cfg2.N) (k : Fin 64) (q : Fin 64) :
    (iblk2 (F := Ideal) V c 1 t : Vec Ideal S64x64 .f32) (ix2 k q)
      = (V c (Pipeline.arrRef spec2 1) : (⟨2, ![64, 64]⟩ : Shape).Idx → EReal) (ix2 k q) := by
  obtain ⟨-, -, e2, e3, -⟩ := panel2_index_facts t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 64 + 1 * k.val = k.val; omega
  | ⟨1, _⟩ => show win2_1.index t (1 : Fin 2) * 64 + 1 * q.val = q.val; omega

/-! ## What a point writes back, and the array after the last point -/

/-- What point `t` writes back is its panel of the product of the whole arrays. -/
theorem panel2_flushed (c : Dev nD) (t : Fin cfg2.N) :
    (dat2 (F := Ideal) V c).flushed 2 t = ((cfg2.win 2).blk t).view.read (Elt Ideal)
      (Cert.Spec.mm64 (V c (Pipeline.arrRef spec2 0)) (V c (Pipeline.arrRef spec2 1))) := by
  show (cfg2.win 2).cut (grid2.coords t) ((dat2 V c).after 2 t) = _
  rw [after2_2]
  unfold out2_2
  rw [View.canon_unit_zero panel2_zero_offsets]
  simp only [View.ld_unit_zero (S := S10000x64) panel2_zero_offsets, View.ld_unit_zero (S := S64x64) panel2_zero_offsets]
  funext j
  obtain ⟨p, q, rfl⟩ : ∃ (p : Fin 10000) (q : Fin 64), j = ix2 p q := ⟨j 0, j 1, eq_ix2 j⟩
  have hb : win2_2.index t (0 : Fin 2) ≤ 9 := (panel2_index_facts t).2.2.2.2.2
  have h1 : win2_2.index t (1 : Fin 2) = 0 := (panel2_index_facts t).2.2.2.2.1
  have hr : win2_2.index t (0 : Fin 2) * 10000 + p.val < 100000 := by have := p.isLt; omega
  show k2_pay1 (F := Ideal) (iblk2 V c 0 t) (iblk2 V c 1 t) (ix2 p q)
    = Cert.Spec.mm64 (V c (Pipeline.arrRef spec2 0)) (V c (Pipeline.arrRef spec2 1)) (((cfg2.win 2).blk t).view.emb (ix2 p q))
  have hemb : ((cfg2.win 2).blk t).view.emb (ix2 p q) = ix2 (⟨win2_2.index t (0 : Fin 2) * 10000 + p.val, hr⟩ : Fin 100000) q := by
    funext a
    apply Fin.ext
    match a with
    | ⟨0, _⟩ => show win2_2.index t (0 : Fin 2) * 10000 + 1 * p.val = win2_2.index t (0 : Fin 2) * 10000 + p.val; omega
    | ⟨1, _⟩ => show win2_2.index t (1 : Fin 2) * 64 + 1 * q.val = q.val; omega
  rw [hemb]
  exact panel2_entry _ _ (iblk2 V c 0 t) (iblk2 V c 1 t) p q ⟨win2_2.index t (0 : Fin 2) * 10000 + p.val, hr⟩
    (fun k => feature_panel2_apply V c t p k _ rfl) (fun k => weight_block2_apply V c t k q)

/-- An index of the result array is in point `t`'s panel iff each coordinate is in the panel's range on its axis. -/
theorem mem_panel2 (t : Fin cfg2.N) (i : (⟨2, ![100000, 64]⟩ : Shape).Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v48).slice (win2_2.rect t)).set ↔ _
  rw [View.set_slice_whole, Rect.mem_set_unit]
  exact Iff.rfl

/-- Every index of the result array is in the panel of the point whose row block is (row / 10000). -/
theorem panels2_cover (i : (⟨2, ![100000, 64]⟩ : Shape).Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := panel2_index_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_panel2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- THE RESULT ARRAY after the region: the product of the feature array with the weight array, as the region found them. -/
theorem region2_value (c : Dev nD) :
    (dat2 (F := Ideal) V c).arrAt 2 cfg2.N
      = Cert.Spec.mm64 (V c (Pipeline.arrRef spec2 0)) (V c (Pipeline.arrRef spec2 1)) :=
  (dat2 (F := Ideal) V c).arrAt_eq_of_cover 2 _ (fun t _ => panel2_flushed V c t) panels2_cover

end Cert.KernelIdeal.RegVal

end
-- ==== Proof.RegBR3.lean ====
/-
  The value of the second bias-and-clamp region.

  The region walks the 100000 x 64 aggregate in ten panels of 10000 rows. At panel t it reads rows 10000 t .. 10000 t + 9999
  of the aggregate and the whole 1 x 64 bias row, adds the bias row to every row of the panel, clamps at zero, and writes
  the result to the same rows of the output. A panel's entry (p, q) therefore depends on the aggregate at
  (10000 t + p, q) and on the bias at (0, q) only, which is exactly entry (10000 t + p, q) of the row bias followed by
  the clamp on the whole array. The ten panels are disjoint and fill all 100000 rows (row r lies in panel r / 10000), so
  after the last panel the output array is that function everywhere.
-/
import proofs.«411938_j42167988912133_2_alg».proof.Proof.Gen.KernelIdeal.Frame
import proofs.«411938_j42167988912133_2_alg».proof.Proof.Spec
import Idealize.ShloMosaic.Lib.Pipeline.Value
import Idealize.ShloMosaic.Lib.ValueLayout
import Idealize.ShloMosaic.PureOps.Ideal.Laws

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body reads and writes its buffers from their first entry: the offsets are all zero. -/
theorem offsets_zero_br3 : (![0, 0] : Fin 2 → Nat) = fun _ => 0 := funext fun a => by fin_cases a <;> rfl

/-- The body's arithmetic at entry (p, q) of a panel: the panel's entry plus the bias row's entry in column q, clamped
    at zero. The two shape casts are to the same shape, the row broadcast reads row 0, and the clamp's constant is the
    zero word. -/
theorem biasClamp_at_br3 (x0 : Vec Ideal S10000x64 .f32) (x1 : Vec Ideal S1x64 .f32) (p : Fin 10000) (q : Fin 64) :
    k3_pay1 x0 x1 (ix2 p q) = max (x0 (ix2 p q) + x1 (ix2 0 q)) 0 := by
  unfold k3_pay1
  show max (shapeCast S10000x64 x0 shapeCasts_S10000x64_S10000x64 (ix2 p q)
      + broadcastTo S10000x64 (shapeCast S1x64 x1 shapeCasts_S1x64_S1x64) broadcasts_S1x64_S10000x64 (ix2 p q))
    (Ideal.ofBits .f32 0x00000000#32) = _
  rw [shapeCast_self, shapeCast_self, broadcastTo_1b_ab_apply, Ideal.ofBits_zero_f32]

/-- The printed index maps over the ten panels: the aggregate's panel and the output's panel are the same block of
    rows and start at column 0, the bias row is always block (0, 0), and the panel number is at most 9. -/
theorem panel_maps_br3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 9 :=
  (by decide +kernel : ∀ t : Fin grid3.N, _)

/-- Every one of the ten row panels is some point's output block. -/
theorem panel_onto_br3 : ∀ q0 : Fin 10, ∃ t : Fin cfg3.N, win3_2.index t = ![q0.val, 0] :=
  (by decide +kernel : ∀ q0 : Fin 10, ∃ t : Fin grid3.N, win3_2.index t = ![q0.val, 0])

/-- The aggregate and the bias row as the region finds them, at their literal shapes. -/
abbrev agg_br3 (c : Dev nD) : S100000x64.Idx → EReal := V c (Pipeline.arrRef spec3 0)
abbrev bias_br3 (c : Dev nD) : S1x64.Idx → EReal := V c (Pipeline.arrRef spec3 1)

/-- What panel t writes back is panel t of the row bias and clamp of the two arrays as the region finds them. -/
theorem panel_written_br3 (c : Dev nD) (t : Fin cfg3.N) :
    (dat3 V c).flushed 2 t = ((cfg3.win 2).blk t).view.read (Elt Ideal)
      (Cert.Spec.biasRelu (V c (Pipeline.arrRef spec3 0)) (V c (Pipeline.arrRef spec3 1))) := by
  show (cfg3.win 2).cut (grid3.coords t) ((dat3 V c).after 2 t) = _
  rw [after3_2]
  unfold out3_2
  rw [View.canon_unit_zero offsets_zero_br3]
  simp only [View.ld_unit_zero (S := S10000x64) offsets_zero_br3, View.ld_unit_zero (S := S1x64) offsets_zero_br3]
  obtain ⟨e0, e1, e2, e3, e4, e5⟩ := panel_maps_br3 t
  funext j
  obtain ⟨p, q, rfl⟩ : ∃ (p : Fin 10000) (q : Fin 64), j = ix2 p q := ⟨j 0, j 1, eq_ix2 j⟩
  refine (biasClamp_at_br3 (iblk3 V c 0 t) (iblk3 V c 1 t) p q).trans ?_
  show max (agg_br3 V c (((cfg3.win 0).blk t).view.emb (ix2 p q)) + bias_br3 V c (((cfg3.win 1).blk t).view.emb (ix2 0 q))) 0
    = max (agg_br3 V c (((cfg3.win 2).blk t).view.emb (ix2 p q))
        + bias_br3 V c (ix2 0 ((((cfg3.win 2).blk t).view.emb (ix2 p q)) 1))) 0
  have h0 : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 64 + 1 * q.val = win3_2.index t (1 : Fin 2) * 64 + 1 * q.val; omega
  have h1 : ((cfg3.win 1).blk t).view.emb (ix2 0 q) = ix2 0 ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  rw [h0, h1]
  rfl

/-- An index of the output array lies in panel t's block exactly when each coordinate lies in the block's range. -/
theorem mem_panel_br3 (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v62).slice (win3_2.rect t)).set ↔ _
  rw [View.set_slice_whole, Rect.mem_set_unit]
  exact Iff.rfl

/-- The ten panels fill the array: row r lies in panel r / 10000, and every column lies in each panel. -/
theorem panels_cover_br3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := panel_onto_br3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_panel_br3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- After the region the output array is the row bias and clamp of the aggregate and the bias row as the region found
    them: every panel wrote its block of that function, and the panels fill the array. -/
theorem region3_value (c : Dev nD) :
    (dat3 (F := Ideal) V c).arrAt 2 cfg3.N
      = Cert.Spec.biasRelu (V c (Pipeline.arrRef spec3 0)) (V c (Pipeline.arrRef spec3 1)) :=
  (dat3 V c).arrAt_eq_of_cover 2 _ (fun t _ => panel_written_br3 V c t) panels_cover_br3

end Cert.KernelIdeal.RegVal

end
-- ==== Proof.KLayer2.lean ====
/- Layer 2 of the graph convolution, as the kernel's program runs it, is the reference's layer 2.

  The panel product of the layer's input with its weight matrix is the reference's one whole product (both are the
  same sums, entry by entry: hypothesis hmm). The gather along the edges, the scaling by the edge normalisation and
  the scatter-add back to the nodes are the same operations in both programs, applied to equal operands (the edge
  endpoints and the normalisation column as the first region found them: h3, h6, h32). The bias row added inside each
  panel and the clamp at zero are the reference's broadcast bias and its maximum with zero (hypothesis hbr).
-/
import proofs.«411938_j42167988912133_2_alg».proof.Proof.Gen.KernelIdeal.Frame
import proofs.«411938_j42167988912133_2_alg».proof.Proof.RefStages
import proofs.«411938_j42167988912133_2_alg».proof.Proof.KKeep
import proofs.«411938_j42167988912133_2_alg».proof.Proof.RegMM2
import proofs.«411938_j42167988912133_2_alg».proof.Proof.RegBR3
import proofs.«411938_j42167988912133_2_alg».proof.Proof.Spec
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The layer's matrix product, after its region. -/
theorem v48_at7
    (hin : W6 m ρ c (Proc.devRef .tc main_v47) = Cert.ReferenceIdeal.Read.val_main_v49 (F := Ideal) (m ((c : Thread nD τ).loc main_arg0)) (m ((c : Thread nD τ).loc main_arg1)) (m ((c : Thread nD τ).loc main_arg4)) (m ((c : Thread nD τ).loc main_arg5)))
    (hmm : Cert.ReferenceIdeal.Read.val_main_v50 (F := Ideal) (m ((c : Thread nD τ).loc main_arg0)) (m ((c : Thread nD τ).loc main_arg1)) (m ((c : Thread nD τ).loc main_arg4)) (m ((c : Thread nD τ).loc main_arg5)) (m ((c : Thread nD τ).loc main_arg6)) = Cert.Spec.mm64 (Cert.ReferenceIdeal.Read.val_main_v49 (F := Ideal) (m ((c : Thread nD τ).loc main_arg0)) (m ((c : Thread nD τ).loc main_arg1)) (m ((c : Thread nD τ).loc main_arg4)) (m ((c : Thread nD τ).loc main_arg5))) (m ((c : Thread nD τ).loc main_arg6))) :
    W7 m ρ c (Proc.devRef .tc main_v48) = Cert.ReferenceIdeal.Read.val_main_v50 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  have h := Cert.KernelIdeal.RegVal.region2_value (V6 m ρ) c
  rw [show V6 m ρ c (Pipeline.arrRef spec2 0) = _ from hin,
      show V6 m ρ c (Pipeline.arrRef spec2 1) = _ from Keep.arg6_at6 m ρ c] at h
  exact (W7_arr m ρ c 2).trans (h.trans hmm.symm)

set_option maxHeartbeats 4000000 in
/-- The aggregate: the product's rows gathered along the edges, scaled, and scatter-added to the nodes. -/
theorem v60_at8
    (hpre : W7 m ρ c (Proc.devRef .tc main_v48) = Cert.ReferenceIdeal.Read.val_main_v50 (F := Ideal) (m ((c : Thread nD τ).loc main_arg0)) (m ((c : Thread nD τ).loc main_arg1)) (m ((c : Thread nD τ).loc main_arg4)) (m ((c : Thread nD τ).loc main_arg5)) (m ((c : Thread nD τ).loc main_arg6)))
    (h3 : W3 m ρ c (Proc.devRef .tc main_v3) = Cert.ReferenceIdeal.Read.val_main_v3 (F := Ideal) (m ((c : Thread nD τ).loc main_arg1)))
    (h6 : W3 m ρ c (Proc.devRef .tc main_v6) = Cert.ReferenceIdeal.Read.val_main_v6 (F := Ideal) (m ((c : Thread nD τ).loc main_arg1)))
    (h32 : W3 m ρ c (Proc.devRef .tc main_v32) = Cert.ReferenceIdeal.Read.val_main_v40 (F := Ideal) (m ((c : Thread nD τ).loc main_arg1))) :
    W8 m ρ c (Proc.devRef .tc main_v60) = Cert.ReferenceIdeal.Read.val_main_v63 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  have e3 := ((Keep.v3_at7 m ρ c).trans (Keep.v3_at4 m ρ c)).trans h3
  have e6 := ((Keep.v6_at7 m ρ c).trans (Keep.v6_at4 m ρ c)).trans h6
  have e32 := ((Keep.v32_at7 m ρ c).trans (Keep.v32_at4 m ρ c)).trans h32
  show StableHlo.after hostOps3 (W7 m ρ c) (Proc.devRef .tc main_v60) = _
  generalize W7 m ρ c = V at hpre e3 e6 e32 ⊢
  after_results_simp
  rw [hpre, e3, e6, e32]
  rfl

/-- The bias, laid out as one row. -/
theorem v61_at8 : W8 m ρ c (Proc.devRef .tc main_v61)
    = shapeCast S1x64 (m ((c : Thread nD τ).loc main_arg7)) shapeCasts_S64_S1x64 := by
  show StableHlo.after hostOps3 (W7 m ρ c) (Proc.devRef .tc main_v61) = _
  after_results
  rw [Keep.arg7_at7 m ρ c]
  rfl

/-- The layer's output, after the bias-and-clamp region. -/
theorem v62_at9
    (hagg : W8 m ρ c (Proc.devRef .tc main_v60) = Cert.ReferenceIdeal.Read.val_main_v63 (F := Ideal) (m ((c : Thread nD τ).loc main_arg0)) (m ((c : Thread nD τ).loc main_arg1)) (m ((c : Thread nD τ).loc main_arg4)) (m ((c : Thread nD τ).loc main_arg5)) (m ((c : Thread nD τ).loc main_arg6)))
    (hbr : Cert.ReferenceIdeal.Read.val_main_v67 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) = Cert.Spec.biasRelu (Cert.ReferenceIdeal.Read.val_main_v63 (F := Ideal) (m ((c : Thread nD τ).loc main_arg0)) (m ((c : Thread nD τ).loc main_arg1)) (m ((c : Thread nD τ).loc main_arg4)) (m ((c : Thread nD τ).loc main_arg5)) (m ((c : Thread nD τ).loc main_arg6))) (shapeCast S1x64 (m ((c : Thread nD τ).loc main_arg7)) shapeCasts_S64_S1x64)) :
    W9 m ρ c (Proc.devRef .tc main_v62) = Cert.ReferenceIdeal.Read.val_main_v67 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  have h := Cert.KernelIdeal.RegVal.region3_value (V8 m ρ) c
  rw [show V8 m ρ c (Pipeline.arrRef spec3 0) = _ from hagg,
      show V8 m ρ c (Pipeline.arrRef spec3 1) = _ from v61_at8 m ρ c] at h
  exact (W9_arr m ρ c 2).trans (h.trans hbr.symm)

end Cert.KernelIdeal.Chain

end
-- ==== Proof.RegMM4.lean ====
/-
  A matrix product of a hidden layer, as the blocked kernel computes it.

  The hidden features are an array of 100000 rows and 64 columns, the weights an array of 64 rows and 64 columns.
  The kernel walks ten points. At point t it holds the panel of rows 10000·t … 10000·t + 9999 of the features and
  the whole weight array, and it writes the panel's product with the weights to rows 10000·t … 10000·t + 9999 of
  the result. Entry (p, q) of a panel's product is the sum over k of panel(p, k) · weight(k, q); panel(p, k) is
  feature(10000·t + p, k), so that entry is entry (10000·t + p, q) of the product of the whole arrays. The ten
  panels tile the rows of the result, so after the last point the result array holds the whole product.
-/
import proofs.«411938_j42167988912133_2_alg».proof.Proof.Gen.KernelIdeal.Frame
import proofs.«411938_j42167988912133_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-! ## The product of one panel with the weights, entry by entry -/

/-- The left operand's index of a term of the contraction keeps the result's row … -/
theorem panel4_lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and has the contracted coordinate as its column. -/
theorem panel4_lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand's index has the contracted coordinate as its row … -/
theorem panel4_rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and keeps the result's column. -/
theorem panel4_rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- What the body computes from a panel `x0` and the weights `x1`, at (p, q): the sum over k of x0(p, k) · x1(k, q).
    The recast of the panel to its own shape and the change of float format are the identity on the extended reals
    and the accumulator starts at zero, so the product is the plain contraction, whose one contracted axis is
    re-indexed by k. -/
theorem panel4_product_apply (x0 : Vec Ideal S10000x64 .f32) (x1 : Vec Ideal S64x64 .f32) (p : Fin 10000) (q : Fin 64) :
    k4_pay1 (F := Ideal) x0 x1 (ix2 p q) = ∑ k : Fin 64, x0 (ix2 p k) * x1 (ix2 k q) := by
  unfold k4_pay1
  refine (Ideal.matmul_constant_zero_apply dot_S10000x64_S64x64_S10000x64_1_0_0_1_n_n none _ _ (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact panel4_lhs_row _ _
    | ⟨1, _⟩ => exact (panel4_lhs_col _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (panel4_rhs_row _ _).trans hk
    | ⟨1, _⟩ => exact panel4_rhs_col _ _)
  rw [el, er]
  show shapeCast S10000x64 x0 shapeCasts_S10000x64_S10000x64 (ix2 p k) * x1 (ix2 k q) = _
  rw [shapeCast_self]

/-- If the panel `x0` is rows b·10000 … of the array `X` and `x1` is the array `W`, entry (p, q) of the panel's
    product is entry (b·10000 + p, q) of the product of the whole arrays. -/
theorem panel4_entry (X : (⟨2, ![100000, 64]⟩ : Shape).Idx → EReal) (W : (⟨2, ![64, 64]⟩ : Shape).Idx → EReal)
    (x0 : Vec Ideal S10000x64 .f32) (x1 : Vec Ideal S64x64 .f32) (p : Fin 10000) (q : Fin 64) (r : Fin 100000)
    (h0 : ∀ k : Fin 64, x0 (ix2 p k) = X (ix2 r k)) (h1 : ∀ k : Fin 64, x1 (ix2 k q) = W (ix2 k q)) :
    k4_pay1 (F := Ideal) x0 x1 (ix2 p q) = Cert.Spec.mm64 X W (ix2 r q) := by
  rw [panel4_product_apply]
  show _ = ∑ k : Fin 64, X (ix2 r k) * W (ix2 k q)
  exact Finset.sum_congr rfl fun k _ => by rw [h0 k, h1 k]

/-! ## Where the blocks sit -/

theorem panel4_zero_offsets : (![0, 0] : Fin 2 → Nat) = fun _ => 0 := funext fun a => by fin_cases a <;> rfl

/-- The index maps, decided over the ten points: the feature panel moves with the result panel along the rows and
    stays at column block 0; the weights are always block (0, 0); the result panel's row block is at most 9. -/
theorem panel4_index_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 9 :=
  (by decide +kernel : ∀ t : Fin grid4.N, _)

/-- Every one of the ten row blocks of the result is some point's. -/
theorem panel4_index_onto : ∀ q0 : Fin 10, ∃ t : Fin cfg4.N, win4_2.index t = ![q0.val, 0] :=
  (by decide +kernel : ∀ q0 : Fin 10, ∃ t : Fin grid4.N, win4_2.index t = ![q0.val, 0])

variable (V : (c : Dev nD) → (b : Ref sig .tc) → Buf (Elt Ideal) ((c : Thread nD τ).loc b))

/-- The feature panel at point `t`, at (p, k), is the feature array at row (row block of `t`)·10000 + p, column k. -/
theorem feature_panel4_apply (c : Dev nD) (t : Fin cfg4.N) (p : Fin 10000) (k : Fin 64) (r : Fin 100000)
    (hr : r.val = win4_2.index t (0 : Fin 2) * 10000 + p.val) :
    (iblk4 (F := Ideal) V c 0 t : Vec Ideal S10000x64 .f32) (ix2 p k)
      = (V c (Pipeline.arrRef spec4 0) : (⟨2, ![100000, 64]⟩ : Shape).Idx → EReal) (ix2 r k) := by
  obtain ⟨e0, e1, -⟩ := panel4_index_facts t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 10000 + 1 * p.val = r.val; omega
  | ⟨1, _⟩ => show win4_0.index t (1 : Fin 2) * 64 + 1 * k.val = k.val; omega

/-- The weight block at every point is the whole weight array. -/
theorem weight_block4_apply (c : Dev nD) (t : Fin cfg4.N) (k : Fin 64) (q : Fin 64) :
    (iblk4 (F := Ideal) V c 1 t : Vec Ideal S64x64 .f32) (ix2 k q)
      = (V c (Pipeline.arrRef spec4 1) : (⟨2, ![64, 64]⟩ : Shape).Idx → EReal) (ix2 k q) := by
  obtain ⟨-, -, e2, e3, -⟩ := panel4_index_facts t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 64 + 1 * k.val = k.val; omega
  | ⟨1, _⟩ => show win4_1.index t (1 : Fin 2) * 64 + 1 * q.val = q.val; omega

/-! ## What a point writes back, and the array after the last point -/

/-- What point `t` writes back is its panel of the product of the whole arrays. -/
theorem panel4_flushed (c : Dev nD) (t : Fin cfg4.N) :
    (dat4 (F := Ideal) V c).flushed 2 t = ((cfg4.win 2).blk t).view.read (Elt Ideal)
      (Cert.Spec.mm64 (V c (Pipeline.arrRef spec4 0)) (V c (Pipeline.arrRef spec4 1))) := by
  show (cfg4.win 2).cut (grid4.coords t) ((dat4 V c).after 2 t) = _
  rw [after4_2]
  unfold out4_2
  rw [View.canon_unit_zero panel4_zero_offsets]
  simp only [View.ld_unit_zero (S := S10000x64) panel4_zero_offsets, View.ld_unit_zero (S := S64x64) panel4_zero_offsets]
  funext j
  obtain ⟨p, q, rfl⟩ : ∃ (p : Fin 10000) (q : Fin 64), j = ix2 p q := ⟨j 0, j 1, eq_ix2 j⟩
  have hb : win4_2.index t (0 : Fin 2) ≤ 9 := (panel4_index_facts t).2.2.2.2.2
  have h1 : win4_2.index t (1 : Fin 2) = 0 := (panel4_index_facts t).2.2.2.2.1
  have hr : win4_2.index t (0 : Fin 2) * 10000 + p.val < 100000 := by have := p.isLt; omega
  show k4_pay1 (F := Ideal) (iblk4 V c 0 t) (iblk4 V c 1 t) (ix2 p q)
    = Cert.Spec.mm64 (V c (Pipeline.arrRef spec4 0)) (V c (Pipeline.arrRef spec4 1)) (((cfg4.win 2).blk t).view.emb (ix2 p q))
  have hemb : ((cfg4.win 2).blk t).view.emb (ix2 p q) = ix2 (⟨win4_2.index t (0 : Fin 2) * 10000 + p.val, hr⟩ : Fin 100000) q := by
    funext a
    apply Fin.ext
    match a with
    | ⟨0, _⟩ => show win4_2.index t (0 : Fin 2) * 10000 + 1 * p.val = win4_2.index t (0 : Fin 2) * 10000 + p.val; omega
    | ⟨1, _⟩ => show win4_2.index t (1 : Fin 2) * 64 + 1 * q.val = q.val; omega
  rw [hemb]
  exact panel4_entry _ _ (iblk4 V c 0 t) (iblk4 V c 1 t) p q ⟨win4_2.index t (0 : Fin 2) * 10000 + p.val, hr⟩
    (fun k => feature_panel4_apply V c t p k _ rfl) (fun k => weight_block4_apply V c t k q)

/-- An index of the result array is in point `t`'s panel iff each coordinate is in the panel's range on its axis. -/
theorem mem_panel4 (t : Fin cfg4.N) (i : (⟨2, ![100000, 64]⟩ : Shape).Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v63).slice (win4_2.rect t)).set ↔ _
  rw [View.set_slice_whole, Rect.mem_set_unit]
  exact Iff.rfl

/-- Every index of the result array is in the panel of the point whose row block is (row / 10000). -/
theorem panels4_cover (i : (⟨2, ![100000, 64]⟩ : Shape).Idx) :
    ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := panel4_index_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_panel4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- THE RESULT ARRAY after the region: the product of the feature array with the weight array, as the region found them. -/
theorem region4_value (c : Dev nD) :
    (dat4 (F := Ideal) V c).arrAt 2 cfg4.N
      = Cert.Spec.mm64 (V c (Pipeline.arrRef spec4 0)) (V c (Pipeline.arrRef spec4 1)) :=
  (dat4 (F := Ideal) V c).arrAt_eq_of_cover 2 _ (fun t _ => panel4_flushed V c t) panels4_cover

end Cert.KernelIdeal.RegVal

end
-- ==== Proof.RegBR5.lean ====
/-
  The value of the third bias-and-clamp region.

  The region walks the 100000 x 64 aggregate in ten panels of 10000 rows. At panel t it reads rows 10000 t .. 10000 t + 9999
  of the aggregate and the whole 1 x 64 bias row, adds the bias row to every row of the panel, clamps at zero, and writes
  the result to the same rows of the output. A panel's entry (p, q) therefore depends on the aggregate at
  (10000 t + p, q) and on the bias at (0, q) only, which is exactly entry (10000 t + p, q) of the row bias followed by
  the clamp on the whole array. The ten panels are disjoint and fill all 100000 rows (row r lies in panel r / 10000), so
  after the last panel the output array is that function everywhere.
-/
import proofs.«411938_j42167988912133_2_alg».proof.Proof.Gen.KernelIdeal.Frame
import proofs.«411938_j42167988912133_2_alg».proof.Proof.Spec
import Idealize.ShloMosaic.Lib.Pipeline.Value
import Idealize.ShloMosaic.Lib.ValueLayout
import Idealize.ShloMosaic.PureOps.Ideal.Laws

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body reads and writes its buffers from their first entry: the offsets are all zero. -/
theorem offsets_zero_br5 : (![0, 0] : Fin 2 → Nat) = fun _ => 0 := funext fun a => by fin_cases a <;> rfl

/-- The body's arithmetic at entry (p, q) of a panel: the panel's entry plus the bias row's entry in column q, clamped
    at zero. The two shape casts are to the same shape, the row broadcast reads row 0, and the clamp's constant is the
    zero word. -/
theorem biasClamp_at_br5 (x0 : Vec Ideal S10000x64 .f32) (x1 : Vec Ideal S1x64 .f32) (p : Fin 10000) (q : Fin 64) :
    k5_pay1 x0 x1 (ix2 p q) = max (x0 (ix2 p q) + x1 (ix2 0 q)) 0 := by
  unfold k5_pay1
  show max (shapeCast S10000x64 x0 shapeCasts_S10000x64_S10000x64 (ix2 p q)
      + broadcastTo S10000x64 (shapeCast S1x64 x1 shapeCasts_S1x64_S1x64) broadcasts_S1x64_S10000x64 (ix2 p q))
    (Ideal.ofBits .f32 0x00000000#32) = _
  rw [shapeCast_self, shapeCast_self, broadcastTo_1b_ab_apply, Ideal.ofBits_zero_f32]

/-- The printed index maps over the ten panels: the aggregate's panel and the output's panel are the same block of
    rows and start at column 0, the bias row is always block (0, 0), and the panel number is at most 9. -/
theorem panel_maps_br5 : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0
    ∧ win5_2.index t (0 : Fin 2) ≤ 9 :=
  (by decide +kernel : ∀ t : Fin grid5.N, _)

/-- Every one of the ten row panels is some point's output block. -/
theorem panel_onto_br5 : ∀ q0 : Fin 10, ∃ t : Fin cfg5.N, win5_2.index t = ![q0.val, 0] :=
  (by decide +kernel : ∀ q0 : Fin 10, ∃ t : Fin grid5.N, win5_2.index t = ![q0.val, 0])

/-- The aggregate and the bias row as the region finds them, at their literal shapes. -/
abbrev agg_br5 (c : Dev nD) : S100000x64.Idx → EReal := V c (Pipeline.arrRef spec5 0)
abbrev bias_br5 (c : Dev nD) : S1x64.Idx → EReal := V c (Pipeline.arrRef spec5 1)

/-- What panel t writes back is panel t of the row bias and clamp of the two arrays as the region finds them. -/
theorem panel_written_br5 (c : Dev nD) (t : Fin cfg5.N) :
    (dat5 V c).flushed 2 t = ((cfg5.win 2).blk t).view.read (Elt Ideal)
      (Cert.Spec.biasRelu (V c (Pipeline.arrRef spec5 0)) (V c (Pipeline.arrRef spec5 1))) := by
  show (cfg5.win 2).cut (grid5.coords t) ((dat5 V c).after 2 t) = _
  rw [after5_2]
  unfold out5_2
  rw [View.canon_unit_zero offsets_zero_br5]
  simp only [View.ld_unit_zero (S := S10000x64) offsets_zero_br5, View.ld_unit_zero (S := S1x64) offsets_zero_br5]
  obtain ⟨e0, e1, e2, e3, e4, e5⟩ := panel_maps_br5 t
  funext j
  obtain ⟨p, q, rfl⟩ : ∃ (p : Fin 10000) (q : Fin 64), j = ix2 p q := ⟨j 0, j 1, eq_ix2 j⟩
  refine (biasClamp_at_br5 (iblk5 V c 0 t) (iblk5 V c 1 t) p q).trans ?_
  show max (agg_br5 V c (((cfg5.win 0).blk t).view.emb (ix2 p q)) + bias_br5 V c (((cfg5.win 1).blk t).view.emb (ix2 0 q))) 0
    = max (agg_br5 V c (((cfg5.win 2).blk t).view.emb (ix2 p q))
        + bias_br5 V c (ix2 0 ((((cfg5.win 2).blk t).view.emb (ix2 p q)) 1))) 0
  have h0 : ((cfg5.win 0).blk t).view.emb (ix2 p q) = ((cfg5.win 2).blk t).view.emb (ix2 p q) := by
    funext a; apply Fin.ext
    match a with
    | ⟨0, _⟩ => show win5_0.index t (0 : Fin 2) * 10000 + 1 * p.val = win5_2.index t (0 : Fin 2) * 10000 + 1 * p.val; omega
    | ⟨1, _⟩ => show win5_0.index t (1 : Fin 2) * 64 + 1 * q.val = win5_2.index t (1 : Fin 2) * 64 + 1 * q.val; omega
  have h1 : ((cfg5.win 1).blk t).view.emb (ix2 0 q) = ix2 0 ((((cfg5.win 2).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 64 + 1 * q.val = win5_2.index t (1 : Fin 2) * 64 + 1 * q.val; omega
  rw [h0, h1]
  rfl

/-- An index of the output array lies in panel t's block exactly when each coordinate lies in the block's range. -/
theorem mem_panel_br5 (t : Fin cfg5.N) (i : S100000x64.Idx) :
    i ∈ ((cfg5.win 2).blk t).view.set ↔ ∀ a : Fin 2, win5_2.index t a * S10000x64.size a ≤ (i a).val
      ∧ (i a).val < win5_2.index t a * S10000x64.size a + S10000x64.size a := by
  show i ∈ ((View.whole main_v77).slice (win5_2.rect t)).set ↔ _
  rw [View.set_slice_whole, Rect.mem_set_unit]
  exact Iff.rfl

/-- The ten panels fill the array: row r lies in panel r / 10000, and every column lies in each panel. -/
theorem panels_cover_br5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ := panel_onto_br5 ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [mem_panel_br5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- After the region the output array is the row bias and clamp of the aggregate and the bias row as the region found
    them: every panel wrote its block of that function, and the panels fill the array. -/
theorem region5_value (c : Dev nD) :
    (dat5 (F := Ideal) V c).arrAt 2 cfg5.N
      = Cert.Spec.biasRelu (V c (Pipeline.arrRef spec5 0)) (V c (Pipeline.arrRef spec5 1)) :=
  (dat5 V c).arrAt_eq_of_cover 2 _ (fun t _ => panel_written_br5 V c t) panels_cover_br5

end Cert.KernelIdeal.RegVal

end
-- ==== Proof.KLayer3.lean ====
/- Layer 3 of the graph convolution, as the kernel's program runs it, is the reference's layer 3.

  The panel product of the layer's input with its weight matrix is the reference's one whole product (both are the
  same sums, entry by entry: hypothesis hmm). The gather along the edges, the scaling by the edge normalisation and
  the scatter-add back to the nodes are the same operations in both programs, applied to equal operands (the edge
  endpoints and the normalisation column as the first region found them: h3, h6, h32). The bias row added inside each
  panel and the clamp at zero are the reference's broadcast bias and its maximum with zero (hypothesis hbr).
-/
import proofs.«411938_j42167988912133_2_alg».proof.Proof.Gen.KernelIdeal.Frame
import proofs.«411938_j42167988912133_2_alg».proof.Proof.RefStages
import proofs.«411938_j42167988912133_2_alg».proof.Proof.KKeep
import proofs.«411938_j42167988912133_2_alg».proof.Proof.RegMM4
import proofs.«411938_j42167988912133_2_alg».proof.Proof.RegBR5
import proofs.«411938_j42167988912133_2_alg».proof.Proof.Spec
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The layer's matrix product, after its region. -/
theorem v63_at10
    (hin : W9 m ρ c (Proc.devRef .tc main_v62) = Cert.ReferenceIdeal.Read.val_main_v67 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)))
    (hmm : Cert.ReferenceIdeal.Read.val_main_v68 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) = Cert.Spec.mm64 (Cert.ReferenceIdeal.Read.val_main_v67 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg8))) :
    W10 m ρ c (Proc.devRef .tc main_v63) = Cert.ReferenceIdeal.Read.val_main_v68 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) := by
  have h := Cert.KernelIdeal.RegVal.region4_value (V9 m ρ) c
  rw [show V9 m ρ c (Pipeline.arrRef spec4 0) = _ from hin,
      show V9 m ρ c (Pipeline.arrRef spec4 1) = _ from Keep.arg8_at9 m ρ c] at h
  exact (W10_arr m ρ c 2).trans (h.trans hmm.symm)

set_option maxHeartbeats 4000000 in
/-- The aggregate: the product's rows gathered along the edges, scaled, and scatter-added to the nodes. -/
theorem v75_at11
    (hpre : W10 m ρ c (Proc.devRef .tc main_v63) = Cert.ReferenceIdeal.Read.val_main_v68 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)))
    (h3 : W3 m ρ c (Proc.devRef .tc main_v3) = Cert.ReferenceIdeal.Read.val_main_v3 (F := Ideal) (m ((c : Thread nD τ).loc main_arg1)))
    (h6 : W3 m ρ c (Proc.devRef .tc main_v6) = Cert.ReferenceIdeal.Read.val_main_v6 (F := Ideal) (m ((c : Thread nD τ).loc main_arg1)))
    (h32 : W3 m ρ c (Proc.devRef .tc main_v32) = Cert.ReferenceIdeal.Read.val_main_v40 (F := Ideal) (m ((c : Thread nD τ).loc main_arg1))) :
    W11 m ρ c (Proc.devRef .tc main_v75) = Cert.ReferenceIdeal.Read.val_main_v81 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) := by
  have e3 := ((Keep.v3_at10 m ρ c).trans ((Keep.v3_at7 m ρ c).trans (Keep.v3_at4 m ρ c))).trans h3
  have e6 := ((Keep.v6_at10 m ρ c).trans ((Keep.v6_at7 m ρ c).trans (Keep.v6_at4 m ρ c))).trans h6
  have e32 := ((Keep.v32_at10 m ρ c).trans ((Keep.v32_at7 m ρ c).trans (Keep.v32_at4 m ρ c))).trans h32
  show StableHlo.after hostOps5 (W10 m ρ c) (Proc.devRef .tc main_v75) = _
  generalize W10 m ρ c = V at hpre e3 e6 e32 ⊢
  after_results_simp
  rw [hpre, e3, e6, e32]
  rfl

/-- The bias, laid out as one row. -/
theorem v76_at11 : W11 m ρ c (Proc.devRef .tc main_v76)
    = shapeCast S1x64 (m ((c : Thread nD τ).loc main_arg9)) shapeCasts_S64_S1x64 := by
  show StableHlo.after hostOps5 (W10 m ρ c) (Proc.devRef .tc main_v76) = _
  after_results
  rw [Keep.arg9_at10 m ρ c]
  rfl

/-- The layer's output, after the bias-and-clamp region. -/
theorem v77_at12
    (hagg : W11 m ρ c (Proc.devRef .tc main_v75) = Cert.ReferenceIdeal.Read.val_main_v81 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)))
    (hbr : Cert.ReferenceIdeal.Read.val_main_v85 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = Cert.Spec.biasRelu (Cert.ReferenceIdeal.Read.val_main_v81 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (shapeCast S1x64 (m ((c : Thread nD τ).loc main_arg9)) shapeCasts_S64_S1x64)) :
    W12 m ρ c (Proc.devRef .tc main_v77) = Cert.ReferenceIdeal.Read.val_main_v85 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h := Cert.KernelIdeal.RegVal.region5_value (V11 m ρ) c
  rw [show V11 m ρ c (Pipeline.arrRef spec5 0) = _ from hagg,
      show V11 m ρ c (Pipeline.arrRef spec5 1) = _ from v76_at11 m ρ c] at h
  exact (W12_arr m ρ c 2).trans (h.trans hbr.symm)

end Cert.KernelIdeal.Chain

end
-- ==== Proof.PreRange.lean ====
/-
  The certificate's precondition, decoded at the one integer argument whose range matters: the [512, 256] table of
  row positions into the [100000, 64] array. The printed precondition ends in the conjunct
  "all (0 ≤ idx and idx < 100000)", both comparisons signed. A 32-bit word that is at least 0 and below 100000 when
  read signed has its sign bit clear, so read unsigned it is the same number: every entry is below 100000 unsigned.
-/
import proofs.«411938_j42167988912133_2_alg».proof.Defs
import Idealize.ShloMosaic.Lib.ReduceAll
import Idealize.ShloMosaic.Lib.StableHlo.Predicate
import Idealize.ShloMosaic.Lib.ValueIdx

noncomputable section

namespace Cert.PreRange

open Idealize.ShloMosaic Idealize.SL.Sem

/-- A 32-bit word in [0, n) as a signed number (n below 2³¹) is below n as an unsigned number: were its sign bit set,
    its signed value would be negative. -/
theorem toNat_lt_of_signed_range (w : BitVec 32) (n : Nat) (hn : n < 2 ^ 31)
    (h0 : IntOp.cmpi .sge w 0#32 = 1#1) (hlt : IntOp.cmpi .slt w (BitVec.ofNat 32 n) = 1#1) : w.toNat < n := by
  rw [IntOp.cmpi_sge] at h0
  rw [IntOp.cmpi_slt, StableHlo.Predicate.toInt_ofNat_small n hn] at hlt
  have hz : (0#32 : BitVec 32).toInt = 0 := by decide
  rw [hz, BitVec.toInt_eq_toNat_cond] at h0
  rw [BitVec.toInt_eq_toNat_cond] at hlt
  have hw := w.isLt
  split at h0 <;> split at hlt <;> omega

/-- The scalar shape has one index. -/
instance : Subsingleton Cert.Pre_finite_inputs.S_.Idx := ⟨fun a b => funext fun d => d.elim0⟩

/-- The last part of the printed precondition, decoded: if it is 1 then every entry of the position table is below
    100000 unsigned. Only its last conjunct is opened; the float conjuncts before it stay as they are. -/
theorem part3_range [Cert.Pre_finite_inputs.Facts] {F : FTy → Type} [FloatOps F]
    (arg3 : IVec Cert.Pre_finite_inputs.S512x256 32) (v48 : IVec Cert.Pre_finite_inputs.S_ 1)
    (v49 v50 : FVec F Cert.Pre_finite_inputs.S1 .f32)
    (h : Cert.Pre_finite_inputs.fn_part3 (F := F) arg3 v48 v49 v50 ValueIdx.ix0 = 1#1)
    (y : Cert.Pre_finite_inputs.S512x256.Idx) : (arg3 y).toNat < 100000 := by
  dsimp only [Cert.Pre_finite_inputs.fn_part3] at h
  -- the result is (the float conjuncts) and (all of the range mask): keep the second
  have hall := (IntOp.andi_eq_one.1 h).2
  -- all of the mask is 1: the mask is 1 at y
  have hy := Host.reduce_andi_all _ _ _ _ _ hall y
  -- the mask at y is (0 ≤ idx y) and (idx y < 100000), signed, against the two broadcast constants
  obtain ⟨hge, hlt⟩ := IntOp.andi_eq_one.1 hy
  exact toNat_lt_of_signed_range (arg3 y) 100000 (by norm_num) hge hlt

/-- THE RANGE FACT: under the certificate's precondition every entry of the position table, on every device, is
    below 100000 read unsigned. -/
theorem sheet_idx_lt [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (y : Cert.KernelIdeal.S512x256.Idx) :
    ((m ((c.tc : Thread Cert.KernelIdeal.nD Cert.KernelIdeal.τ).loc Cert.KernelIdeal.main_arg3)) y).toNat < 100000 :=
  part3_range (F := Ideal) _ _ _ _ (congrFun (h c) ValueIdx.ix0) y

end Cert.PreRange

end
-- ==== Proof.TakeMask.lean ====
/-
  A row gather guarded by an in-range mask is the plain row gather when every position is in range.

  The program reads rows of a [100000, 64] array at a [512, 256] table of positions the way a take with a fill
  value does: a negative position is first wrapped (idx < 0 ? idx + 100000 : idx); the mask (0 ≤ idx') and (idx' ≤ 99999),
  both signed, is computed per position (an "and" reduction over the index vector's one component); the rows are
  gathered (the gather clamps each start index into the array); and the result is the gathered row where the mask
  holds and a NaN word elsewhere. When every position is below 100000 read unsigned, a position is non-negative
  read signed, so the wrap leaves it alone and both comparisons hold: the mask is all ones and the select returns
  the gathered rows.
-/
import proofs.«411938_j42167988912133_2_alg».proof.KernelIdeal
import Idealize.ShloMosaic.Lib.StableHlo.Predicate
import Idealize.ShloMosaic.Lib.ValueIdx

noncomputable section

namespace Cert.TakeMask

open Idealize.ShloMosaic
open Cert.KernelIdeal Cert.KernelIdeal.Facts₀

variable [Cert.KernelIdeal.Facts₀]

/-! ## Words -/

/-- ONE POSITION. A word below 100000 (unsigned) is not negative (signed), so the wrap keeps it, and the wrapped
    word is at least 0 and at most 99999 (signed): the two comparison bits and their "and" are 1. -/
theorem wrapped_in_range (w : BitVec 32) (hw : w.toNat < 100000) :
    IntOp.andi
      (IntOp.cmpi .sge (Scalar.select (IntOp.cmpi .slt w 0#32) (IntOp.addi w 100000#32) w) 0#32)
      (IntOp.cmpi .sle (Scalar.select (IntOp.cmpi .slt w 0#32) (IntOp.addi w 100000#32) w) 99999#32) = 1#1 := by
  have hw31 : w.toNat < 2 ^ 31 := by omega
  have h0 : (0#32 : BitVec 32).toNat = 0 := rfl
  have h9 : (99999#32 : BitVec 32).toNat = 99999 := rfl
  -- the test "w < 0" fails
  have hneg : IntOp.cmpi .slt w 0#32 = 0#1 := by
    refine ValueIdx.eq_zero_of_ne_one fun h => ?_
    have := (StableHlo.Predicate.slt_iff_toNat hw31 (by rw [h0]; norm_num)).1 h
    omega
  rw [hneg, ValueIdx.select_zero]
  have hge : IntOp.cmpi .sge w 0#32 = 1#1 :=
    (StableHlo.Predicate.sge_iff_toNat hw31 (by rw [h0]; norm_num)).2 (by omega)
  have hle : IntOp.cmpi .sle w 99999#32 = 1#1 :=
    (StableHlo.Predicate.sle_iff_toNat hw31 (by rw [h9]; norm_num)).2 (by omega)
  rw [hge, hle]; rfl

/-- A left fold by "and" from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- An "and" reduction, from an initial value of ones, of a mask that is 1 everywhere is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x hx _

/-! ## The take -/

/-- The positions as the gather's start indices: each wrapped if negative, then given a trailing axis of one. -/
def idx5 (I : IVec S512x256 32) : IVec S512x256x1 32 :=
  broadcastInDim S512x256x1 ![0, 1] bcast_S512x256_S512x256x1_0_1
    (select (cmpi .slt I (broadcastInDim S512x256 ![] bcast_S_S512x256 (constantI S_ 32 0#32)))
      (addi I (broadcastInDim S512x256 ![] bcast_S_S512x256 (constantI S_ 32 100000#32))) I)

/-- The in-range mask before its reduction is 1 at every start index: the one-position fact at the position the
    start index names. -/
theorem range_mask_one (I : IVec S512x256 32) (hI : ∀ y : S512x256.Idx, (I y).toNat < 100000) (i : S512x256x1.Idx) :
    andi (cmpi .sge (idx5 I) (broadcastInDim S512x256x1 ![] bcast_S_S512x256x1 (constantI S_ 32 0#32)))
         (cmpi .sle (idx5 I) (broadcastInDim S512x256x1 ![0, 1, 2] bcast_S1x1x1_S512x256x1_0_1_2
            (broadcastInDim S1x1x1 ![2] bcast_S1_S1x1x1_2 (constantI S1 32 99999#32)))) i = 1#1 :=
  wrapped_in_range (I _) (hI _)

/-- THE TAKE WITH A FILL IS THE PLAIN GATHER when every position is below 100000. -/
theorem take_fill_eq_gather (X : FVec Ideal S100000x64 .f32) (I : IVec S512x256 32)
    (hI : ∀ y : S512x256.Idx, (I y).toNat < 100000) :
    select (broadcastInDim S512x256x64 ![0, 1] bcast_S512x256_S512x256x64_0_1
              (Host.reduce IntOp.andi
                (andi (cmpi .sge (idx5 I) (broadcastInDim S512x256x1 ![] bcast_S_S512x256x1 (constantI S_ 32 0#32)))
                      (cmpi .sle (idx5 I) (broadcastInDim S512x256x1 ![0, 1, 2] bcast_S1x1x1_S512x256x1_0_1_2
                        (broadcastInDim S1x1x1 ![2] bcast_S1_S1x1x1_2 (constantI S1 32 99999#32)))))
                (constantI S_ 1 1#1) reducesTo_S512x256x1_S512x256_d2 h_S_))
           (Host.gather gather_S100000x64_S512x256x1_S512x256x64_2_0_n_n_0_2_164 X (idx5 I))
           (broadcastInDim S512x256x64 ![] bcast_S_S512x256x64 (constant (F := Ideal) S_ .f32 0x7FC00000#32))
      = Host.gather gather_S100000x64_S512x256x1_S512x256x64_2_0_n_n_0_2_164 X (idx5 I) := by
  funext j
  rw [ValueIdx.select_apply]
  -- the mask bit at j is the reduced mask at j's first two coordinates: 1
  rw [show broadcastInDim S512x256x64 ![0, 1] bcast_S512x256_S512x256x64_0_1
        (Host.reduce IntOp.andi
          (andi (cmpi .sge (idx5 I) (broadcastInDim S512x256x1 ![] bcast_S_S512x256x1 (constantI S_ 32 0#32)))
                (cmpi .sle (idx5 I) (broadcastInDim S512x256x1 ![0, 1, 2] bcast_S1x1x1_S512x256x1_0_1_2
                  (broadcastInDim S1x1x1 ![2] bcast_S1_S1x1x1_2 (constantI S1 32 99999#32)))))
          (constantI S_ 1 1#1) reducesTo_S512x256x1_S512x256_d2 h_S_) j = 1#1 from
      reduce_andi_ones _ _ _ _ (range_mask_one I hI) (fun _ => rfl) _]
  exact ValueIdx.select_one _ _

end Cert.TakeMask

end
-- ==== Proof.KPool.lean ====
/-
  What the kernel's program holds, at the entry of its last region, in the buffers that region reads — each as the
  reference's own stage at the kernel's launch arguments.

  Between the last bias-and-ReLU region and the head region the program runs three stretches of host operations:
  the mean of the node features over all nodes (a scatter-add of every row into one row, divided by the clamped row
  count), the gather of the sheet nodes' rows with its in-range fill, and the mean over each sheet's 256 gathered rows,
  followed by the slices and reshapes of the head's weights. Given that the node features entering these stretches are
  the reference's layer-3 output, each buffer the head region reads is the reference's stage of the same name:
  the operations are the same ones on both sides, except that the kernel's gather carries a fill mask, which the
  precondition's range fact makes all ones.
-/
import proofs.«411938_j42167988912133_2_alg».proof.Defs
import proofs.«411938_j42167988912133_2_alg».proof.Proof.Gen.KernelIdeal.Frame
import proofs.«411938_j42167988912133_2_alg».proof.Proof.RefStages
import proofs.«411938_j42167988912133_2_alg».proof.Proof.KKeep
import proofs.«411938_j42167988912133_2_alg».proof.Proof.PreRange
import proofs.«411938_j42167988912133_2_alg».proof.Proof.TakeMask

set_option maxRecDepth 16384

noncomputable section

namespace Cert.KernelIdeal.Chain

open Cert.KernelIdeal Cert.KernelIdeal.Gen
open Idealize.ShloMosaic Idealize.ShloMosaic.TcCoe Idealize.SL.Sem

/-! ## Contents seen through a typed reference

An operation of a module-local function reads and writes its buffers through references that carry the tensor's type;
the contents pass through a transport along "the buffer's type is the tensor's type". The transport is the identity. -/

/-- Writing through a typed reference and reading back gives the value. -/
theorem ofBuf_toBuf {σ : RefSig} {Val : EltTy → Type} {T : BufTy} (x : StableHlo.TRef σ T) (v : T.Contents Val) :
    x.ofBuf (x.toBuf v) = v := by
  obtain ⟨r, hty, h2, h3⟩ := x
  subst hty
  rfl

/-- Reading contents through a typed reference gives the same contents. -/
theorem ofBuf_eq_of_heq {σ : RefSig} {Val : EltTy → Type} {T : BufTy} (x : StableHlo.TRef σ T)
    (v : x.ref.ty.Contents Val) (w : T.Contents Val) (h : HEq v w) : x.ofBuf v = w := by
  obtain ⟨r, hty, h2, h3⟩ := x
  subst hty
  exact eq_of_heq h

/-- Writing a value through a typed reference stores the same value. -/
theorem toBuf_heq {σ : RefSig} {Val : EltTy → Type} {T : BufTy} (x : StableHlo.TRef σ T) (v : T.Contents Val) :
    HEq (x.toBuf v) v := by
  obtain ⟨r, hty, h2, h3⟩ := x
  subst hty
  rfl

variable (m : (ℓ : Loc nD τ sig) → Buf (Elt Ideal) ℓ) (ρ : Dev nD → PrngReg) (c : Dev nD)

/-! ## The node mean -/

set_option maxHeartbeats 2000000 in
/-- After the first stretch the node-mean buffer holds the reference's node mean: every row of the layer-3 output
    scatter-added into one row, divided by the row count clamped below by 1. -/
theorem v88_at13 (h77 : W12 m ρ c (Proc.devRef .tc main_v77) = Cert.ReferenceIdeal.Read.val_main_v85 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    W13 m ρ c (Proc.devRef .tc main_v88) = Cert.ReferenceIdeal.Read.val_main_v96 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h2 := Cert.KernelIdeal.Keep.arg2_at12 m ρ c
  show StableHlo.after hostOps6 (W12 m ρ c) (Proc.devRef .tc main_v88) = _
  generalize W12 m ρ c = V at h77 h2 ⊢
  after_results_simp
  rw [h77, h2]
  rfl

/-- The two later stretches do not write the node-mean buffer: the head region's entry still holds it. -/
theorem v88_at15 (h77 : W12 m ρ c (Proc.devRef .tc main_v77) = Cert.ReferenceIdeal.Read.val_main_v85 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    W15 m ρ c (Proc.devRef .tc main_v88) = Cert.ReferenceIdeal.Read.val_main_v96 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  ((StableHlo.after_of_forall_not_mem (b := Proc.devRef .tc main_v88) _ _ (by not_written)).trans
    (StableHlo.after_of_forall_not_mem (b := Proc.devRef .tc main_v88) _ _ (by not_written))).trans (v88_at13 m ρ c h77)

/-! ## The sheet means -/

set_option maxHeartbeats 4000000 in
/-- At the head region's entry the pooled buffer holds the reference's sheet means: the gather with a fill is the plain
    gather because every position is in range (the precondition), and the sum over each sheet's 256 rows and the
    division by 256 are the same operations on both sides. -/
theorem v92_at15 [hPre_finite_inputs : Cert.Pre_finite_inputs.Facts] (hpre : Cert.Pre_KernelIdeal m) (h77 : W12 m ρ c (Proc.devRef .tc main_v77) = Cert.ReferenceIdeal.Read.val_main_v85 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    W15 m ρ c (Proc.devRef .tc main_v92) = Cert.ReferenceIdeal.Read.val_main_v106 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have hI : ∀ y : S512x256.Idx, ((m ((c : Thread nD τ).loc main_arg3)) y).toNat < 100000 := Cert.PreRange.sheet_idx_lt m hpre c
  have hT := Cert.TakeMask.take_fill_eq_gather (Cert.ReferenceIdeal.Read.val_main_v85 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg3)) hI
  unfold Cert.TakeMask.idx5 at hT
  -- the two buffers the take reads, as the stretch's typed references see them
  have h3' : (StableHlo.TRef.of main_arg3 : StableHlo.TRef sig ⟨S512x256, .i32⟩).ofBuf (W13 m ρ c (Proc.devRef .tc main_arg3))
      = (m ((c : Thread nD τ).loc main_arg3)) := ofBuf_eq_of_heq _ _ _ (heq_of_eq (Cert.KernelIdeal.Keep.arg3_at13 m ρ c))
  have h77' : (StableHlo.TRef.of main_v77 : StableHlo.TRef sig ⟨S100000x64, .f32⟩).ofBuf (W13 m ρ c (Proc.devRef .tc main_v77))
      = Cert.ReferenceIdeal.Read.val_main_v85 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
    ofBuf_eq_of_heq _ _ _ (heq_of_eq
      ((StableHlo.after_of_forall_not_mem (b := Proc.devRef .tc main_v77) _ _ (by not_written)).trans h77))
  -- the take's result, as the next stretch reads it
  have e89 : ∀ v : (⟨S512x256x64, .f32⟩ : BufTy).Contents (Elt Ideal),
      (StableHlo.TRef.of main_v89 : StableHlo.TRef sig ⟨S512x256x64, .f32⟩).toBuf v = v := fun v => eq_of_heq (toBuf_heq _ v)
  show StableHlo.after hostOps6_2 (StableHlo.after hostOps6_1 (W13 m ρ c)) (Proc.devRef .tc main_v92) = _
  generalize W13 m ρ c = V at h77' h3' ⊢
  after_results_simp
  simp only [ofBuf_toBuf]
  rw [h77', h3', e89, hT]
  rfl

/-! ## The head's weights -/

/-- The upper half of the first head weight. -/
theorem v93_at15 : W15 m ρ c (Proc.devRef .tc main_v93)
    = extractStridedSlice S64x64 ![0, 0] (m ((c : Thread nD τ).loc main_arg10)) slices_S128x64_S64x64_0_0 := by
  have h10 := Cert.KernelIdeal.Keep.arg10_at14 m ρ c
  show StableHlo.after hostOps6_2 (W14 m ρ c) (Proc.devRef .tc main_v93) = _
  generalize W14 m ρ c = V at h10 ⊢
  after_results
  rw [h10]

/-- The lower half of the first head weight. -/
theorem v94_at15 : W15 m ρ c (Proc.devRef .tc main_v94)
    = extractStridedSlice S64x64 ![64, 0] (m ((c : Thread nD τ).loc main_arg10)) slices_S128x64_S64x64_64_0 := by
  have h10 := Cert.KernelIdeal.Keep.arg10_at14 m ρ c
  show StableHlo.after hostOps6_2 (W14 m ρ c) (Proc.devRef .tc main_v94) = _
  generalize W14 m ρ c = V at h10 ⊢
  after_results
  rw [h10]

/-- The first head bias as a row. -/
theorem v95_at15 : W15 m ρ c (Proc.devRef .tc main_v95) = shapeCast S1x64 (m ((c : Thread nD τ).loc main_arg11)) shapeCasts_S64_S1x64 := by
  have h11 := Cert.KernelIdeal.Keep.arg11_at14 m ρ c
  show StableHlo.after hostOps6_2 (W14 m ρ c) (Proc.devRef .tc main_v95) = _
  generalize W14 m ρ c = V at h11 ⊢
  after_results
  rw [h11]
  rfl

/-- The second head bias as a [1, 1] array. -/
theorem v96_at15 : W15 m ρ c (Proc.devRef .tc main_v96) = shapeCast S1x1 (m ((c : Thread nD τ).loc main_arg13)) shapeCasts_S1_S1x1 := by
  have h13 := Cert.KernelIdeal.Keep.arg13_at14 m ρ c
  show StableHlo.after hostOps6_2 (W14 m ρ c) (Proc.devRef .tc main_v96) = _
  generalize W14 m ρ c = V at h13 ⊢
  after_results
  rw [h13]
  rfl

end Cert.KernelIdeal.Chain

end
-- ==== Proof.RegHead.lean ====
/-
  The value of the last kernel region: the head of the network.

  The region's grid has one point and every window's block is its whole array, so the body runs once on the seven input
  arrays themselves and its one store fills the output array. The body is three matrix products into zero accumulators
  with a row bias, a clamp at zero and a scalar bias between them. On the extended reals a change of float format is the
  identity and a product into a zero accumulator is the plain sum over the contracted axis, so at the index (r, 0) the
  stored value is the sum over j of hidden(r, j) · W2(j, 0), plus b2(0, 0), where hidden(r, j) is the clamp at zero of
  the sum over k of S(r, k) · Wa(k, j), plus the sum over k of g(0, k) · Wb(k, j), plus b1(0, j): the specification's
  head. Three steps: the payload at an index; what the one point writes back, read through the output's block; the one
  block covers the array, so the array after the region is that function.
-/
import proofs.«411938_j42167988912133_2_alg».proof.Proof.Gen.KernelIdeal.Frame
import proofs.«411938_j42167988912133_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx

namespace Head

/-! ## The two contractions of the head, read at an index -/

theorem lhs_sq_0 (i : S512x64.Idx) (q : dot_S512x64_S64x64_S512x64_1_0_0_1_n_n.contr.Idx) :
    (dot_S512x64_S64x64_S512x64_1_0_0_1_n_n.lhsIdx i q 0).val = (i 0).val := by
  unfold DotDims.lhsIdx
  rw [dif_neg (show ¬(0 : Fin S512x64.rank) ∈ dot_S512x64_S64x64_S512x64_1_0_0_1_n_n.lhsBatch by decide), dif_pos (show (0 : Fin S512x64.rank) ∈ dot_S512x64_S64x64_S512x64_1_0_0_1_n_n.lhsNonContracting by decide)]
  rfl
theorem lhs_sq_1 (i : S512x64.Idx) (q : dot_S512x64_S64x64_S512x64_1_0_0_1_n_n.contr.Idx) :
    (dot_S512x64_S64x64_S512x64_1_0_0_1_n_n.lhsIdx i q 1).val = (q ⟨0, by decide⟩).val :=
  dot_S512x64_S64x64_S512x64_1_0_0_1_n_n.lhsIdx_val_of_single rfl i q
theorem rhs_sq_0 (i : S512x64.Idx) (q : dot_S512x64_S64x64_S512x64_1_0_0_1_n_n.contr.Idx) :
    (dot_S512x64_S64x64_S512x64_1_0_0_1_n_n.rhsIdx i q 0).val = (q ⟨0, by decide⟩).val :=
  dot_S512x64_S64x64_S512x64_1_0_0_1_n_n.rhsIdx_val_of_single rfl i q
theorem rhs_sq_1 (i : S512x64.Idx) (q : dot_S512x64_S64x64_S512x64_1_0_0_1_n_n.contr.Idx) :
    (dot_S512x64_S64x64_S512x64_1_0_0_1_n_n.rhsIdx i q 1).val = (i 1).val := by
  unfold DotDims.rhsIdx
  rw [dif_neg (show ¬(1 : Fin S64x64.rank) ∈ dot_S512x64_S64x64_S512x64_1_0_0_1_n_n.rhsBatch by decide), dif_pos (show (1 : Fin S64x64.rank) ∈ dot_S512x64_S64x64_S512x64_1_0_0_1_n_n.rhsNonContracting by decide)]
  rfl

/-- A 512 × 64 by 64 × 64 product into a zero accumulator, at (p, q): the sum over k of L(p, k) · R(k, q). -/
theorem matmul_sq_apply {φ₁ φ₂ : FTy} (l : FVec Ideal S512x64 φ₁) (r : FVec Ideal S64x64 φ₂) (p : Fin 512) (q : Fin 64) :
    matmul dot_S512x64_S64x64_S512x64_1_0_0_1_n_n none l r (constant S512x64 .f32 0x00000000#32) (ix2 p q)
      = ∑ k : Fin 64, l (ix2 p k) * r (ix2 k q) := by
  simp only [matmul]
  rw [Ideal.matmul_constant_zero_apply, ← Equiv.sum_comp (contrEquiv1 dot_S512x64_S64x64_S512x64_1_0_0_1_n_n 64 rfl rfl).symm]
  refine Finset.sum_congr rfl fun k _ => ?_
  have hk := contrEquiv1_symm_val dot_S512x64_S64x64_S512x64_1_0_0_1_n_n 64 rfl rfl k
  have el : dot_S512x64_S64x64_S512x64_1_0_0_1_n_n.lhsIdx (ix2 p q) ((contrEquiv1 dot_S512x64_S64x64_S512x64_1_0_0_1_n_n 64 rfl rfl).symm k) = ix2 p k := funext fun a => Fin.ext (by
    match a with
    | ⟨0, _⟩ => exact lhs_sq_0 _ _
    | ⟨1, _⟩ => exact (lhs_sq_1 _ _).trans hk)
  have er : dot_S512x64_S64x64_S512x64_1_0_0_1_n_n.rhsIdx (ix2 p q) ((contrEquiv1 dot_S512x64_S64x64_S512x64_1_0_0_1_n_n 64 rfl rfl).symm k) = ix2 k q := funext fun a => Fin.ext (by
    match a with
    | ⟨0, _⟩ => exact (rhs_sq_0 _ _).trans hk
    | ⟨1, _⟩ => exact rhs_sq_1 _ _)
  rw [el, er]

theorem lhs_col_0 (i : S512x1.Idx) (q : dot_S512x64_S64x1_S512x1_1_0_0_1_n_n.contr.Idx) :
    (dot_S512x64_S64x1_S512x1_1_0_0_1_n_n.lhsIdx i q 0).val = (i 0).val := by
  unfold DotDims.lhsIdx
  rw [dif_neg (show ¬(0 : Fin S512x64.rank) ∈ dot_S512x64_S64x1_S512x1_1_0_0_1_n_n.lhsBatch by decide), dif_pos (show (0 : Fin S512x64.rank) ∈ dot_S512x64_S64x1_S512x1_1_0_0_1_n_n.lhsNonContracting by decide)]
  rfl
theorem lhs_col_1 (i : S512x1.Idx) (q : dot_S512x64_S64x1_S512x1_1_0_0_1_n_n.contr.Idx) :
    (dot_S512x64_S64x1_S512x1_1_0_0_1_n_n.lhsIdx i q 1).val = (q ⟨0, by decide⟩).val :=
  dot_S512x64_S64x1_S512x1_1_0_0_1_n_n.lhsIdx_val_of_single rfl i q
theorem rhs_col_0 (i : S512x1.Idx) (q : dot_S512x64_S64x1_S512x1_1_0_0_1_n_n.contr.Idx) :
    (dot_S512x64_S64x1_S512x1_1_0_0_1_n_n.rhsIdx i q 0).val = (q ⟨0, by decide⟩).val :=
  dot_S512x64_S64x1_S512x1_1_0_0_1_n_n.rhsIdx_val_of_single rfl i q
theorem rhs_col_1 (i : S512x1.Idx) (q : dot_S512x64_S64x1_S512x1_1_0_0_1_n_n.contr.Idx) :
    (dot_S512x64_S64x1_S512x1_1_0_0_1_n_n.rhsIdx i q 1).val = (i 1).val := by
  unfold DotDims.rhsIdx
  rw [dif_neg (show ¬(1 : Fin S64x1.rank) ∈ dot_S512x64_S64x1_S512x1_1_0_0_1_n_n.rhsBatch by decide), dif_pos (show (1 : Fin S64x1.rank) ∈ dot_S512x64_S64x1_S512x1_1_0_0_1_n_n.rhsNonContracting by decide)]
  rfl

/-- A 512 × 64 by 64 × 1 product into a zero accumulator, at (p, 0): the sum over k of L(p, k) · R(k, 0). -/
theorem matmul_col_apply {φ₁ φ₂ : FTy} (l : FVec Ideal S512x64 φ₁) (r : FVec Ideal S64x1 φ₂) (p : Fin 512) (q : Fin 1) :
    matmul dot_S512x64_S64x1_S512x1_1_0_0_1_n_n none l r (constant S512x1 .f32 0x00000000#32) (ix2 p q)
      = ∑ k : Fin 64, l (ix2 p k) * r (ix2 k q) := by
  simp only [matmul]
  rw [Ideal.matmul_constant_zero_apply, ← Equiv.sum_comp (contrEquiv1 dot_S512x64_S64x1_S512x1_1_0_0_1_n_n 64 rfl rfl).symm]
  refine Finset.sum_congr rfl fun k _ => ?_
  have hk := contrEquiv1_symm_val dot_S512x64_S64x1_S512x1_1_0_0_1_n_n 64 rfl rfl k
  have el : dot_S512x64_S64x1_S512x1_1_0_0_1_n_n.lhsIdx (ix2 p q) ((contrEquiv1 dot_S512x64_S64x1_S512x1_1_0_0_1_n_n 64 rfl rfl).symm k) = ix2 p k := funext fun a => Fin.ext (by
    match a with
    | ⟨0, _⟩ => exact lhs_col_0 _ _
    | ⟨1, _⟩ => exact (lhs_col_1 _ _).trans hk)
  have er : dot_S512x64_S64x1_S512x1_1_0_0_1_n_n.rhsIdx (ix2 p q) ((contrEquiv1 dot_S512x64_S64x1_S512x1_1_0_0_1_n_n 64 rfl rfl).symm k) = ix2 k q := funext fun a => Fin.ext (by
    match a with
    | ⟨0, _⟩ => exact (rhs_col_0 _ _).trans hk
    | ⟨1, _⟩ => exact rhs_col_1 _ _)
  rw [el, er]

/-! ## The hidden layer and the output of the head's payload at an index -/

/-- The payload's hidden layer at (p, j), over the loaded values. -/
theorem hidden_apply (v0 : Vec Ideal S512x64 .f32) (v3 : Vec Ideal S1x64 .f32) (v8 v11 : Vec Ideal S64x64 .f32) (v17 : Vec Ideal S1x64 .f32)
    (p : Fin 512) (j : Fin 64) :
    maximumf (F := Ideal) (addf (addf
        (matmul dot_S512x64_S64x64_S512x64_1_0_0_1_n_n none
          (truncf .bf16 (shapeCast S512x64 v0 shapeCasts_S512x64_S512x64) bitsLt_bf16_f32)
          (truncf .bf16 (shapeCast S64x64 v8 shapeCasts_S64x64_S64x64) bitsLt_bf16_f32) (constant S512x64 .f32 0x00000000#32))
        (matmul dot_S512x64_S64x64_S512x64_1_0_0_1_n_n none
          (truncf .bf16 (broadcastTo S512x64 (shapeCast S1x64 (shapeCast S1x64 v3 shapeCasts_S1x64_S1x64) shapeCasts_S1x64_S1x64) broadcasts_S1x64_S512x64) bitsLt_bf16_f32)
          (truncf .bf16 (shapeCast S64x64 v11 shapeCasts_S64x64_S64x64) bitsLt_bf16_f32) (constant S512x64 .f32 0x00000000#32)))
        (broadcastTo S512x64 (shapeCast S1x64 v17 shapeCasts_S1x64_S1x64) broadcasts_S1x64_S512x64))
        (broadcast S512x64 (Scalar.ofBits .f32 0x00000000#32)) (ix2 p j)
      = Cert.Spec.hidden v0 v3 v8 v11 v17 p j := by
  rw [maximumf_apply, addf_apply, addf_apply, matmul_sq_apply, matmul_sq_apply, broadcastTo_1b_ab_apply, broadcast_apply]
  simp only [truncf_apply, shapeCast_self, broadcastTo_1b_ab_apply]
  show max _ (Ideal.ofBits .f32 0x00000000#32) = _
  rw [Ideal.ofBits_zero_f32]
  rfl

/-- The payload at (r, 0). -/
theorem pay_apply (v0 : Vec Ideal S512x64 .f32) (v3 : Vec Ideal S1x64 .f32) (v8 v11 : Vec Ideal S64x64 .f32) (v17 : Vec Ideal S1x64 .f32)
    (v24 : Vec Ideal S64x1 .f32) (v27 : Vec Ideal S1x1 .f32) (r : Fin 512) :
    k6_pay1 (F := Ideal) v0 v3 v8 v11 v17 v24 v27 (ix2 r 0)
      = (∑ j : Fin 64, Cert.Spec.hidden v0 v3 v8 v11 v17 r j * v24 (ix2 j 0)) + v27 (ix2 0 0) := by
  unfold k6_pay1
  rw [addf_apply, matmul_col_apply, broadcastTo_1b_ab_apply, shapeCast_self v27]
  refine congrArg₂ (· + ·) (Finset.sum_congr rfl fun k _ => ?_) rfl
  rw [truncf_apply, truncf_apply, hidden_apply]

/-- The payload IS the head's output, as functions of the 512 × 1 index: the one column is column 0. -/
theorem pay_eq_head (v0 : Vec Ideal S512x64 .f32) (v3 : Vec Ideal S1x64 .f32) (v8 v11 : Vec Ideal S64x64 .f32) (v17 : Vec Ideal S1x64 .f32)
    (v24 : Vec Ideal S64x1 .f32) (v27 : Vec Ideal S1x1 .f32) :
    k6_pay1 (F := Ideal) v0 v3 v8 v11 v17 v24 v27 = Cert.Spec.head v0 v3 v8 v11 v17 v24 v27 := by
  funext i
  obtain ⟨r, q, rfl⟩ : ∃ (r : Fin 512) (q : Fin 1), i = ix2 r q := ⟨i 0, i 1, eq_ix2 i⟩
  obtain rfl : q = 0 := Subsingleton.elim _ _
  exact pay_apply v0 v3 v8 v11 v17 v24 v27 r

/-! ## From the one block to the array -/

section Region

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the one grid point: every window's block index is zero on both axes
    (each block is its whole array). -/
theorem index_zero : ∀ t : Fin cfg6.N,
    (win6_0.index t (0 : Fin 2) = 0 ∧ win6_0.index t (1 : Fin 2) = 0)
    ∧ (win6_1.index t (0 : Fin 2) = 0 ∧ win6_1.index t (1 : Fin 2) = 0)
    ∧ (win6_2.index t (0 : Fin 2) = 0 ∧ win6_2.index t (1 : Fin 2) = 0)
    ∧ (win6_3.index t (0 : Fin 2) = 0 ∧ win6_3.index t (1 : Fin 2) = 0)
    ∧ (win6_4.index t (0 : Fin 2) = 0 ∧ win6_4.index t (1 : Fin 2) = 0)
    ∧ (win6_5.index t (0 : Fin 2) = 0 ∧ win6_5.index t (1 : Fin 2) = 0)
    ∧ (win6_6.index t (0 : Fin 2) = 0 ∧ win6_6.index t (1 : Fin 2) = 0)
    ∧ (win6_7.index t (0 : Fin 2) = 0 ∧ win6_7.index t (1 : Fin 2) = 0) :=
  (by decide +kernel : ∀ t : Fin grid6.N, _)

/-- Window 0's block is its whole array: read through the block, the array is itself. -/
theorem block0 (c : Dev nD) (t : Fin cfg6.N) : iblk6 V c 0 t = V c main_v92 := by
  obtain ⟨⟨e0, e1⟩, -⟩ := index_zero t
  funext j
  show V c main_v92 (((cfg6.win 0).blk t).view.emb j) = V c main_v92 j
  refine congrArg _ (funext fun a => Fin.ext ?_)
  match a with
  | ⟨0, _⟩ => show win6_0.index t (0 : Fin 2) * 512 + 1 * (j 0).val = (j 0).val; omega
  | ⟨1, _⟩ => show win6_0.index t (1 : Fin 2) * 64 + 1 * (j 1).val = (j 1).val; omega

/-- Window 1's block is its whole array. -/
theorem block1 (c : Dev nD) (t : Fin cfg6.N) : iblk6 V c 1 t = V c main_v88 := by
  obtain ⟨-, ⟨e0, e1⟩, -, -, -, -, -, -⟩ := index_zero t
  funext j
  show V c main_v88 (((cfg6.win 1).blk t).view.emb j) = V c main_v88 j
  refine congrArg _ (funext fun a => Fin.ext ?_)
  match a with
  | ⟨0, _⟩ => show win6_1.index t (0 : Fin 2) * 1 + 1 * (j 0).val = (j 0).val; omega
  | ⟨1, _⟩ => show win6_1.index t (1 : Fin 2) * 64 + 1 * (j 1).val = (j 1).val; omega

/-- Window 2's block is its whole array. -/
theorem block2 (c : Dev nD) (t : Fin cfg6.N) : iblk6 V c 2 t = V c main_v93 := by
  obtain ⟨-, -, ⟨e0, e1⟩, -, -, -, -, -⟩ := index_zero t
  funext j
  show V c main_v93 (((cfg6.win 2).blk t).view.emb j) = V c main_v93 j
  refine congrArg _ (funext fun a => Fin.ext ?_)
  match a with
  | ⟨0, _⟩ => show win6_2.index t (0 : Fin 2) * 64 + 1 * (j 0).val = (j 0).val; omega
  | ⟨1, _⟩ => show win6_2.index t (1 : Fin 2) * 64 + 1 * (j 1).val = (j 1).val; omega

/-- Window 3's block is its whole array. -/
theorem block3 (c : Dev nD) (t : Fin cfg6.N) : iblk6 V c 3 t = V c main_v94 := by
  obtain ⟨-, -, -, ⟨e0, e1⟩, -, -, -, -⟩ := index_zero t
  funext j
  show V c main_v94 (((cfg6.win 3).blk t).view.emb j) = V c main_v94 j
  refine congrArg _ (funext fun a => Fin.ext ?_)
  match a with
  | ⟨0, _⟩ => show win6_3.index t (0 : Fin 2) * 64 + 1 * (j 0).val = (j 0).val; omega
  | ⟨1, _⟩ => show win6_3.index t (1 : Fin 2) * 64 + 1 * (j 1).val = (j 1).val; omega

/-- Window 4's block is its whole array. -/
theorem block4 (c : Dev nD) (t : Fin cfg6.N) : iblk6 V c 4 t = V c main_v95 := by
  obtain ⟨-, -, -, -, ⟨e0, e1⟩, -, -, -⟩ := index_zero t
  funext j
  show V c main_v95 (((cfg6.win 4).blk t).view.emb j) = V c main_v95 j
  refine congrArg _ (funext fun a => Fin.ext ?_)
  match a with
  | ⟨0, _⟩ => show win6_4.index t (0 : Fin 2) * 1 + 1 * (j 0).val = (j 0).val; omega
  | ⟨1, _⟩ => show win6_4.index t (1 : Fin 2) * 64 + 1 * (j 1).val = (j 1).val; omega

/-- Window 5's block is its whole array. -/
theorem block5 (c : Dev nD) (t : Fin cfg6.N) : iblk6 V c 5 t = V c main_arg12 := by
  obtain ⟨-, -, -, -, -, ⟨e0, e1⟩, -, -⟩ := index_zero t
  funext j
  show V c main_arg12 (((cfg6.win 5).blk t).view.emb j) = V c main_arg12 j
  refine congrArg _ (funext fun a => Fin.ext ?_)
  match a with
  | ⟨0, _⟩ => show win6_5.index t (0 : Fin 2) * 64 + 1 * (j 0).val = (j 0).val; omega
  | ⟨1, _⟩ => show win6_5.index t (1 : Fin 2) * 1 + 1 * (j 1).val = (j 1).val; omega

/-- Window 6's block is its whole array. -/
theorem block6 (c : Dev nD) (t : Fin cfg6.N) : iblk6 V c 6 t = V c main_v96 := by
  obtain ⟨-, -, -, -, -, -, ⟨e0, e1⟩, -⟩ := index_zero t
  funext j
  show V c main_v96 (((cfg6.win 6).blk t).view.emb j) = V c main_v96 j
  refine congrArg _ (funext fun a => Fin.ext ?_)
  match a with
  | ⟨0, _⟩ => show win6_6.index t (0 : Fin 2) * 1 + 1 * (j 0).val = (j 0).val; omega
  | ⟨1, _⟩ => show win6_6.index t (1 : Fin 2) * 1 + 1 * (j 1).val = (j 1).val; omega

/-- The output window's block is its whole array too: an index of the block is the same index of the array. -/
theorem out_emb (t : Fin cfg6.N) (j : S512x1.Idx) : ((cfg6.win 7).blk t).view.emb j = j := by
  obtain ⟨-, -, -, -, -, -, -, ⟨e0, e1⟩⟩ := index_zero t
  funext a; apply Fin.ext
  match a with
  | ⟨0, _⟩ => show win6_7.index t (0 : Fin 2) * 512 + 1 * (j 0).val = (j 0).val; omega
  | ⟨1, _⟩ => show win6_7.index t (1 : Fin 2) * 1 + 1 * (j 1).val = (j 1).val; omega

/-- WHAT THE ONE POINT WRITES BACK is the head of the seven arrays as the region finds them, read through the
    output's block. -/
theorem flushed_eq (c : Dev nD) (t : Fin cfg6.N) :
    (dat6 (F := Ideal) V c).flushed 7 t = ((cfg6.win 7).blk t).view.read (Elt Ideal)
      (Cert.Spec.head (V c main_v92) (V c main_v88) (V c main_v93) (V c main_v94) (V c main_v95) (V c main_arg12) (V c main_v96)) := by
  show (cfg6.win 7).cut (grid6.coords t) ((dat6 V c).after 7 t) = _
  rw [after6_7]
  unfold out6_7
  rw [View.canon_unit_zero zero_offsets]
  simp only [View.ld_unit_zero (S := S512x64) zero_offsets, View.ld_unit_zero (S := S1x64) zero_offsets,
    View.ld_unit_zero (S := S64x64) zero_offsets, View.ld_unit_zero (S := S64x1) zero_offsets,
    View.ld_unit_zero (S := S1x1) zero_offsets]
  rw [block0 V c t, block1 V c t, block2 V c t, block3 V c t, block4 V c t, block5 V c t, block6 V c t]
  funext j
  show k6_pay1 (F := Ideal) (V c main_v92) (V c main_v88) (V c main_v93) (V c main_v94) (V c main_v95) (V c main_arg12) (V c main_v96) j
    = Cert.Spec.head (V c main_v92) (V c main_v88) (V c main_v93) (V c main_v94) (V c main_v95) (V c main_arg12) (V c main_v96)
        (((cfg6.win 7).blk t).view.emb j)
  rw [out_emb t j]
  exact congrFun (pay_eq_head (V c main_v92) (V c main_v88) (V c main_v93) (V c main_v94) (V c main_v95) (V c main_arg12) (V c main_v96)) j

/-- An index of the output array is in point `t`'s block iff each coordinate is in the block's range on its axis. -/
theorem mem_out_block (t : Fin cfg6.N) (i : S512x1.Idx) :
    i ∈ ((cfg6.win 7).blk t).view.set ↔ ∀ a : Fin 2, win6_7.index t a * S512x1.size a ≤ (i a).val ∧ (i a).val < win6_7.index t a * S512x1.size a + S512x1.size a := by
  show i ∈ ((View.whole main_v97).slice (win6_7.rect t)).set ↔ _
  rw [View.set_slice_whole, Rect.mem_set_unit]
  exact Iff.rfl

/-- Every index of the output array is in the one block. -/
theorem cover (i : S512x1.Idx) : ∃ t : Fin cfg6.N, (cfg6.win 7).flush t = true ∧ i ∈ ((cfg6.win 7).blk t).view.set := by
  refine ⟨t6_0, flush6_7 t6_0, ?_⟩
  obtain ⟨-, -, -, -, -, -, -, ⟨e0, e1⟩⟩ := index_zero t6_0
  rw [mem_out_block]
  intro a
  match a with
  | ⟨0, _⟩ =>
    show win6_7.index t6_0 (0 : Fin 2) * 512 ≤ (i 0).val ∧ (i 0).val < win6_7.index t6_0 (0 : Fin 2) * 512 + 512
    have h0 : (i 0).val < 512 := (i 0).isLt
    omega
  | ⟨1, _⟩ =>
    show win6_7.index t6_0 (1 : Fin 2) * 1 ≤ (i 1).val ∧ (i 1).val < win6_7.index t6_0 (1 : Fin 2) * 1 + 1
    have h1 : (i 1).val < 1 := (i 1).isLt
    omega

end Region

end Head

variable (V : (c : Dev nD) → (b : Ref sig .tc) → Buf (Elt Ideal) ((c : Thread nD τ).loc b))

/-- THE OUTPUT ARRAY after region 6: the head of the seven input arrays as the region finds them. -/
theorem region6_value (c : Dev nD) :
    (dat6 (F := Ideal) V c).arrAt 7 cfg6.N = Cert.Spec.head (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) :=
  (dat6 (F := Ideal) V c).arrAt_eq_of_cover 7 _ (fun t _ => Head.flushed_eq V c t) Head.cover

end Cert.KernelIdeal.RegVal

end
-- ==== Proof.KHead.lean ====
/-
  The head, as the kernel's program runs it, is the reference's head.

  The last region multiplies the pooled rows with the upper half of the head's weight matrix and the one global row
  with the lower half, adds the two and the bias row, clamps at zero, and multiplies with the one-column weight plus
  the scalar bias. The reference joins each pooled row with the global row into one row of 128 entries and
  multiplies it with the whole weight matrix: the same sum, split after its first 64 terms (hypothesis hhead). The
  result is then flattened to a vector by the same reshape in both programs.
-/
import proofs.«411938_j42167988912133_2_alg».proof.Proof.Gen.KernelIdeal.Frame
import proofs.«411938_j42167988912133_2_alg».proof.Proof.RefStages
import proofs.«411938_j42167988912133_2_alg».proof.Proof.KKeep
import proofs.«411938_j42167988912133_2_alg».proof.Proof.RegHead
import proofs.«411938_j42167988912133_2_alg».proof.Proof.Spec
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The head's output column, after the last region: from what the region's seven input arrays hold at its entry. -/
theorem v97_at16
    (h92 : W15 m ρ c (Proc.devRef .tc main_v92) = Cert.ReferenceIdeal.Read.val_main_v106 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (h88 : W15 m ρ c (Proc.devRef .tc main_v88) = Cert.ReferenceIdeal.Read.val_main_v96 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (h93 : W15 m ρ c (Proc.devRef .tc main_v93) = extractStridedSlice S64x64 ![0, 0] (m ((c : Thread nD τ).loc main_arg10)) slices_S128x64_S64x64_0_0)
    (h94 : W15 m ρ c (Proc.devRef .tc main_v94) = extractStridedSlice S64x64 ![64, 0] (m ((c : Thread nD τ).loc main_arg10)) slices_S128x64_S64x64_64_0)
    (h95 : W15 m ρ c (Proc.devRef .tc main_v95) = shapeCast S1x64 (m ((c : Thread nD τ).loc main_arg11)) shapeCasts_S64_S1x64)
    (h96 : W15 m ρ c (Proc.devRef .tc main_v96) = shapeCast S1x1 (m ((c : Thread nD τ).loc main_arg13)) shapeCasts_S1_S1x1)
    (hhead : Cert.ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
        = Cert.Spec.head (Cert.ReferenceIdeal.Read.val_main_v106 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (Cert.ReferenceIdeal.Read.val_main_v96 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (extractStridedSlice S64x64 ![0, 0] (m ((c : Thread nD τ).loc main_arg10)) slices_S128x64_S64x64_0_0) (extractStridedSlice S64x64 ![64, 0] (m ((c : Thread nD τ).loc main_arg10)) slices_S128x64_S64x64_64_0) (shapeCast S1x64 (m ((c : Thread nD τ).loc main_arg11)) shapeCasts_S64_S1x64) (m ((c : Thread nD τ).loc main_arg12)) (shapeCast S1x1 (m ((c : Thread nD τ).loc main_arg13)) shapeCasts_S1_S1x1)) :
    W16 m ρ c (Proc.devRef .tc main_v97) = Cert.ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have h := Cert.KernelIdeal.RegVal.region6_value (V15 m ρ) c
  rw [show V15 m ρ c (Pipeline.arrRef spec6 0) = _ from h92,
      show V15 m ρ c (Pipeline.arrRef spec6 1) = _ from h88,
      show V15 m ρ c (Pipeline.arrRef spec6 2) = _ from h93,
      show V15 m ρ c (Pipeline.arrRef spec6 3) = _ from h94,
      show V15 m ρ c (Pipeline.arrRef spec6 4) = _ from h95,
      show V15 m ρ c (Pipeline.arrRef spec6 5) = _ from Keep.arg12_at15 m ρ c,
      show V15 m ρ c (Pipeline.arrRef spec6 6) = _ from h96] at h
  exact (W16_arr m ρ c 7).trans (h.trans hhead.symm)

/-- The program's result: the output column flattened to a vector. -/
theorem v98_at17 (h97 : W16 m ρ c (Proc.devRef .tc main_v97) = Cert.ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :
    W17 m ρ c (Proc.devRef .tc main_v98) = Cert.ReferenceIdeal.Read.val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps7 (W16 m ρ c) (Proc.devRef .tc main_v98) = _
  after_results
  rw [h97]
  rfl

end Cert.KernelIdeal.Chain

end
-- ==== Proof.RefSpec.lean ====
/-
  The reference's matrix products and its bias-and-clamp stages are the specification's functions.

  A product of the reference is one contraction: entry (r, c) is the sum over k of the left operand at (r, k) times the
  right operand at (k, c). That is the specification's product term for term once the two index functions of the
  contraction are named by their coordinates. A bias-and-clamp stage broadcasts the bias vector to a one-row array,
  that row down all the rows, adds it to the scattered sums and takes the maximum with a broadcast zero: entry (r, c)
  is max (A(r, c) + b(c)) 0, the specification's stage for any one-row array whose row is b.
-/
import proofs.«411938_j42167988912133_2_alg».proof.Proof.RefStages
import proofs.«411938_j42167988912133_2_alg».proof.Proof.Spec

noncomputable section

open scoped BigOperators

namespace Cert.RefSpec

open Cert.ReferenceIdeal Cert.ReferenceIdeal.Read Idealize.ShloMosaic Idealize.ShloMosaic.ValueIdx

/-! ## The matrix products -/

/-- The left and right index of the first layer's product, by coordinates: (row, k) and (k, column). -/
theorem lidx_v32 (i : S100000x64.Idx) (k : Fin 128) : lidx_main_v32 i k = ix2 (i 0) k :=
  funext fun a => Fin.ext (by match a with | ⟨0, _⟩ => rfl | ⟨1, _⟩ => rfl)
theorem ridx_v32 (i : S100000x64.Idx) (k : Fin 128) : ridx_main_v32 i k = ix2 k (i 1) :=
  funext fun a => Fin.ext (by match a with | ⟨0, _⟩ => rfl | ⟨1, _⟩ => rfl)

/-- The first layer's product is the specification's 128-term product of the node features with the first weight. -/
theorem mm1 (x0 : (⟨S100000x128, .f32⟩ : BufTy).Contents (Elt Ideal)) (x4 : (⟨S128x64, .f32⟩ : BufTy).Contents (Elt Ideal)) :
    val_main_v32 (F := Ideal) x0 x4 = Cert.Spec.mm128 x0 x4 := by
  funext i
  rw [val_main_v32_apply]
  unfold Cert.Spec.mm128
  refine Finset.sum_congr rfl fun k _ => ?_
  rw [lidx_v32 i k, ridx_v32 i k]
  rfl

/-- The left and right index of the second layer's product, by coordinates. -/
theorem lidx_v50 (i : S100000x64.Idx) (k : Fin 64) : lidx_main_v50 i k = ix2 (i 0) k :=
  funext fun a => Fin.ext (by match a with | ⟨0, _⟩ => rfl | ⟨1, _⟩ => rfl)
theorem ridx_v50 (i : S100000x64.Idx) (k : Fin 64) : ridx_main_v50 i k = ix2 k (i 1) :=
  funext fun a => Fin.ext (by match a with | ⟨0, _⟩ => rfl | ⟨1, _⟩ => rfl)

/-- The second layer's product is the specification's 64-column product of the previous layer's output with its weight. -/
theorem mm2 (x0 : (⟨S100000x128, .f32⟩ : BufTy).Contents (Elt Ideal)) (x1 : (⟨S2x3200000, .i32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) :
    val_main_v50 (F := Ideal) x0 x1 x4 x5 x6 = Cert.Spec.mm64 (val_main_v49 (F := Ideal) x0 x1 x4 x5) x6 := by
  funext i
  rw [val_main_v50_apply]
  unfold Cert.Spec.mm64
  refine Finset.sum_congr rfl fun k _ => ?_
  rw [lidx_v50 i k, ridx_v50 i k]
  rfl

/-- The left and right index of the third layer's product, by coordinates. -/
theorem lidx_v68 (i : S100000x64.Idx) (k : Fin 64) : lidx_main_v68 i k = ix2 (i 0) k :=
  funext fun a => Fin.ext (by match a with | ⟨0, _⟩ => rfl | ⟨1, _⟩ => rfl)
theorem ridx_v68 (i : S100000x64.Idx) (k : Fin 64) : ridx_main_v68 i k = ix2 k (i 1) :=
  funext fun a => Fin.ext (by match a with | ⟨0, _⟩ => rfl | ⟨1, _⟩ => rfl)

/-- The third layer's product is the specification's 64-column product of the previous layer's output with its weight. -/
theorem mm3 (x0 : (⟨S100000x128, .f32⟩ : BufTy).Contents (Elt Ideal)) (x1 : (⟨S2x3200000, .i32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) :
    val_main_v68 (F := Ideal) x0 x1 x4 x5 x6 x7 x8 = Cert.Spec.mm64 (val_main_v67 (F := Ideal) x0 x1 x4 x5 x6 x7) x8 := by
  funext i
  rw [val_main_v68_apply]
  unfold Cert.Spec.mm64
  refine Finset.sum_congr rfl fun k _ => ?_
  rw [lidx_v68 i k, ridx_v68 i k]
  rfl

/-! ## The bias-and-clamp stages -/

/-- The specification's stage at an entry, with the one-row bias array read through the vector that fills its row. -/
theorem biasRelu_apply (A : (⟨2, ![100000, 64]⟩ : Shape).Idx → EReal) (B : (⟨2, ![1, 64]⟩ : Shape).Idx → EReal)
    (b : (⟨1, ![64]⟩ : Shape).Idx → EReal) (hB : ∀ j : Fin 64, B (ix2 0 j) = b (ix1 j))
    (i : (⟨2, ![100000, 64]⟩ : Shape).Idx) :
    Cert.Spec.biasRelu A B i = max (A i + b (ix1 (i 1))) 0 := by
  show max (A i + B (ix2 0 (i 1))) 0 = _
  rw [hB (i 1)]

/-- Where the first layer's two broadcasts read the bias vector: at the output's column. -/
theorem bias_idx_v49 (i : S100000x64.Idx) : idx_main_v46 (idx_main_v47 i) = ix1 (i 1) :=
  funext fun a => Fin.ext (by match a with | ⟨0, _⟩ => rfl)

/-- The first layer's bias-and-clamp stage is the specification's, for any one-row bias array whose row is the bias vector. -/
theorem br1 (x0 : (⟨S100000x128, .f32⟩ : BufTy).Contents (Elt Ideal)) (x1 : (⟨S2x3200000, .i32⟩ : BufTy).Contents (Elt Ideal)) (x4 : (⟨S128x64, .f32⟩ : BufTy).Contents (Elt Ideal)) (x5 : (⟨S64, .f32⟩ : BufTy).Contents (Elt Ideal))
    (B : (⟨2, ![1, 64]⟩ : Shape).Idx → EReal) (hB : ∀ j : Fin 64, B (ix2 0 j) = x5 (ix1 j)) :
    val_main_v49 (F := Ideal) x0 x1 x4 x5
      = Cert.Spec.biasRelu (val_main_v45 (F := Ideal) x0 x1 x4) B := by
  funext i
  rw [val_main_v49_apply, val_main_v48_apply, val_main_v47_apply, val_main_v46_apply,
    val_main_call1_v0_apply, val_main_call1_cst_apply, biasRelu_apply _ B x5 hB i, bias_idx_v49 i]
  simp only [Ideal.maximumf_def, Ideal.addf_def, Ideal.ofBits_def, Ideal.ofBits_zero_f32]
  rfl

/-- Where the second layer's two broadcasts read the bias vector: at the output's column. -/
theorem bias_idx_v67 (i : S100000x64.Idx) : idx_main_v64 (idx_main_v65 i) = ix1 (i 1) :=
  funext fun a => Fin.ext (by match a with | ⟨0, _⟩ => rfl)

/-- The second layer's bias-and-clamp stage is the specification's, for any one-row bias array whose row is the bias vector. -/
theorem br2 (x0 : (⟨S100000x128, .f32⟩ : BufTy).Contents (Elt Ideal)) (x1 : (⟨S2x3200000, .i32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal))
    (B : (⟨2, ![1, 64]⟩ : Shape).Idx → EReal) (hB : ∀ j : Fin 64, B (ix2 0 j) = x7 (ix1 j)) :
    val_main_v67 (F := Ideal) x0 x1 x4 x5 x6 x7
      = Cert.Spec.biasRelu (val_main_v63 (F := Ideal) x0 x1 x4 x5 x6) B := by
  funext i
  rw [val_main_v67_apply, val_main_v66_apply, val_main_v65_apply, val_main_v64_apply,
    val_main_call2_v0_apply, val_main_call2_cst_apply, biasRelu_apply _ B x7 hB i, bias_idx_v67 i]
  simp only [Ideal.maximumf_def, Ideal.addf_def, Ideal.ofBits_def, Ideal.ofBits_zero_f32]
  rfl

/-- Where the third layer's two broadcasts read the bias vector: at the output's column. -/
theorem bias_idx_v85 (i : S100000x64.Idx) : idx_main_v82 (idx_main_v83 i) = ix1 (i 1) :=
  funext fun a => Fin.ext (by match a with | ⟨0, _⟩ => rfl)

/-- The third layer's bias-and-clamp stage is the specification's, for any one-row bias array whose row is the bias vector. -/
theorem br3 (x0 : (⟨S100000x128, .f32⟩ : BufTy).Contents (Elt Ideal)) (x1 : (⟨S2x3200000, .i32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal))
    (B : (⟨2, ![1, 64]⟩ : Shape).Idx → EReal) (hB : ∀ j : Fin 64, B (ix2 0 j) = x9 (ix1 j)) :
    val_main_v85 (F := Ideal) x0 x1 x4 x5 x6 x7 x8 x9
      = Cert.Spec.biasRelu (val_main_v81 (F := Ideal) x0 x1 x4 x5 x6 x7 x8) B := by
  funext i
  rw [val_main_v85_apply, val_main_v84_apply, val_main_v83_apply, val_main_v82_apply,
    val_main_call3_v0_apply, val_main_call3_cst_apply, biasRelu_apply _ B x9 hB i, bias_idx_v85 i]
  simp only [Ideal.maximumf_def, Ideal.addf_def, Ideal.ofBits_def, Ideal.ofBits_zero_f32]
  rfl

end Cert.RefSpec

end
-- ==== Proof.RefHead.lean ====
/-
  The reference's head is the specification's head.

  The reference joins each pooled row with the one global row into a row of 128 entries and contracts that row against
  the 128 × 64 weight. The first 64 terms of the contraction read the pooled row and the first 64 rows of the weight;
  the last 64 terms read the global row and the last 64 rows of the weight. So the sum over 128 positions is the sum of
  the two 64-term sums the specification writes, by splitting a sum over 64 + 64 positions at its middle (addition on
  the extended reals is commutative and associative, so nothing need be finite). The bias, the clamp at zero, the
  product with the one-column weight and the scalar bias are then the same, term by term.
-/
import proofs.«411938_j42167988912133_2_alg».proof.Proof.RefStages
import proofs.«411938_j42167988912133_2_alg».proof.Proof.Spec
import Mathlib.Algebra.BigOperators.Fin

noncomputable section

open scoped BigOperators

namespace Cert.RefSpec

open Cert.ReferenceIdeal Cert.ReferenceIdeal.Read Idealize.ShloMosaic Idealize.ShloMosaic.ValueIdx

/-! ## A sum over 128 positions, split at its middle -/

/-- A sum over 128 positions is the sum over the first 64 plus the sum over the last 64. -/
theorem sum_halves (f : Fin 128 → EReal) :
    ∑ k : Fin 128, f k = (∑ k : Fin 64, f ⟨k.val, by omega⟩) + ∑ k : Fin 64, f ⟨k.val + 64, by omega⟩ := by
  refine (Fin.sum_univ_add (a := 64) (b := 64) f).trans ?_
  exact congrArg₂ (· + ·) (Finset.sum_congr rfl fun k _ => congrArg f (Fin.ext rfl))
    (Finset.sum_congr rfl fun k _ => congrArg f (Fin.ext (Nat.add_comm 64 k.val)))

/-! ## Two 512 × 64 arrays joined along the columns, read at an entry -/

/-- In its first 64 columns the joined array is the first piece. -/
theorem joined_left (P Q : S512x64.Idx → EReal) (h : Shape.Concatenates [S512x64, S512x64] S512x128 1)
    (r : Fin 512) (k : Fin 64) :
    concatenate S512x128 1 [⟨S512x64, P⟩, ⟨S512x64, Q⟩] h (ix2 r ⟨k.val, by omega⟩) = P (ix2 r k) :=
  concatenate_pair_apply_left (t := S512x128) (s₁ := S512x64) (s₂ := S512x64) (1 : Fin 2) P Q h _ rfl (ix2 r k) (by
    intro b
    match b with
    | ⟨0, _⟩ => rfl
    | ⟨1, _⟩ => rfl)

/-- In its last 64 columns the joined array is the second piece, 64 columns to the left. -/
theorem joined_right (P Q : S512x64.Idx → EReal) (h : Shape.Concatenates [S512x64, S512x64] S512x128 1)
    (r : Fin 512) (k : Fin 64) :
    concatenate S512x128 1 [⟨S512x64, P⟩, ⟨S512x64, Q⟩] h (ix2 r ⟨k.val + 64, by omega⟩) = Q (ix2 r k) :=
  concatenate_pair_apply_right (t := S512x128) (s₁ := S512x64) (s₂ := S512x64) (1 : Fin 2) P Q h _ rfl rfl (ix2 r k) (by
    intro b hb
    match b with
    | ⟨0, _⟩ => rfl
    | ⟨1, _⟩ => exact absurd rfl hb) (by
    show k.val + 64 = k.val + 64; rfl)

/-- A joined row contracted against a 128-row weight: the first piece's row against the weight's first 64 rows, plus
    the second piece's row against its last 64 rows. -/
theorem joined_contract (P Q : S512x64.Idx → EReal) (h : Shape.Concatenates [S512x64, S512x64] S512x128 1)
    (W : S128x64.Idx → EReal) (r : Fin 512) (j : Fin 64) :
    ∑ k : Fin 128, concatenate S512x128 1 [⟨S512x64, P⟩, ⟨S512x64, Q⟩] h (ix2 r k) * W (ix2 k j)
      = (∑ k : Fin 64, P (ix2 r k) * W (ix2 ⟨k.val, by omega⟩ j))
        + ∑ k : Fin 64, Q (ix2 r k) * W (ix2 ⟨k.val + 64, by omega⟩ j) := by
  refine (sum_halves fun k => concatenate S512x128 1 [⟨S512x64, P⟩, ⟨S512x64, Q⟩] h (ix2 r k) * W (ix2 k j)).trans ?_
  refine congrArg₂ (· + ·) (Finset.sum_congr rfl fun k _ => ?_) (Finset.sum_congr rfl fun k _ => ?_)
  · exact congrArg (· * W (ix2 ⟨k.val, by omega⟩ j)) (joined_left P Q h r k)
  · exact congrArg (· * W (ix2 ⟨k.val + 64, by omega⟩ j)) (joined_right P Q h r k)

/-! ## The hidden layer -/

/-- The global row broadcast down the 512 rows, read at (r, k): the global row at k. -/
theorem global_row (x0 : (⟨S100000x128, .f32⟩ : BufTy).Contents (Elt Ideal)) (x1 : (⟨S2x3200000, .i32⟩ : BufTy).Contents (Elt Ideal)) (x2 : (⟨S100000, .i32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (r : Fin 512) (k : Fin 64) :
    val_main_v107 (F := Ideal) x0 x1 x2 x4 x5 x6 x7 x8 x9 (ix2 r k) = val_main_v96 (F := Ideal) x0 x1 x2 x4 x5 x6 x7 x8 x9 (ix2 0 k) := by
  rw [val_main_v107_apply]
  exact congrArg _ (funext fun a => Fin.ext (by match a with | ⟨0, _⟩ => rfl | ⟨1, _⟩ => rfl))

/-- The reference's hidden layer at (r, j) is the specification's, for the two halves of the joined weight and any
    one-row bias array whose row is the bias vector. -/
theorem hidden_apply (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S512x256, .i32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S128x64, .f32⟩ : BufTy).Contents (Elt Ideal)) (x11 : (⟨S64, .f32⟩ : BufTy).Contents (Elt Ideal))
    (Wa Wb : (⟨2, ![64, 64]⟩ : Shape).Idx → EReal) (B1 : (⟨2, ![1, 64]⟩ : Shape).Idx → EReal)
    (hWa : ∀ (k j : Fin 64), Wa (ix2 k j) = x10 (ix2 ⟨k.val, by omega⟩ j))
    (hWb : ∀ (k j : Fin 64), Wb (ix2 k j) = x10 (ix2 ⟨k.val + 64, by omega⟩ j))
    (hB1 : ∀ j : Fin 64, B1 (ix2 0 j) = x11 (ix1 j)) (r : Fin 512) (j : Fin 64) :
    val_main_v113 (F := Ideal) x0 x1 x2 x3 x4 x5 x6 x7 x8 x9 x10 x11 (ix2 r j)
      = Cert.Spec.hidden (val_main_v106 (F := Ideal) x0 x1 x3 x4 x5 x6 x7 x8 x9) (val_main_v96 (F := Ideal) x0 x1 x2 x4 x5 x6 x7 x8 x9) Wa Wb B1 r j := by
  have hl : ∀ k : Fin 128, lidx_main_v109 (ix2 r j) k = ix2 r k := fun k =>
    funext fun a => Fin.ext (by match a with | ⟨0, _⟩ => rfl | ⟨1, _⟩ => rfl)
  have hr : ∀ k : Fin 128, ridx_main_v109 (ix2 r j) k = ix2 k j := fun k =>
    funext fun a => Fin.ext (by match a with | ⟨0, _⟩ => rfl | ⟨1, _⟩ => rfl)
  have hb : idx_main_v110 (idx_main_v111 (ix2 r j)) = ix1 j :=
    funext fun a => Fin.ext (by match a with | ⟨0, _⟩ => rfl)
  have hsum : ∑ k : Fin 128, val_main_v108 (F := Ideal) x0 x1 x2 x3 x4 x5 x6 x7 x8 x9 (lidx_main_v109 (ix2 r j) k) * x10 (ridx_main_v109 (ix2 r j) k)
      = (∑ k : Fin 64, (val_main_v106 (F := Ideal) x0 x1 x3 x4 x5 x6 x7 x8 x9) (ix2 r k) * Wa (ix2 k j))
        + ∑ k : Fin 64, (val_main_v96 (F := Ideal) x0 x1 x2 x4 x5 x6 x7 x8 x9) (ix2 0 k) * Wb (ix2 k j) := by
    simp only [hl, hr, hWa, hWb, ← global_row x0 x1 x2 x4 x5 x6 x7 x8 x9 r]
    exact joined_contract (val_main_v106 (F := Ideal) x0 x1 x3 x4 x5 x6 x7 x8 x9) (val_main_v107 (F := Ideal) x0 x1 x2 x4 x5 x6 x7 x8 x9) _ x10 r j
  rw [val_main_v113_apply, val_main_v112_apply, val_main_v109_apply, val_main_v111_apply, val_main_v110_apply,
    val_main_call4_v0_apply, val_main_call4_cst_apply, hsum, hb]
  unfold Cert.Spec.hidden
  rw [hB1 j]
  simp only [Ideal.maximumf_def, Ideal.addf_def, Ideal.ofBits_def, Ideal.ofBits_zero_f32]

/-! ## The head -/

/-- The reference's head is the specification's head of the pooled rows and the global row, for the two halves of the
    joined weight, a one-row bias array whose row is the hidden bias, and a one-entry array holding the scalar bias. -/
theorem head (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S512x256, .i32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S128x64, .f32⟩ : BufTy).Contents (Elt Ideal)) (x11 : (⟨S64, .f32⟩ : BufTy).Contents (Elt Ideal)) (x12 : (⟨S64x1, .f32⟩ : BufTy).Contents (Elt Ideal)) (x13 : (⟨S1, .f32⟩ : BufTy).Contents (Elt Ideal))
    (Wa Wb : (⟨2, ![64, 64]⟩ : Shape).Idx → EReal) (B1 : (⟨2, ![1, 64]⟩ : Shape).Idx → EReal) (B2 : (⟨2, ![1, 1]⟩ : Shape).Idx → EReal)
    (hWa : ∀ (k j : Fin 64), Wa (ix2 k j) = x10 (ix2 ⟨k.val, by omega⟩ j))
    (hWb : ∀ (k j : Fin 64), Wb (ix2 k j) = x10 (ix2 ⟨k.val + 64, by omega⟩ j))
    (hB1 : ∀ j : Fin 64, B1 (ix2 0 j) = x11 (ix1 j)) (hB2 : B2 (ix2 0 0) = x13 (ix1 0)) :
    val_main_v117 (F := Ideal) x0 x1 x2 x3 x4 x5 x6 x7 x8 x9 x10 x11 x12 x13
      = Cert.Spec.head (val_main_v106 (F := Ideal) x0 x1 x3 x4 x5 x6 x7 x8 x9) (val_main_v96 (F := Ideal) x0 x1 x2 x4 x5 x6 x7 x8 x9) Wa Wb B1 x12 B2 := by
  funext i
  obtain ⟨r, q, rfl⟩ : ∃ (r : Fin 512) (q : Fin 1), i = ix2 r q := ⟨i 0, i 1, eq_ix2 i⟩
  have hl : ∀ k : Fin 64, lidx_main_v114 (ix2 r q) k = ix2 r k := fun k =>
    funext fun a => Fin.ext (by match a with | ⟨0, _⟩ => rfl | ⟨1, _⟩ => rfl)
  have hr : ∀ k : Fin 64, ridx_main_v114 (ix2 r q) k = ix2 k q := fun k =>
    funext fun a => Fin.ext (by match a with | ⟨0, _⟩ => rfl | ⟨1, _⟩ => rfl)
  have hb : idx_main_v115 (idx_main_v116 (ix2 r q)) = ix1 0 :=
    funext fun a => Fin.ext (by match a with | ⟨0, _⟩ => rfl)
  rw [val_main_v117_apply, val_main_v114_apply, val_main_v116_apply, val_main_v115_apply, hb, Ideal.addf_def]
  show _ = (∑ j : Fin 64, Cert.Spec.hidden (val_main_v106 (F := Ideal) x0 x1 x3 x4 x5 x6 x7 x8 x9) (val_main_v96 (F := Ideal) x0 x1 x2 x4 x5 x6 x7 x8 x9) Wa Wb B1 r j * x12 (ix2 j q)) + B2 (ix2 0 0)
  rw [hB2]
  refine congrArg₂ (· + ·) (Finset.sum_congr rfl fun k _ => ?_) rfl
  rw [hl, hr, hidden_apply x0 x1 x2 x3 x4 x5 x6 x7 x8 x9 x10 x11 Wa Wb B1 hWa hWb hB1 r k]

end Cert.RefSpec

end
-- ==== Proof.Layout.lean ====
/-
  Four small layout facts, each read at one element: a vector of 64 entries laid out as one row is that vector; a
  vector of one entry laid out as a 1 × 1 array is that entry; and the upper and the lower 64 rows of a 128 × 64 array,
  cut out as 64 × 64 arrays, are its rows k and k + 64.
-/
import Idealize.ShloMosaic.PureOps.Ideal
import Idealize.ShloMosaic.Lib.ValueIdx
import Idealize.ShloMosaic.Lib.Pipeline.Value

noncomputable section

namespace Cert.Layout

open Idealize.ShloMosaic Idealize.ShloMosaic.ValueIdx Idealize.ShloMosaic.Pipeline

variable {α : Type}

/-- A vector of 64 entries reshaped to one row: entry (0, j) of the row is entry j of the vector. -/
theorem row_of_vec64 (b : (⟨1, ![64]⟩ : Shape).Idx → α) (h : (⟨1, ![64]⟩ : Shape).ShapeCasts ⟨2, ![1, 64]⟩) (j : Fin 64) :
    shapeCast (⟨2, ![1, 64]⟩ : Shape) b h (ix2 0 j) = b (ix1 j) :=
  (shapeCast_addUnit_apply ![64] b h (ix2 0 j)).trans (congrArg b (funext fun a => match a with | ⟨0, _⟩ => rfl))

/-- A vector of one entry reshaped to a 1 × 1 array: its one entry. -/
theorem cell_of_vec1 (b : (⟨1, ![1]⟩ : Shape).Idx → α) (h : (⟨1, ![1]⟩ : Shape).ShapeCasts ⟨2, ![1, 1]⟩) :
    shapeCast (⟨2, ![1, 1]⟩ : Shape) b h (ix2 0 0) = b (ix1 0) :=
  (shapeCast_addUnit_apply ![1] b h (ix2 0 0)).trans (congrArg b (funext fun a => match a with | ⟨0, _⟩ => rfl))

/-- The upper half: rows 0 … 63 of a 128 × 64 array. -/
theorem upper_half (x : (⟨2, ![128, 64]⟩ : Shape).Idx → α) (h : (⟨2, ![128, 64]⟩ : Shape).Slices ![0, 0] ⟨2, ![64, 64]⟩) (k j : Fin 64) :
    extractStridedSlice (⟨2, ![64, 64]⟩ : Shape) ![0, 0] x h (ix2 k j) = x (ix2 ⟨k.val, by omega⟩ j) :=
  extractStridedSlice_apply ![0, 0] x h (ix2 k j) (ix2 ⟨k.val, by omega⟩ j) (fun a => match a with
    | ⟨0, _⟩ => by show k.val = 0 + k.val; omega
    | ⟨1, _⟩ => by show j.val = 0 + j.val; omega)

/-- The lower half: rows 64 … 127 of a 128 × 64 array. -/
theorem lower_half (x : (⟨2, ![128, 64]⟩ : Shape).Idx → α) (h : (⟨2, ![128, 64]⟩ : Shape).Slices ![64, 0] ⟨2, ![64, 64]⟩) (k j : Fin 64) :
    extractStridedSlice (⟨2, ![64, 64]⟩ : Shape) ![64, 0] x h (ix2 k j) = x (ix2 ⟨k.val + 64, by omega⟩ j) :=
  extractStridedSlice_apply ![64, 0] x h (ix2 k j) (ix2 ⟨k.val + 64, by omega⟩ j) (fun a => match a with
    | ⟨0, _⟩ => by show k.val + 64 = 64 + k.val; omega
    | ⟨1, _⟩ => by show j.val = 0 + j.val; omega)

end Cert.Layout

end
-- ==== Proof.KChain.lean ====
/-
  The kernel's program, boundary by boundary, holds the reference's stages: the chain from the launch to the result.

  Each link is one of the facts proved beside this file: the shared index vectors and normalisation column at the first
  region's entry (hypotheses h3, h6, h32 here; the certificate supplies them); three layers, each a panel product, the shared gather / scale / scatter-add, and a bias-and-clamp;
  the pooling (where the precondition's index range makes the kernel's marked gather the reference's plain one); the
  head; the final reshape.
-/
import proofs.«411938_j42167988912133_2_alg».proof.Proof.KLayer1
import proofs.«411938_j42167988912133_2_alg».proof.Proof.KLayer2
import proofs.«411938_j42167988912133_2_alg».proof.Proof.KLayer3
import proofs.«411938_j42167988912133_2_alg».proof.Proof.KPool
import proofs.«411938_j42167988912133_2_alg».proof.Proof.KHead
import proofs.«411938_j42167988912133_2_alg».proof.Proof.RefSpec
import proofs.«411938_j42167988912133_2_alg».proof.Proof.RefHead
import proofs.«411938_j42167988912133_2_alg».proof.Proof.Layout

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)
variable [hPre_finite_inputs : Cert.Pre_finite_inputs.Facts]

/-- Layer 1's output at boundary 6. -/
theorem layer1
    (h3 : W3 m ρ c (Proc.devRef .tc main_v3) = Cert.ReferenceIdeal.Read.val_main_v3 (F := Ideal) (m ((c : Thread nD τ).loc main_arg1)))
    (h6 : W3 m ρ c (Proc.devRef .tc main_v6) = Cert.ReferenceIdeal.Read.val_main_v6 (F := Ideal) (m ((c : Thread nD τ).loc main_arg1)))
    (h32 : W3 m ρ c (Proc.devRef .tc main_v32) = Cert.ReferenceIdeal.Read.val_main_v40 (F := Ideal) (m ((c : Thread nD τ).loc main_arg1))) :
    W6 m ρ c (Proc.devRef .tc main_v47) = Cert.ReferenceIdeal.Read.val_main_v49 (F := Ideal) (m ((c : Thread nD τ).loc main_arg0)) (m ((c : Thread nD τ).loc main_arg1)) (m ((c : Thread nD τ).loc main_arg4)) (m ((c : Thread nD τ).loc main_arg5)) :=
  v47_at6 m ρ c
    (v45_at5 m ρ c (v33_at4 m ρ c (Cert.RefSpec.mm1 _ _)) h3 h6 h32)
    (Cert.RefSpec.br1 _ _ _ _ _ (fun j => Cert.Layout.row_of_vec64 _ _ j))

/-- Layer 2's output at boundary 9. -/
theorem layer2
    (h3 : W3 m ρ c (Proc.devRef .tc main_v3) = Cert.ReferenceIdeal.Read.val_main_v3 (F := Ideal) (m ((c : Thread nD τ).loc main_arg1)))
    (h6 : W3 m ρ c (Proc.devRef .tc main_v6) = Cert.ReferenceIdeal.Read.val_main_v6 (F := Ideal) (m ((c : Thread nD τ).loc main_arg1)))
    (h32 : W3 m ρ c (Proc.devRef .tc main_v32) = Cert.ReferenceIdeal.Read.val_main_v40 (F := Ideal) (m ((c : Thread nD τ).loc main_arg1))) :
    W9 m ρ c (Proc.devRef .tc main_v62) = Cert.ReferenceIdeal.Read.val_main_v67 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) :=
  v62_at9 m ρ c
    (v60_at8 m ρ c (v48_at7 m ρ c (layer1 m ρ c h3 h6 h32) (Cert.RefSpec.mm2 _ _ _ _ _)) h3 h6 h32)
    (Cert.RefSpec.br2 _ _ _ _ _ _ _ (fun j => Cert.Layout.row_of_vec64 _ _ j))

/-- Layer 3's output at boundary 12. -/
theorem layer3
    (h3 : W3 m ρ c (Proc.devRef .tc main_v3) = Cert.ReferenceIdeal.Read.val_main_v3 (F := Ideal) (m ((c : Thread nD τ).loc main_arg1)))
    (h6 : W3 m ρ c (Proc.devRef .tc main_v6) = Cert.ReferenceIdeal.Read.val_main_v6 (F := Ideal) (m ((c : Thread nD τ).loc main_arg1)))
    (h32 : W3 m ρ c (Proc.devRef .tc main_v32) = Cert.ReferenceIdeal.Read.val_main_v40 (F := Ideal) (m ((c : Thread nD τ).loc main_arg1))) :
    W12 m ρ c (Proc.devRef .tc main_v77) = Cert.ReferenceIdeal.Read.val_main_v85 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  v77_at12 m ρ c
    (v75_at11 m ρ c (v63_at10 m ρ c (layer2 m ρ c h3 h6 h32) (Cert.RefSpec.mm3 _ _ _ _ _ _ _)) h3 h6 h32)
    (Cert.RefSpec.br3 _ _ _ _ _ _ _ _ _ (fun j => Cert.Layout.row_of_vec64 _ _ j))

/-- The program's result at the last boundary is the reference's last stage at the kernel's arguments. -/
theorem result (hpre : Cert.Pre_KernelIdeal m)
    (h3 : W3 m ρ c (Proc.devRef .tc main_v3) = Cert.ReferenceIdeal.Read.val_main_v3 (F := Ideal) (m ((c : Thread nD τ).loc main_arg1)))
    (h6 : W3 m ρ c (Proc.devRef .tc main_v6) = Cert.ReferenceIdeal.Read.val_main_v6 (F := Ideal) (m ((c : Thread nD τ).loc main_arg1)))
    (h32 : W3 m ρ c (Proc.devRef .tc main_v32) = Cert.ReferenceIdeal.Read.val_main_v40 (F := Ideal) (m ((c : Thread nD τ).loc main_arg1))) :
    W17 m ρ c (Proc.devRef .tc main_v98) = Cert.ReferenceIdeal.Read.val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  v98_at17 m ρ c
    (v97_at16 m ρ c (v92_at15 m ρ c hpre (layer3 m ρ c h3 h6 h32)) (v88_at15 m ρ c (layer3 m ρ c h3 h6 h32)) (v93_at15 m ρ c) (v94_at15 m ρ c)
      (v95_at15 m ρ c) (v96_at15 m ρ c)
      (Cert.RefSpec.head _ _ _ _ _ _ _ _ _ _ _ _ _ _ _ _ _ _
        (fun k j => Cert.Layout.upper_half _ _ k j) (fun k j => Cert.Layout.lower_half _ _ k j)
        (fun j => Cert.Layout.row_of_vec64 _ _ j) (Cert.Layout.cell_of_vec1 _ _)))

end Cert.KernelIdeal.Chain

end
-- ==== Proof.lean ====
/-
  A three-layer graph convolution with a pooled two-layer head, written as seven tiled kernels among host operations,
  against its plain reference: on the extended reals the two compute the same 512 numbers.

  What differs between the programs, and why it does not matter: each layer's matrix product is computed panel by
  panel (ten panels of 10000 rows) where the reference computes it whole — the same sums entry by entry; the bias and
  the clamp at zero are applied inside a panel with the bias as one row — the reference's broadcast bias and maximum
  with zero; the head contracts the pooled rows and the global row against the two halves of a weight matrix and adds
  — the reference's one contraction of the joined row, split after 64 terms; changes of float format are the identity
  on the extended reals. Everything else — the edge gathers, the normalisation, the scatter-adds, the pooling — is the
  same operations applied to equal operands. One thing holds only on the statement's domain: the kernel's row gather for
  the pooled rows marks out-of-range indices, the reference's clamps them; with every index of that gather in range
  (the added evident-domain conjunct of the precondition) the mark is never used and the two gathers agree.

  The three frames: the two kernel programs' are the generated frame certificates; the reference's is its run with the
  result dropped. There is nothing to preserve between the word-level kernel and its idealization (the ideal pass
  rewrote nothing).
-/
import proofs.«411938_j42167988912133_2_alg».proof.Defs
import proofs.«411938_j42167988912133_2_alg».proof.Proof.Gen.Kernel
import proofs.«411938_j42167988912133_2_alg».proof.Proof.Gen.Kernel.Skeleton
import proofs.«411938_j42167988912133_2_alg».proof.Proof.Gen.Kernel.Launch
import proofs.«411938_j42167988912133_2_alg».proof.Proof.Gen.Kernel.Points
import proofs.«411938_j42167988912133_2_alg».proof.Proof.Gen.Kernel.Frame
import proofs.«411938_j42167988912133_2_alg».proof.Proof.Gen.KernelIdeal
import proofs.«411938_j42167988912133_2_alg».proof.Proof.Gen.KernelIdeal.Skeleton
import proofs.«411938_j42167988912133_2_alg».proof.Proof.Gen.KernelIdeal.Launch
import proofs.«411938_j42167988912133_2_alg».proof.Proof.Gen.KernelIdeal.Points
import proofs.«411938_j42167988912133_2_alg».proof.Proof.Gen.KernelIdeal.Frame
import proofs.«411938_j42167988912133_2_alg».proof.Proof.Gen.ReferenceIdeal
import proofs.«411938_j42167988912133_2_alg».proof.Proof.RefStages
import proofs.«411938_j42167988912133_2_alg».proof.Proof.RefRunStages
import proofs.«411938_j42167988912133_2_alg».proof.Proof.Gen.Pre_finite_inputs
import proofs.«411938_j42167988912133_2_alg».proof.Proof.KRun
import proofs.«411938_j42167988912133_2_alg».proof.Proof.KEntry
import proofs.«411938_j42167988912133_2_alg».proof.Proof.KChain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run, the result dropped. -/
theorem frame_reference : Cert.frame_ReferenceIdeal := fun m ρ _ =>
  (θ_run Cert.ReferenceIdeal.defs _ _).mono (fun _ h c => (h c).2) (Cert.ReferenceIdeal.ValueS.run (F := Ideal) m ρ)

theorem preserves : Cert.preserves_Kernel_KernelIdeal := trivial

/-- Both programs end with the reference's last stage at the (agreeing) arguments: the kernel's program by the chain of
    its boundaries, the reference by its run. -/
theorem algebraic : Cert.algebraic_KernelIdeal_ReferenceIdeal := by
  intro m ρ m' ρ' hpre hagree
  refine ⟨_, Cert.KernelIdeal.GenV.run_value m ρ, ?_⟩
  refine (θ_run Cert.ReferenceIdeal.defs _ _).mono (fun r h c => ⟨(h c).1.trans ?_, (h c).2⟩)
    (Cert.ReferenceIdeal.ValueS.run (F := Ideal) m' ρ')
  obtain ⟨e0, e1, e2, e3, e4, e5, e6, e7, e8, e9, e10, e11, e12, e13⟩ := hagree c
  rw [e0, e1, e2, e3, e4, e5, e6, e7, e8, e9, e10, e11, e12, e13]
  exact (Cert.KernelIdeal.Chain.result m ρ c hpre
    (Cert.KernelIdeal.Chain.v3_at3 m ρ c) (Cert.KernelIdeal.Chain.v6_at3 m ρ c) (Cert.KernelIdeal.Chain.v32_at3 m ρ c)).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
